-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S16x1024x3 : Shape := ⟨3, ![16, 1024, 3]⟩
abbrev S16x64x4096 : Shape := ⟨3, ![16, 64, 4096]⟩
abbrev S64x67 : Shape := ⟨2, ![64, 67]⟩
abbrev S64 : Shape := ⟨1, ![64]⟩
abbrev S64x64 : Shape := ⟨2, ![64, 64]⟩
abbrev S128x64 : Shape := ⟨2, ![128, 64]⟩
abbrev S128 : Shape := ⟨1, ![128]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel
  bcast_S_S16x1024x3 : S_.BroadcastsInDim S16x1024x3 (![] : Fin 0 → Fin S16x1024x3.rank)
  reducesTo_S16x1024x3_S_d0_1_2 : S16x1024x3.ReducesTo [0, 1, 2] S_
  bcast_S_S16x64x4096 : S_.BroadcastsInDim S16x64x4096 (![] : Fin 0 → Fin S16x64x4096.rank)
  reducesTo_S16x64x4096_S_d0_1_2 : S16x64x4096.ReducesTo [0, 1, 2] S_
  bcast_S_S64x67 : S_.BroadcastsInDim S64x67 (![] : Fin 0 → Fin S64x67.rank)
  reducesTo_S64x67_S_d0_1 : S64x67.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S64 .f32) (main_arg8 : FVec F S64 .f32) (main_arg9 : FVec F S128x64 .f32) (main_arg10 : FVec F S128 .f32) (main_arg11 : FVec F S128 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg9
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_v48 main_v49 main_v50

def fn_part1 {F : FTy → Type} [FloatOps F] (main_arg4 : FVec F S64 .f32) (main_arg5 : FVec F S64 .f32) (main_arg6 : FVec F S64x64 .f32) (main_arg7 : FVec F S64 .f32) (main_arg8 : FVec F S64 .f32) (main_arg9 : FVec F S128x64 .f32) (main_arg10 : FVec F S128 .f32) (main_arg11 : FVec F S128 .f32) (main_v13 : IVec S_ 1) (main_v16 : IVec S64x67 1) : IVec S_ 1 :=
  let main_c_5 : IVec S_ 1 := constantI S_ 1 1#1
  let main_v17 : IVec S_ 1 := (fun x v => Host.reduce IntOp.andi x v reducesTo_S64x67_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16x4096x3 .f32) (main_arg1 : FVec F S16x1024x3 .f32) (main_arg2 : FVec F S16x64x4096 .f32) (main_arg3 : FVec F S64x67 .f32) (main_arg4 : FVec F S64 .f32) (main_arg5 : FVec F S64 .f32) (main_arg6 : FVec F S64x64 .f32) (main_arg7 : FVec F S64 .f32) (main_arg8 : FVec F S64 .f32) (main_arg9 : FVec F S128x64 .f32) (main_arg10 : FVec F S128 .f32) (main_arg11 : FVec F S128 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x1024x3 .f32 := Host.absf main_arg1
  let main_cst_0 : FVec F S_ .f32 := constant S_ .f32 0x7F800000#32
  let main_v5 : FVec F S16x1024x3 .f32 := broadcastInDim S16x1024x3 ![] bcast_S_S16x1024x3 main_cst_0
  let main_v6 : IVec S16x1024x3 1 := cmpf .olt main_v4 main_v5
  let main_c_1 : IVec S_ 1 := constantI S_ 1 1#1
  let main_v7 : IVec S_ 1 := (fun x v => Host.reduce IntOp.andi x v reducesTo_S16x1024x3_S_d0_1_2 h_S_) main_v6 main_c_1
  let main_v8 : IVec S_ 1 := andi main_v3 main_v7
  let main_v9 : FVec F S16x64x4096 .f32 := Host.absf main_arg2
  let main_cst_2 : FVec F S_ .f32 := constant S_ .f32 0x7F800000#32
  let main_v10 : FVec F S16x64x4096 .f32 := broadcastInDim S16x64x4096 ![] bcast_S_S16x64x4096 main_cst_2
  let main_v11 : IVec S16x64x4096 1 := cmpf .olt main_v9 main_v10
  let main_c_3 : IVec S_ 1 := constantI S_ 1 1#1
  let main_v12 : IVec S_ 1 := (fun x v => Host.reduce IntOp.andi x v reducesTo_S16x64x4096_S_d0_1_2 h_S_) main_v11 main_c_3
  let main_v13 : IVec S_ 1 := andi main_v8 main_v12
  let main_v14 : FVec F S64x67 .f32 := Host.absf main_arg3
  let main_cst_4 : FVec F S_ .f32 := constant S_ .f32 0x7F800000#32
  let main_v15 : FVec F S64x67 .f32 := broadcastInDim S64x67 ![] bcast_S_S64x67 main_cst_4
  let main_v16 : IVec S64x67 1 := cmpf .olt main_v14 main_v15
  fn_part1 (F := F) main_arg4 main_arg5 main_arg6 main_arg7 main_arg8 main_arg9 main_arg10 main_arg11 main_v13 main_v16
-- ==== Kernel.lean ====
abbrev S16x4096x3 : Shape := ⟨3, ![16, 4096, 3]⟩
abbrev S16x1024x3 : Shape := ⟨3, ![16, 1024, 3]⟩
abbrev S16x64x4096 : Shape := ⟨3, ![16, 64, 4096]⟩
abbrev S64x67 : Shape := ⟨2, ![64, 67]⟩
abbrev S64 : Shape := ⟨1, ![64]⟩
abbrev S64x64 : Shape := ⟨2, ![64, 64]⟩
abbrev S128x64 : Shape := ⟨2, ![128, 64]⟩
abbrev S128 : Shape := ⟨1, ![128]⟩
abbrev S16x1024x1x3 : Shape := ⟨4, ![16, 1024, 1, 3]⟩
abbrev S16x1x4096x3 : Shape := ⟨4, ![16, 1, 4096, 3]⟩
abbrev S16x1024x4096x3 : Shape := ⟨4, ![16, 1024, 4096, 3]⟩
abbrev S_ : Shape := ⟨0, ![]⟩
abbrev S16x1024x4096 : Shape := ⟨3, ![16, 1024, 4096]⟩
abbrev S4096 : Shape := ⟨1, ![4096]⟩
abbrev S1x1x4096 : Shape := ⟨3, ![1, 1, 4096]⟩
abbrev S16x1024x32 : Shape := ⟨3, ![16, 1024, 32]⟩
abbrev S16x1024x32x1 : Shape := ⟨4, ![16, 1024, 32, 1]⟩
abbrev S1 : Shape := ⟨1, ![1]⟩
abbrev S1x1x1x1 : Shape := ⟨4, ![1, 1, 1, 1]⟩
abbrev S16x1024x1 : Shape := ⟨3, ![16, 1024, 1]⟩
abbrev S16x1024x32x3 : Shape := ⟨4, ![16, 1024, 32, 3]⟩
abbrev S16x4096x64 : Shape := ⟨3, ![16, 4096, 64]⟩
abbrev S16x1024x32x64 : Shape := ⟨4, ![16, 1024, 32, 64]⟩
abbrev S16x1024x32x67 : Shape := ⟨4, ![16, 1024, 32, 67]⟩
abbrev S524288x67 : Shape := ⟨2, ![524288, 67]⟩
abbrev S67x64 : Shape := ⟨2, ![67, 64]⟩
abbrev S524288x64 : Shape := ⟨2, ![524288, 64]⟩
abbrev S8192x67 : Shape := ⟨2, ![8192, 67]⟩
abbrev S8192x64 : Shape := ⟨2, ![8192, 64]⟩
abbrev S1x64 : Shape := ⟨2, ![1, 64]⟩
abbrev S64x128 : Shape := ⟨2, ![64, 128]⟩
abbrev S524288x128 : Shape := ⟨2, ![524288, 128]⟩
abbrev S8192x128 : Shape := ⟨2, ![8192, 128]⟩
abbrev S1x128 : Shape := ⟨2, ![1, 128]⟩
abbrev S16384x128 : Shape := ⟨2, ![16384, 128]⟩
abbrev S256x128 : Shape := ⟨2, ![256, 128]⟩
abbrev S256x32x128 : Shape := ⟨3, ![256, 32, 128]⟩
abbrev S16x1024x128 : Shape := ⟨3, ![16, 1024, 128]⟩
abbrev S16x128x1024 : Shape := ⟨3, ![16, 128, 1024]⟩

abbrev nBuf : Space → Nat
  | .hbm => 190
  | .vmem => 31
  | .smem => 0
  | _ => 0

abbrev hbmTy0_0 (i : Nat) : BufTy := match i % 128 with
  | 0 => ⟨S16x4096x3, .f32⟩
  | 1 => ⟨S16x1024x3, .f32⟩
  | 2 => ⟨S16x64x4096, .f32⟩
  | 3 => ⟨S64x67, .f32⟩
  | 4 => ⟨S64, .f32⟩
  | 5 => ⟨S64, .f32⟩
  | 6 => ⟨S64x64, .f32⟩
  | 7 => ⟨S64, .f32⟩
  | 8 => ⟨S64, .f32⟩
  | 9 => ⟨S128x64, .f32⟩
  | 10 => ⟨S128, .f32⟩
  | 11 => ⟨S128, .f32⟩
  | 12 => ⟨S16x1024x1x3, .f32⟩
  | 13 => ⟨S16x1x4096x3, .f32⟩
  | 14 => ⟨S16x1024x4096x3, .f32⟩
  | 15 => ⟨S16x1024x4096x3, .f32⟩
  | 16 => ⟨S16x1024x4096x3, .f32⟩
  | 17 => ⟨S16x1024x4096x3, .f32⟩
  | 18 => ⟨S_, .f32⟩
  | 19 => ⟨S16x1024x4096, .f32⟩
  | 20 => ⟨S_, .f32⟩
  | 21 => ⟨S16x1024x4096, .f32⟩
  | 22 => ⟨S16x1024x4096, .i1⟩
  | 23 => ⟨S4096, .i32⟩
  | 24 => ⟨S1x1x4096, .i32⟩
  | 25 => ⟨S_, .i32⟩
  | 26 => ⟨S16x1024x4096, .i32⟩
  | 27 => ⟨S16x1024x4096, .i32⟩
  | 28 => ⟨S16x1024x4096, .i32⟩
  | 29 => ⟨S16x1024x4096, .i32⟩
  | 30 => ⟨S16x1024x4096, .i32⟩
  | 31 => ⟨S16x1024x4096, .i32⟩
  | 32 => ⟨S16x1024x32, .i32⟩
  | 33 => ⟨S_, .i32⟩
  | 34 => ⟨S16x1024x32, .i32⟩
  | 35 => ⟨S16x1024x32, .i1⟩
  | 36 => ⟨S_, .i32⟩
  | 37 => ⟨S16x1024x32, .i32⟩
  | 38 => ⟨S16x1024x32, .i32⟩
  | 39 => ⟨S16x1024x32, .i32⟩
  | 40 => ⟨S16x1024x32x1, .i32⟩
  | 41 => ⟨S1, .i32⟩
  | 42 => ⟨S_, .i32⟩
  | 43 => ⟨S16x1024x32x1, .i32⟩
  | 44 => ⟨S16x1024x32x1, .i1⟩
  | 45 => ⟨S1x1x1x1, .i32⟩
  | 46 => ⟨S16x1024x32x1, .i32⟩
  | 47 => ⟨S16x1024x32x1, .i1⟩
  | 48 => ⟨S16x1024x32x1, .i1⟩
  | 49 => ⟨S_, .i1⟩
  | 50 => ⟨S16x1024x32, .i1⟩
  | 51 => ⟨S16x1024x32, .i32⟩
  | 52 => ⟨S_, .i32⟩
  | 53 => ⟨S16x1024x32, .i32⟩
  | 54 => ⟨S16x1024x32, .i32⟩
  | 55 => ⟨S_, .i32⟩
  | 56 => ⟨S16x1024x32, .i32⟩
  | 57 => ⟨S16x1024x32, .i1⟩
  | 58 => ⟨S16x1024x1, .i32⟩
  | 59 => ⟨S16x1024x32, .i32⟩
  | 60 => ⟨S16x1024x32, .i32⟩
  | 61 => ⟨S_, .i32⟩
  | 62 => ⟨S16x1024x32, .i32⟩
  | 63 => ⟨S16x1024x32, .i1⟩
  | 64 => ⟨S_, .i32⟩
  | 65 => ⟨S16x1024x32, .i32⟩
  | 66 => ⟨S16x1024x32, .i32⟩
  | 67 => ⟨S16x1024x32, .i32⟩
  | 68 => ⟨S16x1024x32x1, .i32⟩
  | 69 => ⟨S16x1024x32x3, .f32⟩
  | 70 => ⟨S16x1024x1x3, .f32⟩
  | 71 => ⟨S16x1024x32x3, .f32⟩
  | 72 => ⟨S16x1024x32x3, .f32⟩
  | 73 => ⟨S16x4096x64, .f32⟩
  | 74 => ⟨S_, .i32⟩
  | 75 => ⟨S16x1024x32, .i32⟩
  | 76 => ⟨S16x1024x32, .i1⟩
  | 77 => ⟨S_, .i32⟩
  | 78 => ⟨S16x1024x32, .i32⟩
  | 79 => ⟨S16x1024x32, .i32⟩
  | 80 => ⟨S16x1024x32, .i32⟩
  | 81 => ⟨S16x1024x32x1, .i32⟩
  | 82 => ⟨S16x1024x32x64, .f32⟩
  | 83 => ⟨S16x1024x32x67, .f32⟩
  | 84 => ⟨S524288x67, .f32⟩
  | 85 => ⟨S67x64, .f32⟩
  | 86 => ⟨S524288x64, .f32⟩
  | 87 => ⟨S_, .f32⟩
  | 88 => ⟨S64, .f32⟩
  | 89 => ⟨S_, .f32⟩
  | 90 => ⟨S64, .f32⟩
  | 91 => ⟨S64, .f32⟩
  | 92 => ⟨S_, .i32⟩
  | 93 => ⟨S_, .f32⟩
  | 94 => ⟨S64, .f32⟩
  | 95 => ⟨S1x64, .f32⟩
  | 96 => ⟨S_, .f32⟩
  | 97 => ⟨S1x64, .f32⟩
  | 98 => ⟨S1x64, .f32⟩
  | 99 => ⟨S524288x64, .f32⟩
  | 100 => ⟨S524288x64, .f32⟩
  | 101 => ⟨S524288x64, .f32⟩
  | 102 => ⟨S_, .f32⟩
  | 103 => ⟨S_, .f32⟩
  | 104 => ⟨S_, .f32⟩
  | 105 => ⟨S_, .f32⟩
  | 106 => ⟨S64, .f32⟩
  | 107 => ⟨S64, .f32⟩
  | 108 => ⟨S64, .f32⟩
  | 109 => ⟨S_, .f32⟩
  | 110 => ⟨S_, .i1⟩
  | 111 => ⟨S_, .f32⟩
  | 112 => ⟨S_, .f32⟩
  | 113 => ⟨S64, .f32⟩
  | 114 => ⟨S64, .f32⟩
  | 115 => ⟨S64x64, .f32⟩
  | 116 => ⟨S1x64, .f32⟩
  | 117 => ⟨S1x64, .f32⟩
  | 118 => ⟨S1x64, .f32⟩
  | 119 => ⟨S1x64, .f32⟩
  | 120 => ⟨S524288x64, .f32⟩
  | 121 => ⟨S_, .f32⟩
  | 122 => ⟨S64, .f32⟩
  | 123 => ⟨S_, .f32⟩
  | 124 => ⟨S64, .f32⟩
  | 125 => ⟨S64, .f32⟩
  | 126 => ⟨S_, .i32⟩
  | 127 => ⟨S_, .f32⟩
  | _ => ⟨S16x4096x3, .f32⟩

abbrev hbmTy0_1 (i : Nat) : BufTy := match i % 128 with
  | 0 => ⟨S64, .f32⟩
  | 1 => ⟨S1x64, .f32⟩
  | 2 => ⟨S_, .f32⟩
  | 3 => ⟨S1x64, .f32⟩
  | 4 => ⟨S1x64, .f32⟩
  | 5 => ⟨S524288x64, .f32⟩
  | 6 => ⟨S524288x64, .f32⟩
  | 7 => ⟨S524288x64, .f32⟩
  | 8 => ⟨S_, .f32⟩
  | 9 => ⟨S_, .f32⟩
  | 10 => ⟨S_, .f32⟩
  | 11 => ⟨S_, .f32⟩
  | 12 => ⟨S64, .f32⟩
  | 13 => ⟨S64, .f32⟩
  | 14 => ⟨S64, .f32⟩
  | 15 => ⟨S_, .f32⟩
  | 16 => ⟨S_, .i1⟩
  | 17 => ⟨S_, .f32⟩
  | 18 => ⟨S_, .f32⟩
  | 19 => ⟨S64, .f32⟩
  | 20 => ⟨S64, .f32⟩
  | 21 => ⟨S64x128, .f32⟩
  | 22 => ⟨S1x64, .f32⟩
  | 23 => ⟨S1x64, .f32⟩
  | 24 => ⟨S1x64, .f32⟩
  | 25 => ⟨S1x64, .f32⟩
  | 26 => ⟨S524288x128, .f32⟩
  | 27 => ⟨S_, .f32⟩
  | 28 => ⟨S128, .f32⟩
  | 29 => ⟨S_, .f32⟩
  | 30 => ⟨S128, .f32⟩
  | 31 => ⟨S128, .f32⟩
  | 32 => ⟨S_, .i32⟩
  | 33 => ⟨S_, .f32⟩
  | 34 => ⟨S128, .f32⟩
  | 35 => ⟨S1x128, .f32⟩
  | 36 => ⟨S_, .f32⟩
  | 37 => ⟨S1x128, .f32⟩
  | 38 => ⟨S1x128, .f32⟩
  | 39 => ⟨S524288x128, .f32⟩
  | 40 => ⟨S524288x128, .f32⟩
  | 41 => ⟨S524288x128, .f32⟩
  | 42 => ⟨S_, .f32⟩
  | 43 => ⟨S_, .f32⟩
  | 44 => ⟨S_, .f32⟩
  | 45 => ⟨S_, .f32⟩
  | 46 => ⟨S128, .f32⟩
  | 47 => ⟨S128, .f32⟩
  | 48 => ⟨S128, .f32⟩
  | 49 => ⟨S_, .f32⟩
  | 50 => ⟨S_, .i1⟩
  | 51 => ⟨S_, .f32⟩
  | 52 => ⟨S_, .f32⟩
  | 53 => ⟨S128, .f32⟩
  | 54 => ⟨S128, .f32⟩
  | 55 => ⟨S1x128, .f32⟩
  | 56 => ⟨S1x128, .f32⟩
  | 57 => ⟨S1x128, .f32⟩
  | 58 => ⟨S1x128, .f32⟩
  | 59 => ⟨S16384x128, .f32⟩
  | 60 => ⟨S16x1024x128, .f32⟩
  | 61 => ⟨S16x128x1024, .f32⟩
  | _ => ⟨S16x4096x3, .f32⟩

abbrev hbmTy (i : Nat) : BufTy := match i / 128 with
  | 0 => hbmTy0_0 i
  | 1 => hbmTy0_1 i
  | _ => ⟨S16x4096x3, .f32⟩

abbrev bufTy : (tb : Table) → Fin (tcTables nBuf tb) → BufTy
  | .hbm, ⟨i, _⟩ => hbmTy i
  | .local _ .vmem, ⟨0, _⟩ => ⟨S8192x67, .f32⟩
  | .local _ .vmem, ⟨1, _⟩ => ⟨S8192x67, .f32⟩
  | .local _ .vmem, ⟨2, _⟩ => ⟨S67x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S8192x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S64x64, .f32⟩
  | .local _ .vmem, ⟨12, _⟩ => ⟨S8192x64, .f32⟩
  | .local _ .vmem, ⟨13, _⟩ => ⟨S8192x64, .f32⟩
  | .local _ .vmem, ⟨14, _⟩ => ⟨S8192x64, .f32⟩
  | .local _ .vmem, ⟨15, _⟩ => ⟨S8192x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S64x128, .f32⟩
  | .local _ .vmem, ⟨21, _⟩ => ⟨S8192x128, .f32⟩
  | .local _ .vmem, ⟨22, _⟩ => ⟨S8192x128, .f32⟩
  | .local _ .vmem, ⟨23, _⟩ => ⟨S8192x128, .f32⟩
  | .local _ .vmem, ⟨24, _⟩ => ⟨S8192x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S256x128, .f32⟩
  | .local _ .vmem, ⟨30, _⟩ => ⟨S256x128, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_call1_v0 : Ref sig .tc := ⟨.hbm, 29, rfl⟩
abbrev main_call1_v1_0 : Ref sig .tc := ⟨.hbm, 30, rfl⟩
abbrev main_v12 : Ref sig .tc := ⟨.hbm, 31, rfl⟩
abbrev main_v13 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_c_4 : Ref sig .tc := ⟨.hbm, 52, rfl⟩
abbrev main_call2_v14 : Ref sig .tc := ⟨.hbm, 53, rfl⟩
abbrev main_v14 : Ref sig .tc := ⟨.hbm, 54, rfl⟩
abbrev main_c_1 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_call3_v0 : Ref sig .tc := ⟨.hbm, 59, rfl⟩
abbrev main_v18 : Ref sig .tc := ⟨.hbm, 60, rfl⟩
abbrev main_c_2 : Ref sig .tc := ⟨.hbm, 61, rfl⟩
abbrev main_v19 : Ref sig .tc := ⟨.hbm, 62, rfl⟩
abbrev main_v20 : Ref sig .tc := ⟨.hbm, 63, rfl⟩
abbrev main_c_3 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_c_4 : Ref sig .tc := ⟨.hbm, 74, rfl⟩
abbrev main_v30 : Ref sig .tc := ⟨.hbm, 75, rfl⟩
abbrev main_v31 : Ref sig .tc := ⟨.hbm, 76, rfl⟩
abbrev main_c_5 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_6 : Ref sig .tc := ⟨.hbm, 87, rfl⟩
abbrev main_v41 : Ref sig .tc := ⟨.hbm, 88, rfl⟩
abbrev main_cst_7 : Ref sig .tc := ⟨.hbm, 89, rfl⟩
abbrev main_v42 : Ref sig .tc := ⟨.hbm, 90, rfl⟩
abbrev main_v43 : Ref sig .tc := ⟨.hbm, 91, rfl⟩
abbrev main_c_8 : Ref sig .tc := ⟨.hbm, 92, rfl⟩
abbrev main_call4_cst : Ref sig .tc := ⟨.hbm, 93, rfl⟩
abbrev main_call4_v0 : Ref sig .tc := ⟨.hbm, 94, rfl⟩
abbrev main_call4_v1 : Ref sig .tc := ⟨.hbm, 95, rfl⟩
abbrev main_call4_cst_0 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_v5 : Ref sig .tc := ⟨.hbm, 100, rfl⟩
abbrev main_call4_v6 : Ref sig .tc := ⟨.hbm, 101, rfl⟩
abbrev main_call4_v7 : Ref sig .tc := ⟨.hbm, 102, rfl⟩
abbrev main_call4_cst_1 : Ref sig .tc := ⟨.hbm, 103, rfl⟩
abbrev main_call4_v8 : Ref sig .tc := ⟨.hbm, 104, rfl⟩
abbrev main_call4_cst_2 : Ref sig .tc := ⟨.hbm, 105, rfl⟩
abbrev main_call4_v9 : Ref sig .tc := ⟨.hbm, 106, rfl⟩
abbrev main_call4_v10 : Ref sig .tc := ⟨.hbm, 107, rfl⟩
abbrev main_call4_v11 : Ref sig .tc := ⟨.hbm, 108, rfl⟩
abbrev main_call4_cst_3 : Ref sig .tc := ⟨.hbm, 109, rfl⟩
abbrev main_call4_v12 : Ref sig .tc := ⟨.hbm, 110, rfl⟩
abbrev main_call4_cst_4 : Ref sig .tc := ⟨.hbm, 111, rfl⟩
abbrev main_call4_call0_v0 : Ref sig .tc := ⟨.hbm, 112, rfl⟩
abbrev main_call4_call0_v1 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_cst_9 : Ref sig .tc := ⟨.hbm, 121, rfl⟩
abbrev main_v51 : Ref sig .tc := ⟨.hbm, 122, rfl⟩
abbrev main_cst_10 : Ref sig .tc := ⟨.hbm, 123, rfl⟩
abbrev main_v52 : Ref sig .tc := ⟨.hbm, 124, rfl⟩
abbrev main_v53 : Ref sig .tc := ⟨.hbm, 125, rfl⟩
abbrev main_c_11 : Ref sig .tc := ⟨.hbm, 126, rfl⟩
abbrev main_call5_cst : Ref sig .tc := ⟨.hbm, 127, rfl⟩
abbrev main_call5_v0 : Ref sig .tc := ⟨.hbm, 128, rfl⟩
abbrev main_call5_v1 : Ref sig .tc := ⟨.hbm, 129, rfl⟩
abbrev main_call5_cst_0 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_call5_v5 : Ref sig .tc := ⟨.hbm, 134, rfl⟩
abbrev main_call5_v6 : Ref sig .tc := ⟨.hbm, 135, rfl⟩
abbrev main_call5_v7 : Ref sig .tc := ⟨.hbm, 136, rfl⟩
abbrev main_call5_cst_1 : Ref sig .tc := ⟨.hbm, 137, rfl⟩
abbrev main_call5_v8 : Ref sig .tc := ⟨.hbm, 138, rfl⟩
abbrev main_call5_cst_2 : Ref sig .tc := ⟨.hbm, 139, rfl⟩
abbrev main_call5_v9 : Ref sig .tc := ⟨.hbm, 140, rfl⟩
abbrev main_call5_v10 : Ref sig .tc := ⟨.hbm, 141, rfl⟩
abbrev main_call5_v11 : Ref sig .tc := ⟨.hbm, 142, rfl⟩
abbrev main_call5_cst_3 : Ref sig .tc := ⟨.hbm, 143, rfl⟩
abbrev main_call5_v12 : Ref sig .tc := ⟨.hbm, 144, rfl⟩
abbrev main_call5_cst_4 : Ref sig .tc := ⟨.hbm, 145, rfl⟩
abbrev main_call5_call0_v0 : Ref sig .tc := ⟨.hbm, 146, rfl⟩
abbrev main_call5_call0_v1 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_cst_12 : Ref sig .tc := ⟨.hbm, 155, rfl⟩
abbrev main_v61 : Ref sig .tc := ⟨.hbm, 156, rfl⟩
abbrev main_cst_13 : Ref sig .tc := ⟨.hbm, 157, rfl⟩
abbrev main_v62 : Ref sig .tc := ⟨.hbm, 158, rfl⟩
abbrev main_v63 : Ref sig .tc := ⟨.hbm, 159, rfl⟩
abbrev main_c_14 : Ref sig .tc := ⟨.hbm, 160, rfl⟩
abbrev main_call6_cst : Ref sig .tc := ⟨.hbm, 161, rfl⟩
abbrev main_call6_v0 : Ref sig .tc := ⟨.hbm, 162, rfl⟩
abbrev main_call6_v1 : Ref sig .tc := ⟨.hbm, 163, rfl⟩
abbrev main_call6_cst_0 : Ref sig .tc := ⟨.hbm, 164, rfl⟩
abbrev main_call6_v2 : Ref sig .tc := ⟨.hbm, 165, rfl⟩
abbrev main_call6_v3 : Ref sig .tc := ⟨.hbm, 166, rfl⟩
abbrev main_call6_v4 : Ref sig .tc := ⟨.hbm, 167, rfl⟩
abbrev main_call6_v5 : Ref sig .tc := ⟨.hbm, 168, rfl⟩
abbrev main_call6_v6 : Ref sig .tc := ⟨.hbm, 169, rfl⟩
abbrev main_call6_v7 : Ref sig .tc := ⟨.hbm, 170, rfl⟩
abbrev main_call6_cst_1 : Ref sig .tc := ⟨.hbm, 171, rfl⟩
abbrev main_call6_v8 : Ref sig .tc := ⟨.hbm, 172, rfl⟩
abbrev main_call6_cst_2 : Ref sig .tc := ⟨.hbm, 173, rfl⟩
abbrev main_call6_v9 : Ref sig .tc := ⟨.hbm, 174, rfl⟩
abbrev main_call6_v10 : Ref sig .tc := ⟨.hbm, 175, rfl⟩
abbrev main_call6_v11 : Ref sig .tc := ⟨.hbm, 176, rfl⟩
abbrev main_call6_cst_3 : Ref sig .tc := ⟨.hbm, 177, rfl⟩
abbrev main_call6_v12 : Ref sig .tc := ⟨.hbm, 178, rfl⟩
abbrev main_call6_cst_4 : Ref sig .tc := ⟨.hbm, 179, rfl⟩
abbrev main_call6_call0_v0 : Ref sig .tc := ⟨.hbm, 180, rfl⟩
abbrev main_call6_call0_v1 : Ref sig .tc := ⟨.hbm, 181, rfl⟩
abbrev main_v64 : Ref sig .tc := ⟨.hbm, 182, rfl⟩
abbrev main_v65 : Ref sig .tc := ⟨.hbm, 183, rfl⟩
abbrev main_v66 : Ref sig .tc := ⟨.hbm, 184, rfl⟩
abbrev main_v67 : Ref sig .tc := ⟨.hbm, 185, rfl⟩
abbrev main_v68 : Ref sig .tc := ⟨.hbm, 186, rfl⟩
abbrev main_v69 : Ref sig .tc := ⟨.hbm, 187, rfl⟩
abbrev main_v70 : Ref sig .tc := ⟨.hbm, 188, rfl⟩
abbrev main_v71 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem5_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x67 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S67x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8192x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8192x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S16x1024x3_S16x1024x1x3_0_1_3 : S16x1024x3.BroadcastsInDim S16x1024x1x3 (![0, 1, 3] : Fin 3 → Fin S16x1024x1x3.rank)
  bcast_S16x4096x3_S16x1x4096x3_0_2_3 : S16x4096x3.BroadcastsInDim S16x1x4096x3 (![0, 2, 3] : Fin 3 → Fin S16x1x4096x3.rank)
  bcast_S16x1024x1x3_S16x1024x4096x3_0_1_2_3 : S16x1024x1x3.BroadcastsInDim S16x1024x4096x3 (![0, 1, 2, 3] : Fin 4 → Fin S16x1024x4096x3.rank)
  bcast_S16x1x4096x3_S16x1024x4096x3_0_1_2_3 : S16x1x4096x3.BroadcastsInDim S16x1024x4096x3 (![0, 1, 2, 3] : Fin 4 → Fin S16x1024x4096x3.rank)
  reducesTo_S16x1024x4096x3_S16x1024x4096_d3 : S16x1024x4096x3.ReducesTo [3] S16x1024x4096
  h_S_ : 0 < S_.numel
  bcast_S_S16x1024x4096 : S_.BroadcastsInDim S16x1024x4096 (![] : Fin 0 → Fin S16x1024x4096.rank)
  bcast_S4096_S1x1x4096_2 : S4096.BroadcastsInDim S1x1x4096 (![2] : Fin 1 → Fin S1x1x4096.rank)
  bcast_S1x1x4096_S16x1024x4096_0_1_2 : S1x1x4096.BroadcastsInDim S16x1024x4096 (![0, 1, 2] : Fin 3 → Fin S16x1024x4096.rank)
  slices_S16x1024x4096_S16x1024x32_0_0_0 : S16x1024x4096.Slices ![0, 0, 0] S16x1024x32
  bcast_S_S16x1024x32 : S_.BroadcastsInDim S16x1024x32 (![] : Fin 0 → Fin S16x1024x32.rank)
  shapeCasts_S16x1024x32_S16x1024x32x1 : S16x1024x32.ShapeCasts S16x1024x32x1
  bcast_S_S16x1024x32x1 : S_.BroadcastsInDim S16x1024x32x1 (![] : Fin 0 → Fin S16x1024x32x1.rank)
  bcast_S1_S1x1x1x1_3 : S1.BroadcastsInDim S1x1x1x1 (![3] : Fin 1 → Fin S1x1x1x1.rank)
  bcast_S1x1x1x1_S16x1024x32x1_0_1_2_3 : S1x1x1x1.BroadcastsInDim S16x1024x32x1 (![0, 1, 2, 3] : Fin 4 → Fin S16x1024x32x1.rank)
  reducesTo_S16x1024x32x1_S16x1024x32_d3 : S16x1024x32x1.ReducesTo [3] S16x1024x32
  slices_S16x1024x32_S16x1024x1_0_0_0 : S16x1024x32.Slices ![0, 0, 0] S16x1024x1
  bcast_S16x1024x1_S16x1024x32_0_1_2 : S16x1024x1.BroadcastsInDim S16x1024x32 (![0, 1, 2] : Fin 3 → Fin S16x1024x32.rank)
  bcast_S16x1024x32_S16x1024x32x1_0_1_2 : S16x1024x32.BroadcastsInDim S16x1024x32x1 (![0, 1, 2] : Fin 3 → Fin S16x1024x32x1.rank)
  bcast_S16x1024x1x3_S16x1024x32x3_0_1_2_3 : S16x1024x1x3.BroadcastsInDim S16x1024x32x3 (![0, 1, 2, 3] : Fin 4 → Fin S16x1024x32x3.rank)
  transposes_S16x64x4096_S16x4096x64_0_2_1 : S16x64x4096.Transposes [0, 2, 1] S16x4096x64
  concatenates_S16x1024x32x3_S16x1024x32x64_S16x1024x32x67_d3 : Shape.Concatenates [S16x1024x32x3, S16x1024x32x64] S16x1024x32x67 3
  shapeCasts_S16x1024x32x67_S524288x67 : S16x1024x32x67.ShapeCasts S524288x67
  transposes_S64x67_S67x64_1_0 : S64x67.Transposes [1, 0] S67x64
  inb_S8192x67_S8192x67_0_0 : ∀ a, (![0, 0] : Fin 2 → Nat) a + S8192x67.size a ≤ S8192x67.size a
  h_S8192x67 : 0 < S8192x67.numel
  shapeCasts_S8192x67_S8192x67 : S8192x67.ShapeCasts S8192x67
  bitsLt_bf16_f32 : FTy.bits .bf16 < FTy.bits .f32
  inb_S67x64_S67x64_0_0 : ∀ a, (![0, 0] : Fin 2 → Nat) a + S67x64.size a ≤ S67x64.size a
  h_S67x64 : 0 < S67x64.numel
  shapeCasts_S67x64_S67x64 : S67x64.ShapeCasts S67x64
  inb_S8192x64_S8192x64_0_0 : ∀ a, (![0, 0] : Fin 2 → Nat) a + S8192x64.size a ≤ S8192x64.size a
  h_S8192x64 : 0 < S8192x64.numel
  reducesTo_S524288x64_S64_d0 : S524288x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S524288x64_0_1 : S1x64.BroadcastsInDim S524288x64 (![0, 1] : Fin 2 → Fin S524288x64.rank)
  transposes_S64x64_S64x64_1_0 : S64x64.Transposes [1, 0] S64x64
  shapeCasts_S64_S1x64 : S64.ShapeCasts S1x64
  shapeCasts_S8192x64_S8192x64 : S8192x64.ShapeCasts S8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S128x64_S64x128_1_0 : S128x64.Transposes [1, 0] S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S8192x128_S8192x128_0_0 : ∀ a, (![0, 0] : Fin 2 → Nat) a + S8192x128.size a ≤ S8192x128.size a
  h_S8192x128 : 0 < S8192x128.numel
  reducesTo_S524288x128_S128_d0 : S524288x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S524288x128_0_1 : S1x128.BroadcastsInDim S524288x128 (![0, 1] : Fin 2 → Fin S524288x128.rank)
  shapeCasts_S128_S1x128 : S128.ShapeCasts S1x128
  shapeCasts_S8192x128_S8192x128 : S8192x128.ShapeCasts S8192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  shapeCasts_S8192x128_S256x32x128 : S8192x128.ShapeCasts S256x32x128
  reduces_S256x32x128_S256x128 : S256x32x128.Reduces [1] S256x128
  inb_S256x128_S256x128_0_0 : ∀ a, (![0, 0] : Fin 2 → Nat) a + S256x128.size a ≤ S256x128.size a
  h_S256x128 : 0 < S256x128.numel
  shapeCasts_S16384x128_S16x1024x128 : S16384x128.ShapeCasts S16x1024x128
  transposes_S16x1024x128_S16x128x1024_0_2_1 : S16x1024x128.Transposes [0, 2, 1] S16x128x1024
  gather_S16x1024x4096_S16x1024x32x1_S16x1024x32_n_2_01_01_2_3_111_wf : GatherDims.WF S16x1024x4096 S16x1024x32x1 S16x1024x32 [] [2] [0, 1] [2] [0, 1] 3 ![1, 1, 1]
  gather_S16x4096x3_S16x1024x32x1_S16x1024x32x3_3_1_0_0_1_3_113_wf : GatherDims.WF S16x4096x3 S16x1024x32x1 S16x1024x32x3 [3] [1] [0] [1] [0] 3 ![1, 1, 3]
  gather_S16x4096x64_S16x1024x32x1_S16x1024x32x64_3_1_0_0_1_3_1164_wf : GatherDims.WF S16x4096x64 S16x1024x32x1 S16x1024x32x64 [3] [1] [0] [1] [0] 3 ![1, 1, 64]
  dot_S8192x67_S67x64_S8192x64_1_0_0_1_n_n_wf : DotDims.WF S8192x67 S67x64 S8192x64 [1] [0] [0] [1] [] []
  dot_S8192x64_S64x64_S8192x64_1_0_0_1_n_n_wf : DotDims.WF S8192x64 S64x64 S8192x64 [1] [0] [0] [1] [] []
  dot_S8192x64_S64x128_S8192x128_1_0_0_1_n_n_wf : DotDims.WF S8192x64 S64x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x67.size a ≤ S524288x67.size a
  hwx0_0 : ∀ i : grid0.Coords, EltTy.bits .f32 = 32 ∨ (Rect.block (s := S524288x67) S8192x67.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S67x64.size a ≤ S67x64.size a
  hwx0_1 : ∀ i : grid0.Coords, EltTy.bits .f32 = 32 ∨ (Rect.block (s := S67x64) S67x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S524288x64.size a
  hwx0_2 : ∀ i : grid0.Coords, EltTy.bits .f32 = 32 ∨ (Rect.block (s := S524288x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S524288x64.size a
  hwx1_0 : ∀ i : grid1.Coords, EltTy.bits .f32 = 32 ∨ (Rect.block (s := S524288x64) S8192x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8192x64.size a ≤ S524288x64.size a
  hwx1_6 : ∀ i : grid1.Coords, EltTy.bits .f32 = 32 ∨ (Rect.block (s := S524288x64) S8192x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S524288x64.size a
  hwx2_0 : ∀ i : grid2.Coords, EltTy.bits .f32 = 32 ∨ (Rect.block (s := S524288x64) S8192x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x128.size a ≤ S64x128.size a
  hwx2_5 : ∀ i : grid2.Coords, EltTy.bits .f32 = 32 ∨ (Rect.block (s := S64x128) S64x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8192x128.size a ≤ S524288x128.size a
  hwx2_6 : ∀ i : grid2.Coords, EltTy.bits .f32 = 32 ∨ (Rect.block (s := S524288x128) S8192x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S524288x128.size a
  hwx3_0 : ∀ i : grid3.Coords, EltTy.bits .f32 = 32 ∨ (Rect.block (s := S524288x128) S8192x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S16384x128.size a
  hwx3_5 : ∀ i : grid3.Coords, EltTy.bits .f32 = 32 ∨ (Rect.block (s := S16384x128) S256x128.size (cc3_transform_5 i) (hinb3_5 i)).WholeWords (EltTy.packing .f32)

variable [Facts₀]

def comparator_i32_i32_d2 : BitVec 32 × BitVec 32 → BitVec 32 × BitVec 32 → BitVec 1 :=
  fun l r =>
    let v2 := IntOp.cmpi .slt l.1 r.1
    v2
def gather_S16x1024x4096_S16x1024x32x1_S16x1024x32_n_2_01_01_2_3_111 : GatherDims S16x1024x4096 S16x1024x32x1 S16x1024x32 where
  offsetDims := []
  collapsedSliceDims := [2]
  operandBatchingDims := [0, 1]
  startIndicesBatchingDims := [0, 1]
  startIndexMap := [2]
  indexVectorDim := 3
  sliceSizes := ![1, 1, 1]
  wf := gather_S16x1024x4096_S16x1024x32x1_S16x1024x32_n_2_01_01_2_3_111_wf
def gather_S16x4096x3_S16x1024x32x1_S16x1024x32x3_3_1_0_0_1_3_113 : GatherDims S16x4096x3 S16x1024x32x1 S16x1024x32x3 where
  offsetDims := [3]
  collapsedSliceDims := [1]
  operandBatchingDims := [0]
  startIndicesBatchingDims := [0]
  startIndexMap := [1]
  indexVectorDim := 3
  sliceSizes := ![1, 1, 3]
  wf := gather_S16x4096x3_S16x1024x32x1_S16x1024x32x3_3_1_0_0_1_3_113_wf
def gather_S16x4096x64_S16x1024x32x1_S16x1024x32x64_3_1_0_0_1_3_1164 : GatherDims S16x4096x64 S16x1024x32x1 S16x1024x32x64 where
  offsetDims := [3]
  collapsedSliceDims := [1]
  operandBatchingDims := [0]
  startIndicesBatchingDims := [0]
  startIndexMap := [1]
  indexVectorDim := 3
  sliceSizes := ![1, 1, 64]
  wf := gather_S16x4096x64_S16x1024x32x1_S16x1024x32x64_3_1_0_0_1_3_1164_wf
def dot_S8192x67_S67x64_S8192x64_1_0_0_1_n_n : DotDims S8192x67 S67x64 S8192x64 where
  lhsContracting := [1]
  rhsContracting := [0]
  lhsNonContracting := [0]
  rhsNonContracting := [1]
  lhsBatch := []
  rhsBatch := []
  wf := dot_S8192x67_S67x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.ofSpec (Memref.whole main_v38) S8192x67.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S67x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S8192x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S64x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S8192x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v60) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S256x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S16x4096x3 : Shape := ⟨3, ![16, 4096, 3]⟩
abbrev S16x1024x3 : Shape := ⟨3, ![16, 1024, 3]⟩
abbrev S16x64x4096 : Shape := ⟨3, ![16, 64, 4096]⟩
abbrev S64x67 : Shape := ⟨2, ![64, 67]⟩
abbrev S64 : Shape := ⟨1, ![64]⟩
abbrev S64x64 : Shape := ⟨2, ![64, 64]⟩
abbrev S128x64 : Shape := ⟨2, ![128, 64]⟩
abbrev S128 : Shape := ⟨1, ![128]⟩
abbrev S16x1024x1x3 : Shape := ⟨4, ![16, 1024, 1, 3]⟩
abbrev S16x1x4096x3 : Shape := ⟨4, ![16, 1, 4096, 3]⟩
abbrev S16x1024x4096x3 : Shape := ⟨4, ![16, 1024, 4096, 3]⟩
abbrev S_ : Shape := ⟨0, ![]⟩
abbrev S16x1024x4096 : Shape := ⟨3, ![16, 1024, 4096]⟩
abbrev S4096 : Shape := ⟨1, ![4096]⟩
abbrev S1x1x4096 : Shape := ⟨3, ![1, 1, 4096]⟩
abbrev S16x1024x32 : Shape := ⟨3, ![16, 1024, 32]⟩
abbrev S16x1024x32x1 : Shape := ⟨4, ![16, 1024, 32, 1]⟩
abbrev S1 : Shape := ⟨1, ![1]⟩
abbrev S1x1x1x1 : Shape := ⟨4, ![1, 1, 1, 1]⟩
abbrev S16x1024x1 : Shape := ⟨3, ![16, 1024, 1]⟩
abbrev S16x1024x32x3 : Shape := ⟨4, ![16, 1024, 32, 3]⟩
abbrev S16x4096x64 : Shape := ⟨3, ![16, 4096, 64]⟩
abbrev S16x1024x32x64 : Shape := ⟨4, ![16, 1024, 32, 64]⟩
abbrev S16x1024x32x67 : Shape := ⟨4, ![16, 1024, 32, 67]⟩
abbrev S1x1x1x64 : Shape := ⟨4, ![1, 1, 1, 64]⟩
abbrev S16x1024x32x128 : Shape := ⟨4, ![16, 1024, 32, 128]⟩
abbrev S1x1x1x128 : Shape := ⟨4, ![1, 1, 1, 128]⟩
abbrev S16x1024x128 : Shape := ⟨3, ![16, 1024, 128]⟩
abbrev S16x128x1024 : Shape := ⟨3, ![16, 128, 1024]⟩

abbrev nBuf : Space → Nat
  | .hbm => 231
  | .vmem => 0
  | .smem => 0
  | _ => 0

abbrev hbmTy0_0 (i : Nat) : BufTy := match i % 128 with
  | 0 => ⟨S16x4096x3, .f32⟩
  | 1 => ⟨S16x1024x3, .f32⟩
  | 2 => ⟨S16x64x4096, .f32⟩
  | 3 => ⟨S64x67, .f32⟩
  | 4 => ⟨S64, .f32⟩
  | 5 => ⟨S64, .f32⟩
  | 6 => ⟨S64x64, .f32⟩
  | 7 => ⟨S64, .f32⟩
  | 8 => ⟨S64, .f32⟩
  | 9 => ⟨S128x64, .f32⟩
  | 10 => ⟨S128, .f32⟩
  | 11 => ⟨S128, .f32⟩
  | 12 => ⟨S16x1024x1x3, .f32⟩
  | 13 => ⟨S16x1x4096x3, .f32⟩
  | 14 => ⟨S16x1024x4096x3, .f32⟩
  | 15 => ⟨S16x1024x4096x3, .f32⟩
  | 16 => ⟨S16x1024x4096x3, .f32⟩
  | 17 => ⟨S16x1024x4096x3, .f32⟩
  | 18 => ⟨S_, .f32⟩
  | 19 => ⟨S16x1024x4096, .f32⟩
  | 20 => ⟨S_, .f32⟩
  | 21 => ⟨S16x1024x4096, .f32⟩
  | 22 => ⟨S16x1024x4096, .i1⟩
  | 23 => ⟨S4096, .i32⟩
  | 24 => ⟨S1x1x4096, .i32⟩
  | 25 => ⟨S_, .i32⟩
  | 26 => ⟨S16x1024x4096, .i32⟩
  | 27 => ⟨S16x1024x4096, .i32⟩
  | 28 => ⟨S16x1024x4096, .i32⟩
  | 29 => ⟨S16x1024x4096, .i32⟩
  | 30 => ⟨S16x1024x4096, .i32⟩
  | 31 => ⟨S16x1024x4096, .i32⟩
  | 32 => ⟨S16x1024x32, .i32⟩
  | 33 => ⟨S_, .i32⟩
  | 34 => ⟨S16x1024x32, .i32⟩
  | 35 => ⟨S16x1024x32, .i1⟩
  | 36 => ⟨S_, .i32⟩
  | 37 => ⟨S16x1024x32, .i32⟩
  | 38 => ⟨S16x1024x32, .i32⟩
  | 39 => ⟨S16x1024x32, .i32⟩
  | 40 => ⟨S16x1024x32x1, .i32⟩
  | 41 => ⟨S1, .i32⟩
  | 42 => ⟨S_, .i32⟩
  | 43 => ⟨S16x1024x32x1, .i32⟩
  | 44 => ⟨S16x1024x32x1, .i1⟩
  | 45 => ⟨S1x1x1x1, .i32⟩
  | 46 => ⟨S16x1024x32x1, .i32⟩
  | 47 => ⟨S16x1024x32x1, .i1⟩
  | 48 => ⟨S16x1024x32x1, .i1⟩
  | 49 => ⟨S_, .i1⟩
  | 50 => ⟨S16x1024x32, .i1⟩
  | 51 => ⟨S16x1024x32, .i32⟩
  | 52 => ⟨S_, .i32⟩
  | 53 => ⟨S16x1024x32, .i32⟩
  | 54 => ⟨S16x1024x32, .i32⟩
  | 55 => ⟨S_, .i32⟩
  | 56 => ⟨S16x1024x32, .i32⟩
  | 57 => ⟨S16x1024x32, .i1⟩
  | 58 => ⟨S16x1024x1, .i32⟩
  | 59 => ⟨S16x1024x32, .i32⟩
  | 60 => ⟨S16x1024x32, .i32⟩
  | 61 => ⟨S_, .i32⟩
  | 62 => ⟨S16x1024x32, .i32⟩
  | 63 => ⟨S16x1024x32, .i1⟩
  | 64 => ⟨S_, .i32⟩
  | 65 => ⟨S16x1024x32, .i32⟩
  | 66 => ⟨S16x1024x32, .i32⟩
  | 67 => ⟨S16x1024x32, .i32⟩
  | 68 => ⟨S16x1024x32x1, .i32⟩
  | 69 => ⟨S16x1024x32x3, .f32⟩
  | 70 => ⟨S16x1024x1x3, .f32⟩
  | 71 => ⟨S16x1024x32x3, .f32⟩
  | 72 => ⟨S16x1024x32x3, .f32⟩
  | 73 => ⟨S16x4096x64, .f32⟩
  | 74 => ⟨S_, .i32⟩
  | 75 => ⟨S16x1024x32, .i32⟩
  | 76 => ⟨S16x1024x32, .i1⟩
  | 77 => ⟨S_, .i32⟩
  | 78 => ⟨S16x1024x32, .i32⟩
  | 79 => ⟨S16x1024x32, .i32⟩
  | 80 => ⟨S16x1024x32, .i32⟩
  | 81 => ⟨S16x1024x32x1, .i32⟩
  | 82 => ⟨S16x1024x32x64, .f32⟩
  | 83 => ⟨S16x1024x32x67, .f32⟩
  | 84 => ⟨S16x1024x32x64, .f32⟩
  | 85 => ⟨S_, .f32⟩
  | 86 => ⟨S64, .f32⟩
  | 87 => ⟨S1x1x1x64, .f32⟩
  | 88 => ⟨S_, .f32⟩
  | 89 => ⟨S1x1x1x64, .f32⟩
  | 90 => ⟨S1x1x1x64, .f32⟩
  | 91 => ⟨S_, .i32⟩
  | 92 => ⟨S_, .f32⟩
  | 93 => ⟨S64, .f32⟩
  | 94 => ⟨S1x1x1x64, .f32⟩
  | 95 => ⟨S_, .f32⟩
  | 96 => ⟨S1x1x1x64, .f32⟩
  | 97 => ⟨S1x1x1x64, .f32⟩
  | 98 => ⟨S16x1024x32x64, .f32⟩
  | 99 => ⟨S16x1024x32x64, .f32⟩
  | 100 => ⟨S16x1024x32x64, .f32⟩
  | 101 => ⟨S_, .f32⟩
  | 102 => ⟨S_, .f32⟩
  | 103 => ⟨S_, .f32⟩
  | 104 => ⟨S_, .f32⟩
  | 105 => ⟨S64, .f32⟩
  | 106 => ⟨S1x1x1x64, .f32⟩
  | 107 => ⟨S1x1x1x64, .f32⟩
  | 108 => ⟨S1x1x1x64, .f32⟩
  | 109 => ⟨S_, .f32⟩
  | 110 => ⟨S_, .i1⟩
  | 111 => ⟨S_, .f32⟩
  | 112 => ⟨S_, .f32⟩
  | 113 => ⟨S1x1x1x64, .f32⟩
  | 114 => ⟨S1x1x1x64, .f32⟩
  | 115 => ⟨S16x1024x32x64, .f32⟩
  | 116 => ⟨S16x1024x32x64, .f32⟩
  | 117 => ⟨S_, .f32⟩
  | 118 => ⟨S1x1x1x64, .f32⟩
  | 119 => ⟨S1x1x1x64, .f32⟩
  | 120 => ⟨S1x1x1x64, .f32⟩
  | 121 => ⟨S16x1024x32x64, .f32⟩
  | 122 => ⟨S16x1024x32x64, .f32⟩
  | 123 => ⟨S1x1x1x64, .f32⟩
  | 124 => ⟨S16x1024x32x64, .f32⟩
  | 125 => ⟨S16x1024x32x64, .f32⟩
  | 126 => ⟨S1x1x1x64, .f32⟩
  | 127 => ⟨S16x1024x32x64, .f32⟩
  | _ => ⟨S16x4096x3, .f32⟩

abbrev hbmTy0_1 (i : Nat) : BufTy := match i % 128 with
  | 0 => ⟨S16x1024x32x64, .f32⟩
  | 1 => ⟨S_, .f32⟩
  | 2 => ⟨S16x1024x32x64, .f32⟩
  | 3 => ⟨S16x1024x32x64, .f32⟩
  | 4 => ⟨S16x1024x32x64, .f32⟩
  | 5 => ⟨S_, .f32⟩
  | 6 => ⟨S64, .f32⟩
  | 7 => ⟨S1x1x1x64, .f32⟩
  | 8 => ⟨S_, .f32⟩
  | 9 => ⟨S1x1x1x64, .f32⟩
  | 10 => ⟨S1x1x1x64, .f32⟩
  | 11 => ⟨S_, .i32⟩
  | 12 => ⟨S_, .f32⟩
  | 13 => ⟨S64, .f32⟩
  | 14 => ⟨S1x1x1x64, .f32⟩
  | 15 => ⟨S_, .f32⟩
  | 16 => ⟨S1x1x1x64, .f32⟩
  | 17 => ⟨S1x1x1x64, .f32⟩
  | 18 => ⟨S16x1024x32x64, .f32⟩
  | 19 => ⟨S16x1024x32x64, .f32⟩
  | 20 => ⟨S16x1024x32x64, .f32⟩
  | 21 => ⟨S_, .f32⟩
  | 22 => ⟨S_, .f32⟩
  | 23 => ⟨S_, .f32⟩
  | 24 => ⟨S_, .f32⟩
  | 25 => ⟨S64, .f32⟩
  | 26 => ⟨S1x1x1x64, .f32⟩
  | 27 => ⟨S1x1x1x64, .f32⟩
  | 28 => ⟨S1x1x1x64, .f32⟩
  | 29 => ⟨S_, .f32⟩
  | 30 => ⟨S_, .i1⟩
  | 31 => ⟨S_, .f32⟩
  | 32 => ⟨S_, .f32⟩
  | 33 => ⟨S1x1x1x64, .f32⟩
  | 34 => ⟨S1x1x1x64, .f32⟩
  | 35 => ⟨S16x1024x32x64, .f32⟩
  | 36 => ⟨S16x1024x32x64, .f32⟩
  | 37 => ⟨S_, .f32⟩
  | 38 => ⟨S1x1x1x64, .f32⟩
  | 39 => ⟨S1x1x1x64, .f32⟩
  | 40 => ⟨S1x1x1x64, .f32⟩
  | 41 => ⟨S16x1024x32x64, .f32⟩
  | 42 => ⟨S16x1024x32x64, .f32⟩
  | 43 => ⟨S1x1x1x64, .f32⟩
  | 44 => ⟨S16x1024x32x64, .f32⟩
  | 45 => ⟨S16x1024x32x64, .f32⟩
  | 46 => ⟨S1x1x1x64, .f32⟩
  | 47 => ⟨S16x1024x32x64, .f32⟩
  | 48 => ⟨S16x1024x32x64, .f32⟩
  | 49 => ⟨S_, .f32⟩
  | 50 => ⟨S16x1024x32x64, .f32⟩
  | 51 => ⟨S16x1024x32x64, .f32⟩
  | 52 => ⟨S16x1024x32x128, .f32⟩
  | 53 => ⟨S_, .f32⟩
  | 54 => ⟨S128, .f32⟩
  | 55 => ⟨S1x1x1x128, .f32⟩
  | 56 => ⟨S_, .f32⟩
  | 57 => ⟨S1x1x1x128, .f32⟩
  | 58 => ⟨S1x1x1x128, .f32⟩
  | 59 => ⟨S_, .i32⟩
  | 60 => ⟨S_, .f32⟩
  | 61 => ⟨S128, .f32⟩
  | 62 => ⟨S1x1x1x128, .f32⟩
  | 63 => ⟨S_, .f32⟩
  | 64 => ⟨S1x1x1x128, .f32⟩
  | 65 => ⟨S1x1x1x128, .f32⟩
  | 66 => ⟨S16x1024x32x128, .f32⟩
  | 67 => ⟨S16x1024x32x128, .f32⟩
  | 68 => ⟨S16x1024x32x128, .f32⟩
  | 69 => ⟨S_, .f32⟩
  | 70 => ⟨S_, .f32⟩
  | 71 => ⟨S_, .f32⟩
  | 72 => ⟨S_, .f32⟩
  | 73 => ⟨S128, .f32⟩
  | 74 => ⟨S1x1x1x128, .f32⟩
  | 75 => ⟨S1x1x1x128, .f32⟩
  | 76 => ⟨S1x1x1x128, .f32⟩
  | 77 => ⟨S_, .f32⟩
  | 78 => ⟨S_, .i1⟩
  | 79 => ⟨S_, .f32⟩
  | 80 => ⟨S_, .f32⟩
  | 81 => ⟨S1x1x1x128, .f32⟩
  | 82 => ⟨S1x1x1x128, .f32⟩
  | 83 => ⟨S16x1024x32x128, .f32⟩
  | 84 => ⟨S16x1024x32x128, .f32⟩
  | 85 => ⟨S_, .f32⟩
  | 86 => ⟨S1x1x1x128, .f32⟩
  | 87 => ⟨S1x1x1x128, .f32⟩
  | 88 => ⟨S1x1x1x128, .f32⟩
  | 89 => ⟨S16x1024x32x128, .f32⟩
  | 90 => ⟨S16x1024x32x128, .f32⟩
  | 91 => ⟨S1x1x1x128, .f32⟩
  | 92 => ⟨S16x1024x32x128, .f32⟩
  | 93 => ⟨S16x1024x32x128, .f32⟩
  | 94 => ⟨S1x1x1x128, .f32⟩
  | 95 => ⟨S16x1024x32x128, .f32⟩
  | 96 => ⟨S16x1024x32x128, .f32⟩
  | 97 => ⟨S_, .f32⟩
  | 98 => ⟨S16x1024x32x128, .f32⟩
  | 99 => ⟨S16x1024x32x128, .f32⟩
  | 100 => ⟨S_, .f32⟩
  | 101 => ⟨S16x1024x128, .f32⟩
  | 102 => ⟨S16x128x1024, .f32⟩
  | _ => ⟨S16x4096x3, .f32⟩

abbrev hbmTy (i : Nat) : BufTy := match i / 128 with
  | 0 => hbmTy0_0 i
  | 1 => hbmTy0_1 i
  | _ => ⟨S16x4096x3, .f32⟩

abbrev bufTy : (tb : Table) → Fin (tcTables nBuf tb) → BufTy
  | .hbm, ⟨i, _⟩ => hbmTy i
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_call1_v0 : Ref sig .tc := ⟨.hbm, 29, rfl⟩
abbrev main_call1_v1_0 : Ref sig .tc := ⟨.hbm, 30, rfl⟩
abbrev main_v12 : Ref sig .tc := ⟨.hbm, 31, rfl⟩
abbrev main_v13 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_c_4 : Ref sig .tc := ⟨.hbm, 52, rfl⟩
abbrev main_call2_v14 : Ref sig .tc := ⟨.hbm, 53, rfl⟩
abbrev main_v14 : Ref sig .tc := ⟨.hbm, 54, rfl⟩
abbrev main_c_1 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_call3_v0 : Ref sig .tc := ⟨.hbm, 59, rfl⟩
abbrev main_v18 : Ref sig .tc := ⟨.hbm, 60, rfl⟩
abbrev main_c_2 : Ref sig .tc := ⟨.hbm, 61, rfl⟩
abbrev main_v19 : Ref sig .tc := ⟨.hbm, 62, rfl⟩
abbrev main_v20 : Ref sig .tc := ⟨.hbm, 63, rfl⟩
abbrev main_c_3 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_c_4 : Ref sig .tc := ⟨.hbm, 74, rfl⟩
abbrev main_v30 : Ref sig .tc := ⟨.hbm, 75, rfl⟩
abbrev main_v31 : Ref sig .tc := ⟨.hbm, 76, rfl⟩
abbrev main_c_5 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_cst_6 : Ref sig .tc := ⟨.hbm, 85, rfl⟩
abbrev main_v39 : Ref sig .tc := ⟨.hbm, 86, rfl⟩
abbrev main_v40 : Ref sig .tc := ⟨.hbm, 87, rfl⟩
abbrev main_cst_7 : Ref sig .tc := ⟨.hbm, 88, rfl⟩
abbrev main_v41 : Ref sig .tc := ⟨.hbm, 89, rfl⟩
abbrev main_v42 : Ref sig .tc := ⟨.hbm, 90, rfl⟩
abbrev main_c_8 : Ref sig .tc := ⟨.hbm, 91, rfl⟩
abbrev main_call4_cst : Ref sig .tc := ⟨.hbm, 92, rfl⟩
abbrev main_call4_v0 : Ref sig .tc := ⟨.hbm, 93, rfl⟩
abbrev main_call4_v1 : Ref sig .tc := ⟨.hbm, 94, rfl⟩
abbrev main_call4_cst_0 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_v5 : Ref sig .tc := ⟨.hbm, 99, rfl⟩
abbrev main_call4_v6 : Ref sig .tc := ⟨.hbm, 100, rfl⟩
abbrev main_call4_v7 : Ref sig .tc := ⟨.hbm, 101, rfl⟩
abbrev main_call4_cst_1 : Ref sig .tc := ⟨.hbm, 102, rfl⟩
abbrev main_call4_v8 : Ref sig .tc := ⟨.hbm, 103, rfl⟩
abbrev main_call4_cst_2 : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_call4_v12 : Ref sig .tc := ⟨.hbm, 108, rfl⟩
abbrev main_call4_cst_3 : Ref sig .tc := ⟨.hbm, 109, rfl⟩
abbrev main_call4_v13 : Ref sig .tc := ⟨.hbm, 110, rfl⟩
abbrev main_call4_cst_4 : Ref sig .tc := ⟨.hbm, 111, rfl⟩
abbrev main_call4_call0_v0 : Ref sig .tc := ⟨.hbm, 112, rfl⟩
abbrev main_call4_call0_v1 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_cst_9 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_call5_cst : Ref sig .tc := ⟨.hbm, 129, rfl⟩
abbrev main_call5_v0 : Ref sig .tc := ⟨.hbm, 130, rfl⟩
abbrev main_v57 : Ref sig .tc := ⟨.hbm, 131, rfl⟩
abbrev main_v58 : Ref sig .tc := ⟨.hbm, 132, rfl⟩
abbrev main_cst_10 : Ref sig .tc := ⟨.hbm, 133, rfl⟩
abbrev main_v59 : Ref sig .tc := ⟨.hbm, 134, rfl⟩
abbrev main_v60 : Ref sig .tc := ⟨.hbm, 135, rfl⟩
abbrev main_cst_11 : Ref sig .tc := ⟨.hbm, 136, rfl⟩
abbrev main_v61 : Ref sig .tc := ⟨.hbm, 137, rfl⟩
abbrev main_v62 : Ref sig .tc := ⟨.hbm, 138, rfl⟩
abbrev main_c_12 : Ref sig .tc := ⟨.hbm, 139, rfl⟩
abbrev main_call6_cst : Ref sig .tc := ⟨.hbm, 140, rfl⟩
abbrev main_call6_v0 : Ref sig .tc := ⟨.hbm, 141, rfl⟩
abbrev main_call6_v1 : Ref sig .tc := ⟨.hbm, 142, rfl⟩
abbrev main_call6_cst_0 : Ref sig .tc := ⟨.hbm, 143, rfl⟩
abbrev main_call6_v2 : Ref sig .tc := ⟨.hbm, 144, rfl⟩
abbrev main_call6_v3 : Ref sig .tc := ⟨.hbm, 145, rfl⟩
abbrev main_call6_v4 : Ref sig .tc := ⟨.hbm, 146, rfl⟩
abbrev main_call6_v5 : Ref sig .tc := ⟨.hbm, 147, rfl⟩
abbrev main_call6_v6 : Ref sig .tc := ⟨.hbm, 148, rfl⟩
abbrev main_call6_v7 : Ref sig .tc := ⟨.hbm, 149, rfl⟩
abbrev main_call6_cst_1 : Ref sig .tc := ⟨.hbm, 150, rfl⟩
abbrev main_call6_v8 : Ref sig .tc := ⟨.hbm, 151, rfl⟩
abbrev main_call6_cst_2 : Ref sig .tc := ⟨.hbm, 152, rfl⟩
abbrev main_call6_v9 : Ref sig .tc := ⟨.hbm, 153, rfl⟩
abbrev main_call6_v10 : Ref sig .tc := ⟨.hbm, 154, rfl⟩
abbrev main_call6_v11 : Ref sig .tc := ⟨.hbm, 155, rfl⟩
abbrev main_call6_v12 : Ref sig .tc := ⟨.hbm, 156, rfl⟩
abbrev main_call6_cst_3 : Ref sig .tc := ⟨.hbm, 157, rfl⟩
abbrev main_call6_v13 : Ref sig .tc := ⟨.hbm, 158, rfl⟩
abbrev main_call6_cst_4 : Ref sig .tc := ⟨.hbm, 159, rfl⟩
abbrev main_call6_call0_v0 : Ref sig .tc := ⟨.hbm, 160, rfl⟩
abbrev main_call6_call0_v1 : Ref sig .tc := ⟨.hbm, 161, rfl⟩
abbrev main_v63 : Ref sig .tc := ⟨.hbm, 162, rfl⟩
abbrev main_v64 : Ref sig .tc := ⟨.hbm, 163, rfl⟩
abbrev main_v65 : Ref sig .tc := ⟨.hbm, 164, rfl⟩
abbrev main_cst_13 : Ref sig .tc := ⟨.hbm, 165, rfl⟩
abbrev main_v66 : Ref sig .tc := ⟨.hbm, 166, rfl⟩
abbrev main_v67 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_call7_cst : Ref sig .tc := ⟨.hbm, 177, rfl⟩
abbrev main_call7_v0 : Ref sig .tc := ⟨.hbm, 178, rfl⟩
abbrev main_v77 : Ref sig .tc := ⟨.hbm, 179, rfl⟩
abbrev main_v78 : Ref sig .tc := ⟨.hbm, 180, rfl⟩
abbrev main_cst_14 : Ref sig .tc := ⟨.hbm, 181, rfl⟩
abbrev main_v79 : Ref sig .tc := ⟨.hbm, 182, rfl⟩
abbrev main_v80 : Ref sig .tc := ⟨.hbm, 183, rfl⟩
abbrev main_cst_15 : Ref sig .tc := ⟨.hbm, 184, rfl⟩
abbrev main_v81 : Ref sig .tc := ⟨.hbm, 185, rfl⟩
abbrev main_v82 : Ref sig .tc := ⟨.hbm, 186, rfl⟩
abbrev main_c_16 : Ref sig .tc := ⟨.hbm, 187, rfl⟩
abbrev main_call8_cst : Ref sig .tc := ⟨.hbm, 188, rfl⟩
abbrev main_call8_v0 : Ref sig .tc := ⟨.hbm, 189, rfl⟩
abbrev main_call8_v1 : Ref sig .tc := ⟨.hbm, 190, rfl⟩
abbrev main_call8_cst_0 : Ref sig .tc := ⟨.hbm, 191, rfl⟩
abbrev main_call8_v2 : Ref sig .tc := ⟨.hbm, 192, rfl⟩
abbrev main_call8_v3 : Ref sig .tc := ⟨.hbm, 193, rfl⟩
abbrev main_call8_v4 : Ref sig .tc := ⟨.hbm, 194, rfl⟩
abbrev main_call8_v5 : Ref sig .tc := ⟨.hbm, 195, rfl⟩
abbrev main_call8_v6 : Ref sig .tc := ⟨.hbm, 196, rfl⟩
abbrev main_call8_v7 : Ref sig .tc := ⟨.hbm, 197, rfl⟩
abbrev main_call8_cst_1 : Ref sig .tc := ⟨.hbm, 198, rfl⟩
abbrev main_call8_v8 : Ref sig .tc := ⟨.hbm, 199, rfl⟩
abbrev main_call8_cst_2 : Ref sig .tc := ⟨.hbm, 200, rfl⟩
abbrev main_call8_v9 : Ref sig .tc := ⟨.hbm, 201, rfl⟩
abbrev main_call8_v10 : Ref sig .tc := ⟨.hbm, 202, rfl⟩
abbrev main_call8_v11 : Ref sig .tc := ⟨.hbm, 203, rfl⟩
abbrev main_call8_v12 : Ref sig .tc := ⟨.hbm, 204, rfl⟩
abbrev main_call8_cst_3 : Ref sig .tc := ⟨.hbm, 205, rfl⟩
abbrev main_call8_v13 : Ref sig .tc := ⟨.hbm, 206, rfl⟩
abbrev main_call8_cst_4 : Ref sig .tc := ⟨.hbm, 207, rfl⟩
abbrev main_call8_call0_v0 : Ref sig .tc := ⟨.hbm, 208, rfl⟩
abbrev main_call8_call0_v1 : Ref sig .tc := ⟨.hbm, 209, rfl⟩
abbrev main_v83 : Ref sig .tc := ⟨.hbm, 210, rfl⟩
abbrev main_v84 : Ref sig .tc := ⟨.hbm, 211, rfl⟩
abbrev main_v85 : Ref sig .tc := ⟨.hbm, 212, rfl⟩
abbrev main_cst_17 : Ref sig .tc := ⟨.hbm, 213, rfl⟩
abbrev main_v86 : Ref sig .tc := ⟨.hbm, 214, rfl⟩
abbrev main_v87 : Ref sig .tc := ⟨.hbm, 215, rfl⟩
abbrev main_v88 : Ref sig .tc := ⟨.hbm, 216, rfl⟩
abbrev main_v89 : Ref sig .tc := ⟨.hbm, 217, rfl⟩
abbrev main_v90 : Ref sig .tc := ⟨.hbm, 218, rfl⟩
abbrev main_v91 : Ref sig .tc := ⟨.hbm, 219, rfl⟩
abbrev main_v92 : Ref sig .tc := ⟨.hbm, 220, rfl⟩
abbrev main_v93 : Ref sig .tc := ⟨.hbm, 221, rfl⟩
abbrev main_v94 : Ref sig .tc := ⟨.hbm, 222, rfl⟩
abbrev main_v95 : Ref sig .tc := ⟨.hbm, 223, rfl⟩
abbrev main_v96 : Ref sig .tc := ⟨.hbm, 224, rfl⟩
abbrev main_call9_cst : Ref sig .tc := ⟨.hbm, 225, rfl⟩
abbrev main_call9_v0 : Ref sig .tc := ⟨.hbm, 226, rfl⟩
abbrev main_v97 : Ref sig .tc := ⟨.hbm, 227, rfl⟩
abbrev main_cst_18 : Ref sig .tc := ⟨.hbm, 228, rfl⟩
abbrev main_v98 : Ref sig .tc := ⟨.hbm, 229, rfl⟩
abbrev main_v99 : Ref sig .tc := ⟨.hbm, 230, rfl⟩

abbrev nD : Nat := 1
abbrev τ : Topo := Topo.v7x

variable {F : FTy → Type} [FloatOps F]

class Facts₀ : Prop where
  bcast_S16x1024x3_S16x1024x1x3_0_1_3 : S16x1024x3.BroadcastsInDim S16x1024x1x3 (![0, 1, 3] : Fin 3 → Fin S16x1024x1x3.rank)
  bcast_S16x4096x3_S16x1x4096x3_0_2_3 : S16x4096x3.BroadcastsInDim S16x1x4096x3 (![0, 2, 3] : Fin 3 → Fin S16x1x4096x3.rank)
  bcast_S16x1024x1x3_S16x1024x4096x3_0_1_2_3 : S16x1024x1x3.BroadcastsInDim S16x1024x4096x3 (![0, 1, 2, 3] : Fin 4 → Fin S16x1024x4096x3.rank)
  bcast_S16x1x4096x3_S16x1024x4096x3_0_1_2_3 : S16x1x4096x3.BroadcastsInDim S16x1024x4096x3 (![0, 1, 2, 3] : Fin 4 → Fin S16x1024x4096x3.rank)
  reducesTo_S16x1024x4096x3_S16x1024x4096_d3 : S16x1024x4096x3.ReducesTo [3] S16x1024x4096
  h_S_ : 0 < S_.numel
  bcast_S_S16x1024x4096 : S_.BroadcastsInDim S16x1024x4096 (![] : Fin 0 → Fin S16x1024x4096.rank)
  bcast_S4096_S1x1x4096_2 : S4096.BroadcastsInDim S1x1x4096 (![2] : Fin 1 → Fin S1x1x4096.rank)
  bcast_S1x1x4096_S16x1024x4096_0_1_2 : S1x1x4096.BroadcastsInDim S16x1024x4096 (![0, 1, 2] : Fin 3 → Fin S16x1024x4096.rank)
  slices_S16x1024x4096_S16x1024x32_0_0_0 : S16x1024x4096.Slices ![0, 0, 0] S16x1024x32
  bcast_S_S16x1024x32 : S_.BroadcastsInDim S16x1024x32 (![] : Fin 0 → Fin S16x1024x32.rank)
  shapeCasts_S16x1024x32_S16x1024x32x1 : S16x1024x32.ShapeCasts S16x1024x32x1
  bcast_S_S16x1024x32x1 : S_.BroadcastsInDim S16x1024x32x1 (![] : Fin 0 → Fin S16x1024x32x1.rank)
  bcast_S1_S1x1x1x1_3 : S1.BroadcastsInDim S1x1x1x1 (![3] : Fin 1 → Fin S1x1x1x1.rank)
  bcast_S1x1x1x1_S16x1024x32x1_0_1_2_3 : S1x1x1x1.BroadcastsInDim S16x1024x32x1 (![0, 1, 2, 3] : Fin 4 → Fin S16x1024x32x1.rank)
  reducesTo_S16x1024x32x1_S16x1024x32_d3 : S16x1024x32x1.ReducesTo [3] S16x1024x32
  slices_S16x1024x32_S16x1024x1_0_0_0 : S16x1024x32.Slices ![0, 0, 0] S16x1024x1
  bcast_S16x1024x1_S16x1024x32_0_1_2 : S16x1024x1.BroadcastsInDim S16x1024x32 (![0, 1, 2] : Fin 3 → Fin S16x1024x32.rank)
  bcast_S16x1024x32_S16x1024x32x1_0_1_2 : S16x1024x32.BroadcastsInDim S16x1024x32x1 (![0, 1, 2] : Fin 3 → Fin S16x1024x32x1.rank)
  bcast_S16x1024x1x3_S16x1024x32x3_0_1_2_3 : S16x1024x1x3.BroadcastsInDim S16x1024x32x3 (![0, 1, 2, 3] : Fin 4 → Fin S16x1024x32x3.rank)
  transposes_S16x64x4096_S16x4096x64_0_2_1 : S16x64x4096.Transposes [0, 2, 1] S16x4096x64
  concatenates_S16x1024x32x3_S16x1024x32x64_S16x1024x32x67_d3 : Shape.Concatenates [S16x1024x32x3, S16x1024x32x64] S16x1024x32x67 3
  reducesTo_S16x1024x32x64_S64_d0_1_2 : S16x1024x32x64.ReducesTo [0, 1, 2] S64
  bcast_S64_S1x1x1x64_3 : S64.BroadcastsInDim S1x1x1x64 (![3] : Fin 1 → Fin S1x1x1x64.rank)
  bcast_S_S1x1x1x64 : S_.BroadcastsInDim S1x1x1x64 (![] : Fin 0 → Fin S1x1x1x64.rank)
  bcast_S1x1x1x64_S16x1024x32x64_0_1_2_3 : S1x1x1x64.BroadcastsInDim S16x1024x32x64 (![0, 1, 2, 3] : Fin 4 → Fin S16x1024x32x64.rank)
  bcast_S_S16x1024x32x64 : S_.BroadcastsInDim S16x1024x32x64 (![] : Fin 0 → Fin S16x1024x32x64.rank)
  reducesTo_S16x1024x32x128_S128_d0_1_2 : S16x1024x32x128.ReducesTo [0, 1, 2] S128
  bcast_S128_S1x1x1x128_3 : S128.BroadcastsInDim S1x1x1x128 (![3] : Fin 1 → Fin S1x1x1x128.rank)
  bcast_S_S1x1x1x128 : S_.BroadcastsInDim S1x1x1x128 (![] : Fin 0 → Fin S1x1x1x128.rank)
  bcast_S1x1x1x128_S16x1024x32x128_0_1_2_3 : S1x1x1x128.BroadcastsInDim S16x1024x32x128 (![0, 1, 2, 3] : Fin 4 → Fin S16x1024x32x128.rank)
  bcast_S_S16x1024x32x128 : S_.BroadcastsInDim S16x1024x32x128 (![] : Fin 0 → Fin S16x1024x32x128.rank)
  reducesTo_S16x1024x32x128_S16x1024x128_d2 : S16x1024x32x128.ReducesTo [2] S16x1024x128
  transposes_S16x1024x128_S16x128x1024_0_2_1 : S16x1024x128.Transposes [0, 2, 1] S16x128x1024
  gather_S16x1024x4096_S16x1024x32x1_S16x1024x32_n_2_01_01_2_3_111_wf : GatherDims.WF S16x1024x4096 S16x1024x32x1 S16x1024x32 [] [2] [0, 1] [2] [0, 1] 3 ![1, 1, 1]
  gather_S16x4096x3_S16x1024x32x1_S16x1024x32x3_3_1_0_0_1_3_113_wf : GatherDims.WF S16x4096x3 S16x1024x32x1 S16x1024x32x3 [3] [1] [0] [1] [0] 3 ![1, 1, 3]
  gather_S16x4096x64_S16x1024x32x1_S16x1024x32x64_3_1_0_0_1_3_1164_wf : GatherDims.WF S16x4096x64 S16x1024x32x1 S16x1024x32x64 [3] [1] [0] [1] [0] 3 ![1, 1, 64]
  dot_S16x1024x32x67_S64x67_S16x1024x32x64_3_1_012_0_n_n_wf : DotDims.WF S16x1024x32x67 S64x67 S16x1024x32x64 [3] [1] [0, 1, 2] [0] [] []
  dot_S16x1024x32x64_S64x64_S16x1024x32x64_3_1_012_0_n_n_wf : DotDims.WF S16x1024x32x64 S64x64 S16x1024x32x64 [3] [1] [0, 1, 2] [0] [] []
  dot_S16x1024x32x64_S128x64_S16x1024x32x128_3_1_012_0_n_n_wf : DotDims.WF S16x1024x32x64 S128x64 S16x1024x32x128 [3] [1] [0, 1, 2] [0] [] []

variable [Facts₀]

def comparator_i32_i32_d2 : BitVec 32 × BitVec 32 → BitVec 32 × BitVec 32 → BitVec 1 :=
  fun l r =>
    let v2 := IntOp.cmpi .slt l.1 r.1
    v2
def gather_S16x1024x4096_S16x1024x32x1_S16x1024x32_n_2_01_01_2_3_111 : GatherDims S16x1024x4096 S16x1024x32x1 S16x1024x32 where
  offsetDims := []
  collapsedSliceDims := [2]
  operandBatchingDims := [0, 1]
  startIndicesBatchingDims := [0, 1]
  startIndexMap := [2]
  indexVectorDim := 3
  sliceSizes := ![1, 1, 1]
  wf := gather_S16x1024x4096_S16x1024x32x1_S16x1024x32_n_2_01_01_2_3_111_wf
def gather_S16x4096x3_S16x1024x32x1_S16x1024x32x3_3_1_0_0_1_3_113 : GatherDims S16x4096x3 S16x1024x32x1 S16x1024x32x3 where
  offsetDims := [3]
  collapsedSliceDims := [1]
  operandBatchingDims := [0]
  startIndicesBatchingDims := [0]
  startIndexMap := [1]
  indexVectorDim := 3
  sliceSizes := ![1, 1, 3]
  wf := gather_S16x4096x3_S16x1024x32x1_S16x1024x32x3_3_1_0_0_1_3_113_wf
def gather_S16x4096x64_S16x1024x32x1_S16x1024x32x64_3_1_0_0_1_3_1164 : GatherDims S16x4096x64 S16x1024x32x1 S16x1024x32x64 where
  offsetDims := [3]
  collapsedSliceDims := [1]
  operandBatchingDims := [0]
  startIndicesBatchingDims := [0]
  startIndexMap := [1]
  indexVectorDim := 3
  sliceSizes := ![1, 1, 64]
  wf := gather_S16x4096x64_S16x1024x32x1_S16x1024x32x64_3_1_0_0_1_3_1164_wf
def dot_S16x1024x32x67_S64x67_S16x1024x32x64_3_1_012_0_n_n : DotDims S16x1024x32x67 S64x67 S16x1024x32x64 where
  lhsContracting := [3]
  rhsContracting := [1]
  lhsNonContracting := [0, 1, 2]
  rhsNonContracting := [0]
  lhsBatch := []
  rhsBatch := []
  wf := dot_S16x1024x32x67_S64x67_S16x1024x32x64_3_1_012_0_n_n_wf
def dot_S16x1024x32x64_S64x64_S16x1024x32x64_3_1_012_0_n_n : DotDims S16x1024x32x64 S64x64 S16x1024x32x64 where
  lhsContracting := [3]
  rhsContracting := [1]
  lhsNonContracting := [0, 1, 2]
  rhsNonContracting := [0]
  lhsBatch := []
  rhsBatch := []
  wf := dot_S16x1024x32x64_S64x64_S16x1024x32x64_3_1_012_0_n_n_wf
def dot_S16x1024x32x64_S128x64_S16x1024x32x128_3_1_012_0_n_n : DotDims S16x1024x32x64 S128x64 S16x1024x32x128 where
  lhsContracting := [3]
  rhsContracting := [1]
  lhsNonContracting := [0, 1, 2]
  rhsNonContracting := [0]
  lhsBatch := []
  rhsBatch := []
  wf := dot_S16x1024x32x64_S128x64_S16x1024x32x128_3_1_012_0_n_n_wf

class Facts : Prop extends Facts₀ where

variable [Facts]
-- ==== Proof.Spec.lean ====
/-
  The mathematics both programs compute, stated once over extended reals.

  A neighbourhood sample is a triple (b, m, k): batch, query point, neighbour; its position in the row-major
  flattening of the 16 × 1024 × 32 samples is `tok b m k`. Every layer is a per-sample linear map over the
  channels; between layers each channel is normalised by its mean and variance over ALL samples, scaled,
  shifted and rectified; at the end the 32 neighbours of a query are pooled by their maximum.

  * `mmAt`     : one entry of a sample-major product, Σ_c x[t, c] · w[c, o].
  * `bnr`      : one normalised, scaled, shifted, rectified entry, max (((y − μ) · (σ² + ε)^(−1/2)) · g + b) 0.
  * `bnmmAt`   : the product above taken of the rectified entries.
  * `bnpoolAt` : the maximum over the 32 neighbours of the rectified entries.
-/
import Idealize.ShloMosaic.PureOps.Ideal
import Idealize.ShloMosaic.PureOps.Ideal.Laws
import Idealize.ShloMosaic.Lib.ValueIdx

noncomputable section

namespace Cert.SA

open Idealize.ShloMosaic Idealize.ShloMosaic.ValueIdx
open scoped BigOperators

/-- Row-major position of sample (b, m, k) among the 16 · 1024 · 32 samples. -/
def tok (b : Fin 16) (m : Fin 1024) (k : Fin 32) : Fin 524288 :=
  ⟨(b.val * 1024 + m.val) * 32 + k.val, by have := b.isLt; have := m.isLt; have := k.isLt; omega⟩

/-- Row-major position of query (b, m) among the 16 · 1024 queries. -/
def qry (b : Fin 16) (m : Fin 1024) : Fin 16384 :=
  ⟨b.val * 1024 + m.val, by have := b.isLt; have := m.isLt; omega⟩

/-- Sample `k` of query `r`. -/
def smp (r : Fin 16384) (k : Fin 32) : Fin 524288 :=
  ⟨r.val * 32 + k.val, by have := r.isLt; have := k.isLt; omega⟩

theorem smp_qry (b : Fin 16) (m : Fin 1024) (k : Fin 32) : smp (qry b m) k = tok b m k := rfl

/-- A four-axis array (batch, query, neighbour, channel) and a sample-major two-axis array hold the same entries. -/
def Rel4 {C : Nat} (Y : FVec Ideal ⟨4, ![16, 1024, 32, C]⟩ .f32) (y : FVec Ideal ⟨2, ![524288, C]⟩ .f32) : Prop :=
  ∀ (b : Fin 16) (m : Fin 1024) (k : Fin 32) (c : Fin C), Y (ix4 b m k c) = y (ix2 (tok b m k) c)

/-- The variance's stabiliser, the binary32 nearest 1e-5, as an extended real. -/
def eps : EReal := Ideal.ofBits .f32 0x3727C5AC#32

/-- One entry of the sample-major product: Σ_c x[t, c] · w[c, o]. -/
def mmAt {K O : Nat} (x : FVec Ideal ⟨2, ![524288, K]⟩ .f32) (w : FVec Ideal ⟨2, ![K, O]⟩ .f32)
    (t : Fin 524288) (o : Fin O) : EReal :=
  ∑ c : Fin K, x (ix2 t c) * w (ix2 c o)

/-- The sample-major product as an array. -/
def mm {K O : Nat} (x : FVec Ideal ⟨2, ![524288, K]⟩ .f32) (w : FVec Ideal ⟨2, ![K, O]⟩ .f32) :
    FVec Ideal ⟨2, ![524288, O]⟩ .f32 :=
  fun j => mmAt x w ⟨(j 0).val, idx2_lt0 j⟩ ⟨(j 1).val, idx2_lt1 j⟩

/-- One normalised, scaled, shifted, rectified value. -/
def bnr (y mean var g b : EReal) : EReal :=
  max ((y - mean) * Ideal.rsqrt (var + eps) * g + b) 0

/-- The rectified entry (t, c) of an array whose per-channel statistics and affine parameters are rows. -/
def bnAt {C : Nat} (y : FVec Ideal ⟨2, ![524288, C]⟩ .f32) (mean var g b : FVec Ideal ⟨2, ![1, C]⟩ .f32)
    (t : Fin 524288) (c : Fin C) : EReal :=
  bnr (y (ix2 t c)) (mean (ix2 0 c)) (var (ix2 0 c)) (g (ix2 0 c)) (b (ix2 0 c))

/-- One entry of the product of the rectified entries with a weight matrix. -/
def bnmmAt {C O : Nat} (y : FVec Ideal ⟨2, ![524288, C]⟩ .f32) (mean var g b : FVec Ideal ⟨2, ![1, C]⟩ .f32)
    (w : FVec Ideal ⟨2, ![C, O]⟩ .f32) (t : Fin 524288) (o : Fin O) : EReal :=
  ∑ c : Fin C, bnAt y mean var g b t c * w (ix2 c o)

/-- That product as an array. -/
def bnmm {C O : Nat} (y : FVec Ideal ⟨2, ![524288, C]⟩ .f32) (mean var g b : FVec Ideal ⟨2, ![1, C]⟩ .f32)
    (w : FVec Ideal ⟨2, ![C, O]⟩ .f32) : FVec Ideal ⟨2, ![524288, O]⟩ .f32 :=
  fun j => bnmmAt y mean var g b w ⟨(j 0).val, idx2_lt0 j⟩ ⟨(j 1).val, idx2_lt1 j⟩

/-- The maximum, from −∞, of the rectified entries of query `r`'s 32 samples in channel `c`. -/
def bnpoolAt {C : Nat} (y : FVec Ideal ⟨2, ![524288, C]⟩ .f32) (mean var g b : FVec Ideal ⟨2, ![1, C]⟩ .f32)
    (r : Fin 16384) (c : Fin C) : EReal :=
  (Finset.univ : Finset (Fin 32)).fold max (Ideal.ofBits .f32 0xFF800000#32) (fun k => bnAt y mean var g b (smp r k) c)

/-- The pooled array, one row per query. -/
def bnpool {C : Nat} (y : FVec Ideal ⟨2, ![524288, C]⟩ .f32) (mean var g b : FVec Ideal ⟨2, ![1, C]⟩ .f32) :
    FVec Ideal ⟨2, ![16384, C]⟩ .f32 :=
  fun j => bnpoolAt y mean var g b ⟨(j 0).val, idx2_lt0 j⟩ ⟨(j 1).val, idx2_lt1 j⟩

end Cert.SA

end
-- ==== Proof.KTerm.lean ====
/-
  What the kernel's program computes from the gathered feature array, as one composed term at the extended reals:
  the feature array flattened to one row per sample; three layers, each a sample-major product (the first of the
  features, the later ones of the normalised, rectified previous layer), the per-channel mean and variance of a layer
  taken over all 524288 samples by the host between the products; then the maximum over each query's 32 samples, and
  the result laid out batch × channel × query.
-/
import proofs.«128494_j5145370821372_1_alg».proof.KernelIdeal
import proofs.«128494_j5145370821372_1_alg».proof.Proof.Spec

noncomputable section

namespace Cert.KernelIdeal.KTerm

open Idealize.ShloMosaic Cert.KernelIdeal Cert.KernelIdeal.Facts₀ Cert.KernelIdeal.Facts

variable [Cert.KernelIdeal.Facts]

/-- The scalar 0, the scalar 524288 and the scalar 524288 − 0 (the divisor of the variance, no degrees of freedom removed). -/
abbrev zero0 : FVec Ideal S_ .f32 := constant (F := Ideal) S_ .f32 0x00000000#32
abbrev cnt0 : FVec Ideal S_ .f32 := constant (F := Ideal) S_ .f32 0x49000000#32
abbrev cntm : FVec Ideal S_ .f32 := subf cnt0 (sitofp (F := Ideal) .f32 (constantI S_ 32 0#32))

/-! ## 64 channels -/

/-- Per-channel mean over all samples: (0 + Σ_t y[t, c]) / 524288. -/
def mean64 (y : FVec Ideal S524288x64 .f32) : FVec Ideal S64 .f32 :=
  Host.divf (Host.reduceAdd y zero0 reducesTo_S524288x64_S64_d0 h_S_) (broadcastInDim S64 ![] bcast_S_S64 cnt0)

/-- The samples less their channel's mean (the mean kept as a row). -/
def ctr64 (y : FVec Ideal S524288x64 .f32) : FVec Ideal S524288x64 .f32 :=
  subf y (broadcastInDim S524288x64 ![0, 1] bcast_S1x64_S524288x64_0_1
    (Host.divf (broadcastInDim S1x64 ![1] bcast_S64_S1x64_1 (Host.reduceAdd y zero0 reducesTo_S524288x64_S64_d0 h_S_))
      (broadcastInDim S1x64 ![] bcast_S_S1x64 cnt0)))

/-- Per-channel variance over all samples: the mean of the squared deviations where the divisor is positive (it is),
    a not-a-number pattern otherwise. -/
def var64 (y : FVec Ideal S524288x64 .f32) : FVec Ideal S64 .f32 :=
  select (broadcastInDim S64 ![] bcast_S_S64 (cmpf .ogt cntm zero0))
    (Host.divf (Host.reduceAdd (mulf (ctr64 y) (ctr64 y)) zero0 reducesTo_S524288x64_S64_d0 h_S_) (broadcastInDim S64 ![] bcast_S_S64 cntm))
    (broadcastInDim S64 ![] bcast_S_S64 (id (constant (F := Ideal) S_ .f32 0x7FC00000#32)))

/-- A length-64 vector as a row. -/
def row64 (v : FVec Ideal S64 .f32) : FVec Ideal S1x64 .f32 := shapeCast S1x64 v shapeCasts_S64_S1x64

/-! ## 128 channels -/

def mean128 (y : FVec Ideal S524288x128 .f32) : FVec Ideal S128 .f32 :=
  Host.divf (Host.reduceAdd y zero0 reducesTo_S524288x128_S128_d0 h_S_) (broadcastInDim S128 ![] bcast_S_S128 cnt0)

def ctr128 (y : FVec Ideal S524288x128 .f32) : FVec Ideal S524288x128 .f32 :=
  subf y (broadcastInDim S524288x128 ![0, 1] bcast_S1x128_S524288x128_0_1
    (Host.divf (broadcastInDim S1x128 ![1] bcast_S128_S1x128_1 (Host.reduceAdd y zero0 reducesTo_S524288x128_S128_d0 h_S_))
      (broadcastInDim S1x128 ![] bcast_S_S1x128 cnt0)))

def var128 (y : FVec Ideal S524288x128 .f32) : FVec Ideal S128 .f32 :=
  select (broadcastInDim S128 ![] bcast_S_S128 (cmpf .ogt cntm zero0))
    (Host.divf (Host.reduceAdd (mulf (ctr128 y) (ctr128 y)) zero0 reducesTo_S524288x128_S128_d0 h_S_) (broadcastInDim S128 ![] bcast_S_S128 cntm))
    (broadcastInDim S128 ![] bcast_S_S128 (id (constant (F := Ideal) S_ .f32 0x7FC00000#32)))

def row128 (v : FVec Ideal S128 .f32) : FVec Ideal S1x128 .f32 := shapeCast S1x128 v shapeCasts_S128_S1x128

/-! ## The layers -/

/-- The features, one row per sample. -/
def x0 (feat : FVec Ideal S16x1024x32x67 .f32) : FVec Ideal S524288x67 .f32 :=
  shapeCast S524288x67 feat shapeCasts_S16x1024x32x67_S524288x67

/-- Layer 0: features times the first weights (transposed to channel-in × channel-out). -/
def y0 (feat : FVec Ideal S16x1024x32x67 .f32) (W0 : FVec Ideal S64x67 .f32) : FVec Ideal S524288x64 .f32 :=
  Cert.SA.mm (x0 feat) (transpose S67x64 [1, 0] W0 transposes_S64x67_S67x64_1_0)

/-- A 64-to-64 layer on a previous layer's output. -/
def layer64 (y : FVec Ideal S524288x64 .f32) (g b : FVec Ideal S64 .f32) (W : FVec Ideal S64x64 .f32) : FVec Ideal S524288x64 .f32 :=
  Cert.SA.bnmm y (row64 (mean64 y)) (row64 (var64 y)) (row64 g) (row64 b) (transpose S64x64 [1, 0] W transposes_S64x64_S64x64_1_0)

/-- The 64-to-128 layer. -/
def layer128 (y : FVec Ideal S524288x64 .f32) (g b : FVec Ideal S64 .f32) (W : FVec Ideal S128x64 .f32) : FVec Ideal S524288x128 .f32 :=
  Cert.SA.bnmm y (row64 (mean64 y)) (row64 (var64 y)) (row64 g) (row64 b) (transpose S64x128 [1, 0] W transposes_S128x64_S64x128_1_0)

/-- The pooled maxima, one row per query. -/
def pooled (y : FVec Ideal S524288x128 .f32) (g b : FVec Ideal S128 .f32) : FVec Ideal S16384x128 .f32 :=
  Cert.SA.bnpool y (row128 (mean128 y)) (row128 (var128 y)) (row128 g) (row128 b)

/-- The program's second result from the feature array and the nine parameter arrays. -/
def out (feat : FVec Ideal S16x1024x32x67 .f32) (W0 : FVec Ideal S64x67 .f32) (g0 b0 : FVec Ideal S64 .f32)
    (W1 : FVec Ideal S64x64 .f32) (g1 b1 : FVec Ideal S64 .f32) (W2 : FVec Ideal S128x64 .f32) (g2 b2 : FVec Ideal S128 .f32) :
    FVec Ideal S16x128x1024 .f32 :=
  transpose S16x128x1024 [0, 2, 1]
    (shapeCast S16x1024x128 (pooled (layer128 (layer64 (y0 feat W0) g0 b0 W1) g1 b1 W2) g2 b2) shapeCasts_S16384x128_S16x1024x128)
    transposes_S16x1024x128_S16x128x1024_0_2_1

end Cert.KernelIdeal.KTerm

end
-- ==== Proof.KHost.lean ====
/- The kernel program's result buffer at the end of @main, as the composed term of the gathered feature array and the
   parameter arrays: the host stretches between the regions compute each layer's mean and variance and lay the
   parameters out as rows; the regions compute the layers. -/
import proofs.«128494_j5145370821372_1_alg».proof.Proof.Gen.KernelIdeal.Frame
import proofs.«128494_j5145370821372_1_alg».proof.Proof.KTerm
import Idealize.ShloMosaic.Lib.StableHlo.Run

set_option maxRecDepth 16384

noncomputable section

namespace Cert.KernelIdeal.Host

open Idealize.ShloMosaic Idealize.ShloMosaic.TcCoe Idealize.SL.Sem
open Cert.KernelIdeal Cert.KernelIdeal.Gen

/-! ## The parameter arrays are written by nothing

No host operation has a parameter array as its result and no region has one as an output, so at every boundary a
parameter array holds what it held at launch. -/

/-- The nine parameter arrays of the three layers and the pooling. -/
def IsParam (b : Ref sig .tc) : Prop :=
  b = main_arg3 ∨ b = main_arg4 ∨ b = main_arg5 ∨ b = main_arg6 ∨ b = main_arg7 ∨ b = main_arg8 ∨ b = main_arg9
    ∨ b = main_arg10 ∨ b = main_arg11

theorem isParam_arg3 : IsParam main_arg3 := Or.inl rfl
theorem isParam_arg4 : IsParam main_arg4 := Or.inr (Or.inl rfl)
theorem isParam_arg5 : IsParam main_arg5 := Or.inr (Or.inr (Or.inl rfl))
theorem isParam_arg6 : IsParam main_arg6 := Or.inr (Or.inr (Or.inr (Or.inl rfl)))
theorem isParam_arg7 : IsParam main_arg7 := Or.inr (Or.inr (Or.inr (Or.inr (Or.inl rfl))))
theorem isParam_arg8 : IsParam main_arg8 := Or.inr (Or.inr (Or.inr (Or.inr (Or.inr (Or.inl rfl)))))
theorem isParam_arg9 : IsParam main_arg9 := Or.inr (Or.inr (Or.inr (Or.inr (Or.inr (Or.inr (Or.inl rfl))))))
theorem isParam_arg10 : IsParam main_arg10 := Or.inr (Or.inr (Or.inr (Or.inr (Or.inr (Or.inr (Or.inr (Or.inl rfl)))))))
theorem isParam_arg11 : IsParam main_arg11 := Or.inr (Or.inr (Or.inr (Or.inr (Or.inr (Or.inr (Or.inr (Or.inr (rfl))))))))

/-- A buffer that is the result of none of a stretch's operations holds after the stretch what it held before: the
    result buffers are listed and each is told apart from the given one. -/
local macro "not_written " l:ident : tactic => `(tactic| (
  refine StableHlo.after_of_forall_not_mem _ _ (List.forall_iff_forall_mem.mp ?_)
  simp only [$l:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem param_hostOps0 (X : Valuation τ sig (Elt Ideal)) {b : Ref sig .tc} (hb : IsParam b) :
    StableHlo.after (hostOps0 (F := Ideal)) X (Proc.devRef .tc b) = X (Proc.devRef .tc b) := by
  rcases hb with rfl | rfl | rfl | rfl | rfl | rfl | rfl | rfl | rfl <;> not_written hostOps0

theorem param_hostOps0_1 (X : Valuation τ sig (Elt Ideal)) {b : Ref sig .tc} (hb : IsParam b) :
    StableHlo.after (hostOps0_1 (F := Ideal)) X (Proc.devRef .tc b) = X (Proc.devRef .tc b) := by
  rcases hb with rfl | rfl | rfl | rfl | rfl | rfl | rfl | rfl | rfl <;> not_written hostOps0_1

theorem param_hostOps0_2 (X : Valuation τ sig (Elt Ideal)) {b : Ref sig .tc} (hb : IsParam b) :
    StableHlo.after (hostOps0_2 (F := Ideal)) X (Proc.devRef .tc b) = X (Proc.devRef .tc b) := by
  rcases hb with rfl | rfl | rfl | rfl | rfl | rfl | rfl | rfl | rfl <;> not_written hostOps0_2

theorem param_hostOps0_3 (X : Valuation τ sig (Elt Ideal)) {b : Ref sig .tc} (hb : IsParam b) :
    StableHlo.after (hostOps0_3 (F := Ideal)) X (Proc.devRef .tc b) = X (Proc.devRef .tc b) := by
  rcases hb with rfl | rfl | rfl | rfl | rfl | rfl | rfl | rfl | rfl <;> not_written hostOps0_3

theorem param_hostOps0_4 (X : Valuation τ sig (Elt Ideal)) {b : Ref sig .tc} (hb : IsParam b) :
    StableHlo.after (hostOps0_4 (F := Ideal)) X (Proc.devRef .tc b) = X (Proc.devRef .tc b) := by
  rcases hb with rfl | rfl | rfl | rfl | rfl | rfl | rfl | rfl | rfl <;> not_written hostOps0_4

theorem param_hostOps0_5 (X : Valuation τ sig (Elt Ideal)) {b : Ref sig .tc} (hb : IsParam b) :
    StableHlo.after (hostOps0_5 (F := Ideal)) X (Proc.devRef .tc b) = X (Proc.devRef .tc b) := by
  rcases hb with rfl | rfl | rfl | rfl | rfl | rfl | rfl | rfl | rfl <;> not_written hostOps0_5

theorem param_hostOps0_6 (X : Valuation τ sig (Elt Ideal)) {b : Ref sig .tc} (hb : IsParam b) :
    StableHlo.after (hostOps0_6 (F := Ideal)) X (Proc.devRef .tc b) = X (Proc.devRef .tc b) := by
  rcases hb with rfl | rfl | rfl | rfl | rfl | rfl | rfl | rfl | rfl <;> not_written hostOps0_6

theorem param_hostOps0_7 (X : Valuation τ sig (Elt Ideal)) {b : Ref sig .tc} (hb : IsParam b) :
    StableHlo.after (hostOps0_7 (F := Ideal)) X (Proc.devRef .tc b) = X (Proc.devRef .tc b) := by
  rcases hb with rfl | rfl | rfl | rfl | rfl | rfl | rfl | rfl | rfl <;> not_written hostOps0_7

theorem param_hostOps1 (X : Valuation τ sig (Elt Ideal)) {b : Ref sig .tc} (hb : IsParam b) :
    StableHlo.after (hostOps1 (F := Ideal)) X (Proc.devRef .tc b) = X (Proc.devRef .tc b) := by
  rcases hb with rfl | rfl | rfl | rfl | rfl | rfl | rfl | rfl | rfl <;> not_written hostOps1

theorem param_hostOps1_1 (X : Valuation τ sig (Elt Ideal)) {b : Ref sig .tc} (hb : IsParam b) :
    StableHlo.after (hostOps1_1 (F := Ideal)) X (Proc.devRef .tc b) = X (Proc.devRef .tc b) := by
  rcases hb with rfl | rfl | rfl | rfl | rfl | rfl | rfl | rfl | rfl <;> not_written hostOps1_1

theorem param_hostOps1_2 (X : Valuation τ sig (Elt Ideal)) {b : Ref sig .tc} (hb : IsParam b) :
    StableHlo.after (hostOps1_2 (F := Ideal)) X (Proc.devRef .tc b) = X (Proc.devRef .tc b) := by
  rcases hb with rfl | rfl | rfl | rfl | rfl | rfl | rfl | rfl | rfl <;> not_written hostOps1_2

theorem param_hostOps2 (X : Valuation τ sig (Elt Ideal)) {b : Ref sig .tc} (hb : IsParam b) :
    StableHlo.after (hostOps2 (F := Ideal)) X (Proc.devRef .tc b) = X (Proc.devRef .tc b) := by
  rcases hb with rfl | rfl | rfl | rfl | rfl | rfl | rfl | rfl | rfl <;> not_written hostOps2

theorem param_hostOps2_1 (X : Valuation τ sig (Elt Ideal)) {b : Ref sig .tc} (hb : IsParam b) :
    StableHlo.after (hostOps2_1 (F := Ideal)) X (Proc.devRef .tc b) = X (Proc.devRef .tc b) := by
  rcases hb with rfl | rfl | rfl | rfl | rfl | rfl | rfl | rfl | rfl <;> not_written hostOps2_1

theorem param_hostOps2_2 (X : Valuation τ sig (Elt Ideal)) {b : Ref sig .tc} (hb : IsParam b) :
    StableHlo.after (hostOps2_2 (F := Ideal)) X (Proc.devRef .tc b) = X (Proc.devRef .tc b) := by
  rcases hb with rfl | rfl | rfl | rfl | rfl | rfl | rfl | rfl | rfl <;> not_written hostOps2_2

variable (m : (ℓ : Loc nD τ sig) → Buf (Elt Ideal) ℓ) (ρ : Dev nD → PrngReg)

theorem param_region0 (c : Dev nD) {b : Ref sig .tc} (hb : IsParam b) :
    W9 (F := Ideal) m ρ c (Proc.devRef .tc b) = W8 (F := Ideal) m ρ c (Proc.devRef .tc b) := by
  rcases hb with rfl | rfl | rfl | rfl | rfl | rfl | rfl | rfl | rfl <;> exact W9_of_ne m ρ c _ (by decide)

theorem param_region1 (c : Dev nD) {b : Ref sig .tc} (hb : IsParam b) :
    W13 (F := Ideal) m ρ c (Proc.devRef .tc b) = W12 (F := Ideal) m ρ c (Proc.devRef .tc b) := by
  rcases hb with rfl | rfl | rfl | rfl | rfl | rfl | rfl | rfl | rfl <;> exact W13_of_ne m ρ c _ (by decide)

theorem param_region2 (c : Dev nD) {b : Ref sig .tc} (hb : IsParam b) :
    W17 (F := Ideal) m ρ c (Proc.devRef .tc b) = W16 (F := Ideal) m ρ c (Proc.devRef .tc b) := by
  rcases hb with rfl | rfl | rfl | rfl | rfl | rfl | rfl | rfl | rfl <;> exact W17_of_ne m ρ c _ (by decide)

/-- A parameter array just before the last stretch ahead of the first region: as launched. -/
theorem param_W7 (c : Dev nD) {b : Ref sig .tc} (hb : IsParam b) :
    W7 (F := Ideal) m ρ c (Proc.devRef .tc b) = m ((c : Thread nD τ).loc b) :=
  (param_hostOps0_6 (W6 m ρ c) hb).trans <| (param_hostOps0_5 (W5 m ρ c) hb).trans <|
  (param_hostOps0_4 (W4 m ρ c) hb).trans <| (param_hostOps0_3 (W3 m ρ c) hb).trans <|
  (param_hostOps0_2 (W2 m ρ c) hb).trans <| (param_hostOps0_1 (W1 m ρ c) hb).trans <|
  (param_hostOps0 (W0 m ρ c) hb).trans rfl

/-- A parameter array after the first region: as launched. -/
theorem param_W9 (c : Dev nD) {b : Ref sig .tc} (hb : IsParam b) :
    W9 (F := Ideal) m ρ c (Proc.devRef .tc b) = m ((c : Thread nD τ).loc b) :=
  (param_region0 m ρ c hb).trans <| (param_hostOps0_7 (W7 m ρ c) hb).trans (param_W7 m ρ c hb)

/-- A parameter array after the second region: as launched. -/
theorem param_W13 (c : Dev nD) {b : Ref sig .tc} (hb : IsParam b) :
    W13 (F := Ideal) m ρ c (Proc.devRef .tc b) = m ((c : Thread nD τ).loc b) :=
  (param_region1 m ρ c hb).trans <| (param_hostOps1_2 (W11 m ρ c) hb).trans <|
  (param_hostOps1_1 (W10 m ρ c) hb).trans <| (param_hostOps1 (W9 m ρ c) hb).trans (param_W9 m ρ c hb)

/-- A parameter array after the third region: as launched. -/
theorem param_W17 (c : Dev nD) {b : Ref sig .tc} (hb : IsParam b) :
    W17 (F := Ideal) m ρ c (Proc.devRef .tc b) = m ((c : Thread nD τ).loc b) :=
  (param_region2 m ρ c hb).trans <| (param_hostOps2_2 (W15 m ρ c) hb).trans <|
  (param_hostOps2_1 (W14 m ρ c) hb).trans <| (param_hostOps2 (W13 m ρ c) hb).trans (param_W13 m ρ c hb)

/-! ## What each host stretch writes, from any contents `X` at its start -/

/-- The last stretch ahead of the first region ends by flattening the feature array to one row per sample: the
    flattened array is the cast of the feature array as that stretch leaves it (the one operation after the cast
    writes another buffer). -/
theorem pre0_v38 (X : Valuation τ sig (Elt Ideal)) :
    StableHlo.after (hostOps0_7 (F := Ideal)) X (Proc.devRef .tc main_v38)
      = KTerm.x0 (StableHlo.after (hostOps0_7 (F := Ideal)) X (Proc.devRef .tc main_v37)) := by
  simp only [StableHlo.after_cons, StableHlo.after_nil]
  rw [StableHlo.unary_result_ne]; rotate_left; decide
  rw [StableHlo.unary_result_ne]; rotate_left; decide
  rw [StableHlo.reshape_result]
  rw [StableHlo.reshape_result_ne]; rotate_left; decide
  all_goals rfl

/-- Its last operation transposes the first weight matrix to channel-in × channel-out. -/
theorem pre0_v39 (X : Valuation τ sig (Elt Ideal)) :
    StableHlo.after (hostOps0_7 (F := Ideal)) X (Proc.devRef .tc main_v39)
      = transpose S67x64 [1, 0] (X (Proc.devRef .tc main_arg3)) transposes_S64x67_S67x64_1_0 := by
  after_results

/-- The stretch before this layer's region leaves the previous layer's array as it found it. -/
theorem pre1_v40 (X : Valuation τ sig (Elt Ideal)) :
    StableHlo.after (hostOps1_2 (F := Ideal)) (StableHlo.after (hostOps1_1 (F := Ideal)) (StableHlo.after (hostOps1 (F := Ideal)) X)) (Proc.devRef .tc main_v40)
      = X (Proc.devRef .tc main_v40) := by
  after_results

/-- It writes the per-channel mean of the previous layer's array, as a row. -/
theorem pre1_v46 (X : Valuation τ sig (Elt Ideal)) :
    StableHlo.after (hostOps1_2 (F := Ideal)) (StableHlo.after (hostOps1_1 (F := Ideal)) (StableHlo.after (hostOps1 (F := Ideal)) X)) (Proc.devRef .tc main_v46)
      = KTerm.row64 (KTerm.mean64 (X (Proc.devRef .tc main_v40))) := by
  after_results
  rfl

/-- It writes the per-channel variance of the previous layer's array, as a row. -/
theorem pre1_v47 (X : Valuation τ sig (Elt Ideal)) :
    StableHlo.after (hostOps1_2 (F := Ideal)) (StableHlo.after (hostOps1_1 (F := Ideal)) (StableHlo.after (hostOps1 (F := Ideal)) X)) (Proc.devRef .tc main_v47)
      = KTerm.row64 (KTerm.var64 (X (Proc.devRef .tc main_v40))) := by
  after_results_simp
  rfl

/-- It writes the scale parameter as a row. -/
theorem pre1_v48 (X : Valuation τ sig (Elt Ideal)) :
    StableHlo.after (hostOps1_2 (F := Ideal)) (StableHlo.after (hostOps1_1 (F := Ideal)) (StableHlo.after (hostOps1 (F := Ideal)) X)) (Proc.devRef .tc main_v48)
      = KTerm.row64 (X (Proc.devRef .tc main_arg4)) := by
  after_results
  rfl

/-- It writes the shift parameter as a row. -/
theorem pre1_v49 (X : Valuation τ sig (Elt Ideal)) :
    StableHlo.after (hostOps1_2 (F := Ideal)) (StableHlo.after (hostOps1_1 (F := Ideal)) (StableHlo.after (hostOps1 (F := Ideal)) X)) (Proc.devRef .tc main_v49)
      = KTerm.row64 (X (Proc.devRef .tc main_arg5)) := by
  after_results
  rfl

/-- It writes the weight matrix transposed to channel-in × channel-out. -/
theorem pre1_v45 (X : Valuation τ sig (Elt Ideal)) :
    StableHlo.after (hostOps1_2 (F := Ideal)) (StableHlo.after (hostOps1_1 (F := Ideal)) (StableHlo.after (hostOps1 (F := Ideal)) X)) (Proc.devRef .tc main_v45)
      = transpose S64x64 [1, 0] (X (Proc.devRef .tc main_arg6)) transposes_S64x64_S64x64_1_0 := by
  after_results

/-- The stretch before this layer's region leaves the previous layer's array as it found it. -/
theorem pre2_v50 (X : Valuation τ sig (Elt Ideal)) :
    StableHlo.after (hostOps2_2 (F := Ideal)) (StableHlo.after (hostOps2_1 (F := Ideal)) (StableHlo.after (hostOps2 (F := Ideal)) X)) (Proc.devRef .tc main_v50)
      = X (Proc.devRef .tc main_v50) := by
  after_results

/-- It writes the per-channel mean of the previous layer's array, as a row. -/
theorem pre2_v56 (X : Valuation τ sig (Elt Ideal)) :
    StableHlo.after (hostOps2_2 (F := Ideal)) (StableHlo.after (hostOps2_1 (F := Ideal)) (StableHlo.after (hostOps2 (F := Ideal)) X)) (Proc.devRef .tc main_v56)
      = KTerm.row64 (KTerm.mean64 (X (Proc.devRef .tc main_v50))) := by
  after_results
  rfl

/-- It writes the per-channel variance of the previous layer's array, as a row. -/
theorem pre2_v57 (X : Valuation τ sig (Elt Ideal)) :
    StableHlo.after (hostOps2_2 (F := Ideal)) (StableHlo.after (hostOps2_1 (F := Ideal)) (StableHlo.after (hostOps2 (F := Ideal)) X)) (Proc.devRef .tc main_v57)
      = KTerm.row64 (KTerm.var64 (X (Proc.devRef .tc main_v50))) := by
  after_results_simp
  rfl

/-- It writes the scale parameter as a row. -/
theorem pre2_v58 (X : Valuation τ sig (Elt Ideal)) :
    StableHlo.after (hostOps2_2 (F := Ideal)) (StableHlo.after (hostOps2_1 (F := Ideal)) (StableHlo.after (hostOps2 (F := Ideal)) X)) (Proc.devRef .tc main_v58)
      = KTerm.row64 (X (Proc.devRef .tc main_arg7)) := by
  after_results
  rfl

/-- It writes the shift parameter as a row. -/
theorem pre2_v59 (X : Valuation τ sig (Elt Ideal)) :
    StableHlo.after (hostOps2_2 (F := Ideal)) (StableHlo.after (hostOps2_1 (F := Ideal)) (StableHlo.after (hostOps2 (F := Ideal)) X)) (Proc.devRef .tc main_v59)
      = KTerm.row64 (X (Proc.devRef .tc main_arg8)) := by
  after_results
  rfl

/-- It writes the weight matrix transposed to channel-in × channel-out. -/
theorem pre2_v55 (X : Valuation τ sig (Elt Ideal)) :
    StableHlo.after (hostOps2_2 (F := Ideal)) (StableHlo.after (hostOps2_1 (F := Ideal)) (StableHlo.after (hostOps2 (F := Ideal)) X)) (Proc.devRef .tc main_v55)
      = transpose S64x128 [1, 0] (X (Proc.devRef .tc main_arg9)) transposes_S128x64_S64x128_1_0 := by
  after_results

/-- The stretch before this layer's region leaves the previous layer's array as it found it. -/
theorem pre3_v60 (X : Valuation τ sig (Elt Ideal)) :
    StableHlo.after (hostOps3_2 (F := Ideal)) (StableHlo.after (hostOps3_1 (F := Ideal)) (StableHlo.after (hostOps3 (F := Ideal)) X)) (Proc.devRef .tc main_v60)
      = X (Proc.devRef .tc main_v60) := by
  after_results

/-- It writes the per-channel mean of the previous layer's array, as a row. -/
theorem pre3_v65 (X : Valuation τ sig (Elt Ideal)) :
    StableHlo.after (hostOps3_2 (F := Ideal)) (StableHlo.after (hostOps3_1 (F := Ideal)) (StableHlo.after (hostOps3 (F := Ideal)) X)) (Proc.devRef .tc main_v65)
      = KTerm.row128 (KTerm.mean128 (X (Proc.devRef .tc main_v60))) := by
  after_results
  rfl

/-- It writes the per-channel variance of the previous layer's array, as a row. -/
theorem pre3_v66 (X : Valuation τ sig (Elt Ideal)) :
    StableHlo.after (hostOps3_2 (F := Ideal)) (StableHlo.after (hostOps3_1 (F := Ideal)) (StableHlo.after (hostOps3 (F := Ideal)) X)) (Proc.devRef .tc main_v66)
      = KTerm.row128 (KTerm.var128 (X (Proc.devRef .tc main_v60))) := by
  after_results_simp
  rfl

/-- It writes the scale parameter as a row. -/
theorem pre3_v67 (X : Valuation τ sig (Elt Ideal)) :
    StableHlo.after (hostOps3_2 (F := Ideal)) (StableHlo.after (hostOps3_1 (F := Ideal)) (StableHlo.after (hostOps3 (F := Ideal)) X)) (Proc.devRef .tc main_v67)
      = KTerm.row128 (X (Proc.devRef .tc main_arg10)) := by
  after_results
  rfl

/-- It writes the shift parameter as a row. -/
theorem pre3_v68 (X : Valuation τ sig (Elt Ideal)) :
    StableHlo.after (hostOps3_2 (F := Ideal)) (StableHlo.after (hostOps3_1 (F := Ideal)) (StableHlo.after (hostOps3 (F := Ideal)) X)) (Proc.devRef .tc main_v68)
      = KTerm.row128 (X (Proc.devRef .tc main_arg11)) := by
  after_results
  rfl

/-- The last stretch casts the pooled array to batch × query × channel and exchanges its last two axes. -/
theorem last_v71 (X : Valuation τ sig (Elt Ideal)) :
    StableHlo.after (hostOps4 (F := Ideal)) X (Proc.devRef .tc main_v71)
      = transpose S16x128x1024 [0, 2, 1]
          (shapeCast S16x1024x128 (X (Proc.devRef .tc main_v69)) shapeCasts_S16384x128_S16x1024x128)
          transposes_S16x1024x128_S16x128x1024_0_2_1 := by
  after_results
  rfl

/-! ## The layers -/

/-- After the first region its output array is layer 0 of the feature array as the region found it. -/
theorem layer0
    (hR0 : ∀ (V : (c : Dev nD) → (b : Ref sig .tc) → Buf (Elt Ideal) ((c : Thread nD τ).loc b)) (c : Dev nD), (dat0 (F := Ideal) V c).arrAt 2 cfg0.N = Cert.SA.mm (V c main_v38) (V c main_v39))
    (c : Dev nD) :
    W9 (F := Ideal) m ρ c (Proc.devRef .tc main_v40)
      = KTerm.y0 (W8 (F := Ideal) m ρ c (Proc.devRef .tc main_v37)) (m ((c : Thread nD τ).loc main_arg3)) := by
  refine (W9_arr m ρ c 2).trans ?_
  refine (hR0 (V8 m ρ) c).trans ?_
  have e38 : V8 m ρ c main_v38 = KTerm.x0 (W8 (F := Ideal) m ρ c (Proc.devRef .tc main_v37)) := pre0_v38 (W7 m ρ c)
  have e39 : V8 m ρ c main_v39 = transpose S67x64 [1, 0] (m ((c : Thread nD τ).loc main_arg3)) transposes_S64x67_S67x64_1_0 :=
    (pre0_v39 (W7 m ρ c)).trans (by rw [param_W7 m ρ c isParam_arg3])
  unfold KTerm.y0
  rw [e38, e39]

/-- After the second region its output array is the 64-to-64 layer of the first region's output. -/
theorem layer1
    (hR1 : ∀ (V : (c : Dev nD) → (b : Ref sig .tc) → Buf (Elt Ideal) ((c : Thread nD τ).loc b)) (c : Dev nD), (dat1 (F := Ideal) V c).arrAt 6 cfg1.N = Cert.SA.bnmm (V c main_v40) (V c main_v46) (V c main_v47) (V c main_v48) (V c main_v49) (V c main_v45))
    (c : Dev nD) :
    W13 (F := Ideal) m ρ c (Proc.devRef .tc main_v50)
      = KTerm.layer64 (W9 (F := Ideal) m ρ c (Proc.devRef .tc main_v40)) (m ((c : Thread nD τ).loc main_arg4))
          (m ((c : Thread nD τ).loc main_arg5)) (m ((c : Thread nD τ).loc main_arg6)) := by
  refine (W13_arr m ρ c 6).trans ?_
  refine (hR1 (V12 m ρ) c).trans ?_
  have e40 : V12 m ρ c main_v40 = W9 (F := Ideal) m ρ c (Proc.devRef .tc main_v40) := pre1_v40 (W9 m ρ c)
  have e46 : V12 m ρ c main_v46 = KTerm.row64 (KTerm.mean64 (W9 (F := Ideal) m ρ c (Proc.devRef .tc main_v40))) := pre1_v46 (W9 m ρ c)
  have e47 : V12 m ρ c main_v47 = KTerm.row64 (KTerm.var64 (W9 (F := Ideal) m ρ c (Proc.devRef .tc main_v40))) := pre1_v47 (W9 m ρ c)
  have e48 : V12 m ρ c main_v48 = KTerm.row64 (m ((c : Thread nD τ).loc main_arg4)) :=
    (pre1_v48 (W9 m ρ c)).trans (by rw [param_W9 m ρ c isParam_arg4])
  have e49 : V12 m ρ c main_v49 = KTerm.row64 (m ((c : Thread nD τ).loc main_arg5)) :=
    (pre1_v49 (W9 m ρ c)).trans (by rw [param_W9 m ρ c isParam_arg5])
  have e45 : V12 m ρ c main_v45 = transpose S64x64 [1, 0] (m ((c : Thread nD τ).loc main_arg6)) transposes_S64x64_S64x64_1_0 :=
    (pre1_v45 (W9 m ρ c)).trans (by rw [param_W9 m ρ c isParam_arg6])
  unfold KTerm.layer64
  rw [e40, e46, e47, e48, e49, e45]

/-- After the third region its output array is the 64-to-128 layer of the second region's output. -/
theorem layer2
    (hR2 : ∀ (V : (c : Dev nD) → (b : Ref sig .tc) → Buf (Elt Ideal) ((c : Thread nD τ).loc b)) (c : Dev nD), (dat2 (F := Ideal) V c).arrAt 6 cfg2.N = Cert.SA.bnmm (V c main_v50) (V c main_v56) (V c main_v57) (V c main_v58) (V c main_v59) (V c main_v55))
    (c : Dev nD) :
    W17 (F := Ideal) m ρ c (Proc.devRef .tc main_v60)
      = KTerm.layer128 (W13 (F := Ideal) m ρ c (Proc.devRef .tc main_v50)) (m ((c : Thread nD τ).loc main_arg7))
          (m ((c : Thread nD τ).loc main_arg8)) (m ((c : Thread nD τ).loc main_arg9)) := by
  refine (W17_arr m ρ c 6).trans ?_
  refine (hR2 (V16 m ρ) c).trans ?_
  have e50 : V16 m ρ c main_v50 = W13 (F := Ideal) m ρ c (Proc.devRef .tc main_v50) := pre2_v50 (W13 m ρ c)
  have e56 : V16 m ρ c main_v56 = KTerm.row64 (KTerm.mean64 (W13 (F := Ideal) m ρ c (Proc.devRef .tc main_v50))) := pre2_v56 (W13 m ρ c)
  have e57 : V16 m ρ c main_v57 = KTerm.row64 (KTerm.var64 (W13 (F := Ideal) m ρ c (Proc.devRef .tc main_v50))) := pre2_v57 (W13 m ρ c)
  have e58 : V16 m ρ c main_v58 = KTerm.row64 (m ((c : Thread nD τ).loc main_arg7)) :=
    (pre2_v58 (W13 m ρ c)).trans (by rw [param_W13 m ρ c isParam_arg7])
  have e59 : V16 m ρ c main_v59 = KTerm.row64 (m ((c : Thread nD τ).loc main_arg8)) :=
    (pre2_v59 (W13 m ρ c)).trans (by rw [param_W13 m ρ c isParam_arg8])
  have e55 : V16 m ρ c main_v55 = transpose S64x128 [1, 0] (m ((c : Thread nD τ).loc main_arg9)) transposes_S128x64_S64x128_1_0 :=
    (pre2_v55 (W13 m ρ c)).trans (by rw [param_W13 m ρ c isParam_arg9])
  unfold KTerm.layer128
  rw [e50, e56, e57, e58, e59, e55]

/-- After the fourth region its output array is the pooled maxima of the third region's output. -/
theorem layer3
    (hR3 : ∀ (V : (c : Dev nD) → (b : Ref sig .tc) → Buf (Elt Ideal) ((c : Thread nD τ).loc b)) (c : Dev nD), (dat3 (F := Ideal) V c).arrAt 5 cfg3.N = Cert.SA.bnpool (V c main_v60) (V c main_v65) (V c main_v66) (V c main_v67) (V c main_v68))
    (c : Dev nD) :
    W21 (F := Ideal) m ρ c (Proc.devRef .tc main_v69)
      = KTerm.pooled (W17 (F := Ideal) m ρ c (Proc.devRef .tc main_v60)) (m ((c : Thread nD τ).loc main_arg10))
          (m ((c : Thread nD τ).loc main_arg11)) := by
  refine (W21_arr m ρ c 5).trans ?_
  refine (hR3 (V20 m ρ) c).trans ?_
  have e60 : V20 m ρ c main_v60 = W17 (F := Ideal) m ρ c (Proc.devRef .tc main_v60) := pre3_v60 (W17 m ρ c)
  have e65 : V20 m ρ c main_v65 = KTerm.row128 (KTerm.mean128 (W17 (F := Ideal) m ρ c (Proc.devRef .tc main_v60))) := pre3_v65 (W17 m ρ c)
  have e66 : V20 m ρ c main_v66 = KTerm.row128 (KTerm.var128 (W17 (F := Ideal) m ρ c (Proc.devRef .tc main_v60))) := pre3_v66 (W17 m ρ c)
  have e67 : V20 m ρ c main_v67 = KTerm.row128 (m ((c : Thread nD τ).loc main_arg10)) :=
    (pre3_v67 (W17 m ρ c)).trans (by rw [param_W17 m ρ c isParam_arg10])
  have e68 : V20 m ρ c main_v68 = KTerm.row128 (m ((c : Thread nD τ).loc main_arg11)) :=
    (pre3_v68 (W17 m ρ c)).trans (by rw [param_W17 m ρ c isParam_arg11])
  unfold KTerm.pooled
  rw [e60, e65, e66, e67, e68]

/-- The result buffer at the last boundary is the composed term of the feature array as it stands when the first
    region is entered and of the nine parameter arrays as launched. -/
theorem result_eq
    (hR0 : ∀ (V : (c : Dev nD) → (b : Ref sig .tc) → Buf (Elt Ideal) ((c : Thread nD τ).loc b)) (c : Dev nD), (dat0 (F := Ideal) V c).arrAt 2 cfg0.N = Cert.SA.mm (V c main_v38) (V c main_v39))
    (hR1 : ∀ (V : (c : Dev nD) → (b : Ref sig .tc) → Buf (Elt Ideal) ((c : Thread nD τ).loc b)) (c : Dev nD), (dat1 (F := Ideal) V c).arrAt 6 cfg1.N = Cert.SA.bnmm (V c main_v40) (V c main_v46) (V c main_v47) (V c main_v48) (V c main_v49) (V c main_v45))
    (hR2 : ∀ (V : (c : Dev nD) → (b : Ref sig .tc) → Buf (Elt Ideal) ((c : Thread nD τ).loc b)) (c : Dev nD), (dat2 (F := Ideal) V c).arrAt 6 cfg2.N = Cert.SA.bnmm (V c main_v50) (V c main_v56) (V c main_v57) (V c main_v58) (V c main_v59) (V c main_v55))
    (hR3 : ∀ (V : (c : Dev nD) → (b : Ref sig .tc) → Buf (Elt Ideal) ((c : Thread nD τ).loc b)) (c : Dev nD), (dat3 (F := Ideal) V c).arrAt 5 cfg3.N = Cert.SA.bnpool (V c main_v60) (V c main_v65) (V c main_v66) (V c main_v67) (V c main_v68))
    (c : Dev nD) :
    W22 (F := Ideal) m ρ c (Proc.devRef .tc main_v71)
      = KTerm.out (W8 (F := Ideal) m ρ c (Proc.devRef .tc main_v37))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  refine (last_v71 (W21 m ρ c)).trans ?_
  unfold KTerm.out
  rw [layer3 m ρ hR3 c, layer2 m ρ hR2 c, layer1 m ρ hR1 c, layer0 m ρ hR0 c]

end Cert.KernelIdeal.Host

end
-- ==== Proof.KReg0.lean ====
/- The first product's array after its region: every one of the 64 blocks of 8192 samples is written with that
   block's samples times the whole weight matrix, and the blocks tile the array, so the array is the sample-major product. -/
import proofs.«128494_j5145370821372_1_alg».proof.Proof.Gen.KernelIdeal.Frame
import proofs.«128494_j5145370821372_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.TcCoe Idealize.SL.Sem Idealize.ShloMosaic.ValueIdx
open Cert.KernelIdeal Cert.KernelIdeal.Gen
open scoped BigOperators

/-! ## One block's product, entry by entry -/

/-- The left operand's row coordinate is the result's row. -/
theorem lhs_row_eq (i : S8192x64.Idx) (q : dot_S8192x67_S67x64_S8192x64_1_0_0_1_n_n.contr.Idx) :
    (dot_S8192x67_S67x64_S8192x64_1_0_0_1_n_n.lhsIdx i q 0).val = (i 0).val := by
  unfold DotDims.lhsIdx
  rw [dif_neg (show ¬(0 : Fin S8192x67.rank) ∈ dot_S8192x67_S67x64_S8192x64_1_0_0_1_n_n.lhsBatch by decide),
    dif_pos (show (0 : Fin S8192x67.rank) ∈ dot_S8192x67_S67x64_S8192x64_1_0_0_1_n_n.lhsNonContracting by decide)]
  rfl

/-- The left operand's column coordinate is the summation index. -/
theorem lhs_col_eq (i : S8192x64.Idx) (q : dot_S8192x67_S67x64_S8192x64_1_0_0_1_n_n.contr.Idx) :
    (dot_S8192x67_S67x64_S8192x64_1_0_0_1_n_n.lhsIdx i q 1).val = (q ⟨0, by decide⟩).val :=
  dot_S8192x67_S67x64_S8192x64_1_0_0_1_n_n.lhsIdx_val_of_single rfl i q

/-- The right operand's row coordinate is the summation index. -/
theorem rhs_row_eq (i : S8192x64.Idx) (q : dot_S8192x67_S67x64_S8192x64_1_0_0_1_n_n.contr.Idx) :
    (dot_S8192x67_S67x64_S8192x64_1_0_0_1_n_n.rhsIdx i q 0).val = (q ⟨0, by decide⟩).val :=
  dot_S8192x67_S67x64_S8192x64_1_0_0_1_n_n.rhsIdx_val_of_single rfl i q

/-- The right operand's column coordinate is the result's column. -/
theorem rhs_col_eq (i : S8192x64.Idx) (q : dot_S8192x67_S67x64_S8192x64_1_0_0_1_n_n.contr.Idx) :
    (dot_S8192x67_S67x64_S8192x64_1_0_0_1_n_n.rhsIdx i q 1).val = (i 1).val := by
  unfold DotDims.rhsIdx
  rw [dif_neg (show ¬(1 : Fin S67x64.rank) ∈ dot_S8192x67_S67x64_S8192x64_1_0_0_1_n_n.rhsBatch by decide),
    dif_pos (show (1 : Fin S67x64.rank) ∈ dot_S8192x67_S67x64_S8192x64_1_0_0_1_n_n.rhsNonContracting by decide)]
  rfl

/-- Entry (p, q) of what one grid point computes from its block of samples `x` and the weights `w`:
    Σ_k x[p, k] · w[k, q] (the changes of format are the identity on extended reals, and the accumulator is zero). -/
theorem block_product_apply (x : Vec Ideal S8192x67 .f32) (w : Vec Ideal S67x64 .f32) (p : Fin 8192) (q : Fin 64) :
    k0_pay1 (F := Ideal) x w (ix2 p q) = ∑ k : Fin 67, x (ix2 p k) * w (ix2 k q) := by
  unfold k0_pay1
  simp only [shapeCast_self, matmul]
  rw [Ideal.matmul_constant_zero_apply,
    ← Equiv.sum_comp (contrEquiv1 dot_S8192x67_S67x64_S8192x64_1_0_0_1_n_n 67 rfl rfl).symm]
  refine Finset.sum_congr rfl fun k _ => ?_
  have hk := contrEquiv1_symm_val dot_S8192x67_S67x64_S8192x64_1_0_0_1_n_n 67 rfl rfl k
  have el : dot_S8192x67_S67x64_S8192x64_1_0_0_1_n_n.lhsIdx (ix2 p q)
      ((contrEquiv1 dot_S8192x67_S67x64_S8192x64_1_0_0_1_n_n 67 rfl rfl).symm k) = ix2 p k :=
    funext fun a => Fin.ext (by
      match a with
      | ⟨0, _⟩ => exact lhs_row_eq _ _
      | ⟨1, _⟩ => exact (lhs_col_eq _ _).trans hk)
  have er : dot_S8192x67_S67x64_S8192x64_1_0_0_1_n_n.rhsIdx (ix2 p q)
      ((contrEquiv1 dot_S8192x67_S67x64_S8192x64_1_0_0_1_n_n 67 rfl rfl).symm k) = ix2 k q :=
    funext fun a => Fin.ext (by
      match a with
      | ⟨0, _⟩ => exact (rhs_row_eq _ _).trans hk
      | ⟨1, _⟩ => exact rhs_col_eq _ _)
  rw [el, er]
  rfl

variable (V : (c : Dev nD) → (b : Ref sig .tc) → Buf (Elt Ideal) ((c : Thread nD τ).loc b))

/-! ## The windows' index maps, and where a block's entries sit in their arrays -/

theorem zero_offsets : (![0, 0] : Fin 2 → Nat) = fun _ => 0 := funext fun a => by fin_cases a <;> rfl

/-- At grid point t the sample window and the result window are at block (t, 0), the weight window at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row of the result is some grid point's. -/
theorem index_onto : ∀ b : Fin 64, ∃ t : Fin cfg0.N, win0_2.index t = ![b.val, 0] :=
  (by decide +kernel : ∀ b : Fin 64, ∃ t : Fin grid0.N, win0_2.index t = ![b.val, 0])

/-- Row p of block t is row 8192 · t + p of the 524288 samples. -/
def rowOf (t : Fin cfg0.N) (p : Fin 8192) : Fin 524288 :=
  ⟨t.val * 8192 + p.val, by have ht : t.val < 64 := t.isLt.trans_eq N_0; have := p.isLt; omega⟩

/-- The sample block at point t holds rows 8192 · t … 8192 · t + 8191 of the sample array, all 67 columns. -/
theorem samples_block_apply (c : Dev nD) (t : Fin cfg0.N) (p : Fin 8192) (k : Fin 67) :
    iblk0 V c 0 t (ix2 p k) = V c main_v38 (ix2 (rowOf t p) k) := by
  obtain ⟨e0, e1, -⟩ := index_facts t
  show V c main_v38 (((cfg0.win 0).blk t).view.emb (ix2 p k)) = _
  refine congrArg (V c main_v38) ?_
  funext a; apply Fin.ext
  match a with
  | ⟨0, _⟩ => show win0_0.index t (0 : Fin 2) * 8192 + 1 * p.val = t.val * 8192 + p.val; rw [e0]; omega
  | ⟨1, _⟩ => show win0_0.index t (1 : Fin 2) * 67 + 1 * k.val = k.val; rw [e1]; omega

/-- The weight block at every point is the whole weight array. -/
theorem weights_block_apply (c : Dev nD) (t : Fin cfg0.N) (k : Fin 67) (q : Fin 64) :
    iblk0 V c 1 t (ix2 k q) = V c main_v39 (ix2 k q) := by
  obtain ⟨-, -, e2, e3, -⟩ := index_facts t
  show V c main_v39 (((cfg0.win 1).blk t).view.emb (ix2 k q)) = _
  refine congrArg (V c main_v39) ?_
  funext a; apply Fin.ext
  match a with
  | ⟨0, _⟩ => show win0_1.index t (0 : Fin 2) * 67 + 1 * k.val = k.val; rw [e2]; omega
  | ⟨1, _⟩ => show win0_1.index t (1 : Fin 2) * 64 + 1 * q.val = q.val; rw [e3]; omega

/-- Entry (p, q) of the result block at point t sits at (8192 · t + p, q) of the result array. -/
theorem result_block_emb (t : Fin cfg0.N) (p : Fin 8192) (q : Fin 64) :
    (((cfg0.win 2).blk t).view.emb (ix2 p q) : S524288x64.Idx) = ix2 (rowOf t p) q := by
  obtain ⟨-, -, -, -, e4, e5⟩ := index_facts t
  funext a; apply Fin.ext
  match a with
  | ⟨0, _⟩ => show win0_2.index t (0 : Fin 2) * 8192 + 1 * p.val = t.val * 8192 + p.val; rw [e4]; omega
  | ⟨1, _⟩ => show win0_2.index t (1 : Fin 2) * 64 + 1 * q.val = q.val; rw [e5]; omega

/-! ## What one grid point writes back -/

/-- Point t writes back block t of the sample-major product of the two input arrays. -/
theorem flushed_eq (c : Dev nD) (t : Fin cfg0.N) :
    (dat0 (F := Ideal) V c).flushed 2 t
      = ((cfg0.win 2).blk t).view.read (Elt Ideal) (Cert.SA.mm (V c main_v38) (V c main_v39)) := by
  show (cfg0.win 2).cut (grid0.coords t) ((dat0 V c).after 2 t) = _
  rw [after0_2]
  unfold out0_2
  rw [View.canon_unit_zero zero_offsets]
  simp only [View.ld_unit_zero (S := S8192x67) zero_offsets, View.ld_unit_zero (S := S67x64) zero_offsets]
  funext j
  obtain ⟨p, q, rfl⟩ : ∃ (p : Fin 8192) (q : Fin 64), j = ix2 p q := ⟨j 0, j 1, eq_ix2 j⟩
  show k0_pay1 (iblk0 V c 0 t) (iblk0 V c 1 t) (ix2 p q)
    = Cert.SA.mm (V c main_v38) (V c main_v39) (((cfg0.win 2).blk t).view.emb (ix2 p q))
  rw [block_product_apply]
  refine Eq.trans ?_ (congrArg (Cert.SA.mm (V c main_v38) (V c main_v39)) (result_block_emb t p q).symm)
  show _ = Cert.SA.mmAt (V c main_v38) (V c main_v39) (rowOf t p) q
  unfold Cert.SA.mmAt
  exact Finset.sum_congr rfl fun k _ => by rw [samples_block_apply, weights_block_apply]

/-! ## The blocks tile the result array -/

/-- An index of the result array is in point t's block iff each coordinate is in the block's range on its axis. -/
theorem mem_block_iff (t : Fin cfg0.N) (i : S524288x64.Idx) :
    i ∈ ((cfg0.win 2).blk t).view.set ↔ ∀ a : Fin 2, win0_2.index t a * S8192x64.size a ≤ (i a).val
      ∧ (i a).val < win0_2.index t a * S8192x64.size a + S8192x64.size a := by
  show i ∈ ((View.whole main_v40).slice (win0_2.rect t)).set ↔ _
  rw [View.set_slice_whole, Rect.mem_set_unit]
  exact Iff.rfl

/-- Row r of the result array lies in the block of the point whose block row is r / 8192. -/
theorem covered (i : S524288x64.Idx) :
    ∃ t : Fin cfg0.N, (cfg0.win 2).flush t = true ∧ i ∈ ((cfg0.win 2).blk t).view.set := by
  have hi0 : (i 0).val < 524288 := (i 0).isLt
  have hi1 : (i 1).val < 64 := (i 1).isLt
  obtain ⟨t, ht⟩ := index_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_block_iff]
  intro a
  match a with
  | ⟨0, _⟩ =>
    show win0_2.index t (0 : Fin 2) * 8192 ≤ (i 0).val ∧ (i 0).val < win0_2.index t (0 : Fin 2) * 8192 + 8192
    omega
  | ⟨1, _⟩ =>
    show win0_2.index t (1 : Fin 2) * 64 ≤ (i 1).val ∧ (i 1).val < win0_2.index t (1 : Fin 2) * 64 + 64
    omega

/-! ## The array after the region -/

/-- After region 0 the output array is the sample-major product of the two input arrays as the region found them. -/
theorem final (c : Dev nD) :
    (dat0 (F := Ideal) V c).arrAt 2 cfg0.N = Cert.SA.mm (V c main_v38) (V c main_v39) :=
  (dat0 (F := Ideal) V c).arrAt_eq_of_cover 2 (Cert.SA.mm (V c main_v38) (V c main_v39))
    (fun t _ => flushed_eq V c t) covered

end Cert.KernelIdeal.Reg0

end
-- ==== Proof.KReg1.lean ====
/- The second layer's array after its region: each block of 8192 samples is normalised with the per-channel rows,
   scaled, shifted, rectified and multiplied by the whole weight matrix; the blocks tile the array. -/
import proofs.«128494_j5145370821372_1_alg».proof.Proof.Gen.KernelIdeal.Frame
import proofs.«128494_j5145370821372_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Idealize.ShloMosaic Idealize.ShloMosaic.TcCoe Idealize.SL.Sem Idealize.ShloMosaic.ValueIdx
open Cert.KernelIdeal Cert.KernelIdeal.Gen
open scoped BigOperators

variable (V : (c : Dev nD) → (b : Ref sig .tc) → Buf (Elt Ideal) ((c : Thread nD τ).loc b))

/-- The product's dimension numbers: rows of the left operand against columns of the right, one contracted axis of 64. -/
abbrev D1 := dot_S8192x64_S64x64_S8192x64_1_0_0_1_n_n

/-! ## Which operand entries the product at (p, o), contraction position c, reads: left (p, c), right (c, o) -/

theorem lhs_row (j : S8192x64.Idx) (k : D1.contr.Idx) : (D1.lhsIdx j k 0 : ℕ) = j 0 := by
  simp [DotDims.lhsIdx, D1, dot_S8192x64_S64x64_S8192x64_1_0_0_1_n_n]; rfl
theorem lhs_col (j : S8192x64.Idx) (k : D1.contr.Idx) : (D1.lhsIdx j k 1 : ℕ) = k ⟨0, by decide⟩ := by
  simp [DotDims.lhsIdx, D1, dot_S8192x64_S64x64_S8192x64_1_0_0_1_n_n]; rfl
theorem rhs_row (j : S8192x64.Idx) (k : D1.contr.Idx) : (D1.rhsIdx j k 0 : ℕ) = k ⟨0, by decide⟩ := by
  simp [DotDims.rhsIdx, D1, dot_S8192x64_S64x64_S8192x64_1_0_0_1_n_n]; rfl
theorem rhs_col (j : S8192x64.Idx) (k : D1.contr.Idx) : (D1.rhsIdx j k 1 : ℕ) = j 1 := by
  simp [DotDims.rhsIdx, D1, dot_S8192x64_S64x64_S8192x64_1_0_0_1_n_n]; rfl

/-- The left operand is read at (p, c). -/
theorem lhs_at (p : Fin 8192) (o : Fin 64) (c : Fin 64) :
    D1.lhsIdx (ix2 p o) ((contrEquiv1 D1 64 rfl rfl).symm c) = ix2 p c := by
  refine Shape.idx_ext₂ ?_ ?_
  · exact lhs_row _ _
  · exact (lhs_col _ _).trans (contrEquiv1_symm_val D1 64 rfl rfl c)

/-- The right operand is read at (c, o). -/
theorem rhs_at (p : Fin 8192) (o : Fin 64) (c : Fin 64) :
    D1.rhsIdx (ix2 p o) ((contrEquiv1 D1 64 rfl rfl).symm c) = ix2 c o := by
  refine Shape.idx_ext₂ ?_ ?_
  · exact (rhs_row _ _).trans (contrEquiv1_symm_val D1 64 rfl rfl c)
  · exact rhs_col _ _

/-- The block body read at row p and output channel o: every channel c of the row is normalised with the
    parameter rows' entries at c, scaled, shifted and rectified, then multiplied by the weight (c, o); the products
    are added over c. The two roundings to the narrower format are the identity on extended reals. -/
theorem payload_apply (x0 : Vec Ideal S8192x64 .f32) (x1 x2 x3 x4 : Vec Ideal S1x64 .f32) (x5 : Vec Ideal S64x64 .f32)
    (p : Fin 8192) (o : Fin 64) :
    k1_pay1 (F := Ideal) x0 x1 x2 x3 x4 x5 (ix2 p o)
      = ∑ c : Fin 64, Cert.SA.bnr (x0 (ix2 p c)) (x1 (ix2 0 c)) (x2 (ix2 0 c)) (x3 (ix2 0 c)) (x4 (ix2 0 c)) * x5 (ix2 c o) := by
  unfold k1_pay1
  refine (Ideal.matmul_constant_zero_apply D1 none _ _ (ix2 p o)).trans ?_
  rw [← Equiv.sum_comp (contrEquiv1 D1 64 rfl rfl).symm]
  refine Finset.sum_congr rfl fun c _ => ?_
  rw [lhs_at, rhs_at]
  simp only [truncf_apply, shapeCast_self, maximumf_apply, addf_apply, mulf_apply, subf_apply, broadcast_apply,
    broadcastTo_1b_ab_apply]
  show max ((x0 (ix2 p c) - x1 (ix2 0 c)) * Ideal.rsqrt (x2 (ix2 0 c) + Ideal.ofBits .f32 0x3727C5AC#32) * x3 (ix2 0 c)
      + x4 (ix2 0 c)) (Ideal.ofBits .f32 0x00000000#32) * x5 (ix2 c o) = _
  rw [Ideal.ofBits_zero_f32]
  rfl

/-! ## From the 64 blocks to the array -/

/-- Both offsets of a whole-block access are zero. -/
theorem zero_offsets : (![0, 0] : Fin 2 → Nat) = fun _ => 0 := funext fun a => by fin_cases a <;> rfl

/-- At every one of the 64 grid points the sample windows (input 0 and the output) sit at block (t, 0), the four
    parameter rows and the weights at block (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of block t is row 8192 t + p of the array. -/
def row (t : Fin cfg1.N) (p : Fin 8192) : Fin 524288 :=
  ⟨t.val * 8192 + p.val, by have hN : cfg1.N = 64 := N_1; have := t.isLt; have := p.isLt; omega⟩

/-- The sample block at point t holds rows 8192 t … 8192 t + 8191 of the previous layer's array. -/
theorem samples_apply (c : Dev nD) (t : Fin cfg1.N) (p : Fin 8192) (q : Fin 64) :
    (iblk1 (F := Ideal) V c 0 t : Vec Ideal S8192x64 .f32) (ix2 p q)
      = (V c main_v40 : S524288x64.Idx → EReal) (ix2 (row t p) q) := by
  obtain ⟨e0, e1, -⟩ := block_indices t
  unfold iblk1
  rw [View.read_apply]
  show (V c main_v40 : S524288x64.Idx → EReal) _ = _
  congr 1
  funext a
  apply Fin.ext
  match a with
  | ⟨0, _⟩ => show win1_0.index t (0 : Fin 2) * 8192 + 1 * p.val = t.val * 8192 + p.val; rw [e0]; omega
  | ⟨1, _⟩ => show win1_0.index t (1 : Fin 2) * 64 + 1 * q.val = q.val; rw [e1]; omega

/-- The mean row's block is the whole row at every point. -/
theorem mean_apply (c : Dev nD) (t : Fin cfg1.N) (q : Fin 64) :
    (iblk1 (F := Ideal) V c 1 t : Vec Ideal S1x64 .f32) (ix2 0 q) = (V c main_v46 : S1x64.Idx → EReal) (ix2 0 q) := by
  obtain ⟨-, -, e0, e1, -⟩ := block_indices t
  unfold iblk1
  rw [View.read_apply]
  show (V c main_v46 : S1x64.Idx → EReal) _ = _
  congr 1
  funext a
  apply Fin.ext
  match a with
  | ⟨0, _⟩ => show win1_1.index t (0 : Fin 2) * 1 + 1 * (0 : Fin 1).val = (0 : Fin 1).val; rw [e0]; rfl
  | ⟨1, _⟩ => show win1_1.index t (1 : Fin 2) * 64 + 1 * q.val = q.val; rw [e1]; omega

/-- The variance row's block is the whole row at every point. -/
theorem variance_apply (c : Dev nD) (t : Fin cfg1.N) (q : Fin 64) :
    (iblk1 (F := Ideal) V c 2 t : Vec Ideal S1x64 .f32) (ix2 0 q) = (V c main_v47 : S1x64.Idx → EReal) (ix2 0 q) := by
  obtain ⟨-, -, -, -, e0, e1, -⟩ := block_indices t
  unfold iblk1
  rw [View.read_apply]
  show (V c main_v47 : S1x64.Idx → EReal) _ = _
  congr 1
  funext a
  apply Fin.ext
  match a with
  | ⟨0, _⟩ => show win1_2.index t (0 : Fin 2) * 1 + 1 * (0 : Fin 1).val = (0 : Fin 1).val; rw [e0]; rfl
  | ⟨1, _⟩ => show win1_2.index t (1 : Fin 2) * 64 + 1 * q.val = q.val; rw [e1]; omega

/-- The scale row's block is the whole row at every point. -/
theorem scale_apply (c : Dev nD) (t : Fin cfg1.N) (q : Fin 64) :
    (iblk1 (F := Ideal) V c 3 t : Vec Ideal S1x64 .f32) (ix2 0 q) = (V c main_v48 : S1x64.Idx → EReal) (ix2 0 q) := by
  obtain ⟨-, -, -, -, -, -, e0, e1, -⟩ := block_indices t
  unfold iblk1
  rw [View.read_apply]
  show (V c main_v48 : S1x64.Idx → EReal) _ = _
  congr 1
  funext a
  apply Fin.ext
  match a with
  | ⟨0, _⟩ => show win1_3.index t (0 : Fin 2) * 1 + 1 * (0 : Fin 1).val = (0 : Fin 1).val; rw [e0]; rfl
  | ⟨1, _⟩ => show win1_3.index t (1 : Fin 2) * 64 + 1 * q.val = q.val; rw [e1]; omega

/-- The shift row's block is the whole row at every point. -/
theorem shift_apply (c : Dev nD) (t : Fin cfg1.N) (q : Fin 64) :
    (iblk1 (F := Ideal) V c 4 t : Vec Ideal S1x64 .f32) (ix2 0 q) = (V c main_v49 : S1x64.Idx → EReal) (ix2 0 q) := by
  obtain ⟨-, -, -, -, -, -, -, -, e0, e1, -⟩ := block_indices t
  unfold iblk1
  rw [View.read_apply]
  show (V c main_v49 : S1x64.Idx → EReal) _ = _
  congr 1
  funext a
  apply Fin.ext
  match a with
  | ⟨0, _⟩ => show win1_4.index t (0 : Fin 2) * 1 + 1 * (0 : Fin 1).val = (0 : Fin 1).val; rw [e0]; rfl
  | ⟨1, _⟩ => show win1_4.index t (1 : Fin 2) * 64 + 1 * q.val = q.val; rw [e1]; omega

/-- The weights' block is the whole matrix at every point. -/
theorem weights_apply (c : Dev nD) (t : Fin cfg1.N) (r : Fin 64) (q : Fin 64) :
    (iblk1 (F := Ideal) V c 5 t : Vec Ideal S64x64 .f32) (ix2 r q) = (V c main_v45 : S64x64.Idx → EReal) (ix2 r q) := by
  obtain ⟨-, -, -, -, -, -, -, -, -, -, e0, e1, -⟩ := block_indices t
  unfold iblk1
  rw [View.read_apply]
  show (V c main_v45 : S64x64.Idx → EReal) _ = _
  congr 1
  funext a
  apply Fin.ext
  match a with
  | ⟨0, _⟩ => show win1_5.index t (0 : Fin 2) * 64 + 1 * r.val = r.val; rw [e0]; omega
  | ⟨1, _⟩ => show win1_5.index t (1 : Fin 2) * 64 + 1 * q.val = q.val; rw [e1]; omega

/-- Entry (p, q) of the output block at point t sits at row 8192 t + p, column q of the output array. -/
theorem result_emb (t : Fin cfg1.N) (p : Fin 8192) (q : Fin 64) :
    (((cfg1.win 6).blk t).view.emb (ix2 p q) : S524288x64.Idx) = ix2 (row t p) q := by
  obtain ⟨-, -, -, -, -, -, -, -, -, -, -, -, e0, e1⟩ := block_indices t
  funext a
  apply Fin.ext
  match a with
  | ⟨0, _⟩ => show win1_6.index t (0 : Fin 2) * 8192 + 1 * p.val = t.val * 8192 + p.val; rw [e0]; omega
  | ⟨1, _⟩ => show win1_6.index t (1 : Fin 2) * 64 + 1 * q.val = q.val; rw [e1]; omega

/-- What point t writes back is block t of the whole-array function: at (p, q) both sides are the same sum over the
    64 channels of the rectified entries of row 8192 t + p times the weights' column q. -/
theorem flushed_eq (c : Dev nD) (t : Fin cfg1.N) :
    (dat1 (F := Ideal) V c).flushed 6 t
      = ((cfg1.win 6).blk t).view.read (Elt Ideal)
          (Cert.SA.bnmm (V c main_v40) (V c main_v46) (V c main_v47) (V c main_v48) (V c main_v49) (V c main_v45)) := by
  show (cfg1.win 6).cut (grid1.coords t) ((dat1 V c).after 6 t) = _
  rw [after1_6]
  unfold out1_6
  rw [View.canon_unit_zero zero_offsets]
  simp only [View.ld_unit_zero (S := S8192x64) zero_offsets, View.ld_unit_zero (S := S1x64) zero_offsets,
    View.ld_unit_zero (S := S64x64) zero_offsets]
  funext j
  obtain ⟨p, q, rfl⟩ : ∃ (p : Fin 8192) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q)
    = Cert.SA.bnmm (V c main_v40) (V c main_v46) (V c main_v47) (V c main_v48) (V c main_v49) (V c main_v45)
        (((cfg1.win 6).blk t).view.emb (ix2 p q))
  rw [result_emb]
  refine (payload_apply (iblk1 V c 0 t) (iblk1 V c 1 t) (iblk1 V c 2 t) (iblk1 V c 3 t) (iblk1 V c 4 t) (iblk1 V c 5 t) p q).trans ?_
  show _ = Cert.SA.bnmmAt (V c main_v40) (V c main_v46) (V c main_v47) (V c main_v48) (V c main_v49) (V c main_v45) (row t p) q
  unfold Cert.SA.bnmmAt Cert.SA.bnAt
  refine Finset.sum_congr rfl fun k _ => ?_
  rw [samples_apply, mean_apply, variance_apply, scale_apply, shift_apply, weights_apply]

/-- An index of the output array is in point t's block iff each coordinate is in the block's range on its axis. -/
theorem mem_block (t : Fin cfg1.N) (i : S524288x64.Idx) :
    i ∈ ((cfg1.win 6).blk t).view.set ↔ ∀ a : Fin 2, win1_6.index t a * S8192x64.size a ≤ (i a).val
      ∧ (i a).val < win1_6.index t a * S8192x64.size a + S8192x64.size a := by
  show i ∈ ((View.whole main_v50).slice (win1_6.rect t)).set ↔ _
  rw [View.set_slice_whole, Rect.mem_set_unit]
  exact Iff.rfl

/-- Every index of the output array is in the block of the point numbered by its row divided by 8192. -/
theorem covered (i : S524288x64.Idx) :
    ∃ t : Fin cfg1.N, (cfg1.win 6).flush t = true ∧ i ∈ ((cfg1.win 6).blk t).view.set := by
  have hN : cfg1.N = 64 := N_1
  have hi0 : (i 0).val < 524288 := idx2_lt0 i
  have hi1 : (i 1).val < 64 := idx2_lt1 i
  obtain ⟨t, ht⟩ : ∃ t : Fin cfg1.N, t.val = (i 0).val / 8192 := ⟨⟨(i 0).val / 8192, by rw [hN]; omega⟩, rfl⟩
  obtain ⟨-, -, -, -, -, -, -, -, -, -, -, -, e0, e1⟩ := block_indices t
  refine ⟨t, flush1_6 t, ?_⟩
  rw [mem_block]
  intro a
  match a with
  | ⟨0, _⟩ =>
    show win1_6.index t (0 : Fin 2) * 8192 ≤ (i 0).val ∧ (i 0).val < win1_6.index t (0 : Fin 2) * 8192 + 8192
    rw [e0, ht]; omega
  | ⟨1, _⟩ =>
    show win1_6.index t (1 : Fin 2) * 64 ≤ (i 1).val ∧ (i 1).val < win1_6.index t (1 : Fin 2) * 64 + 64
    rw [e1]; omega

/-- After region 1 the output array is the rectified-then-multiplied function of the six input arrays as the region found them. -/
theorem final (c : Dev nD) :
    (dat1 (F := Ideal) V c).arrAt 6 cfg1.N
      = Cert.SA.bnmm (V c main_v40) (V c main_v46) (V c main_v47) (V c main_v48) (V c main_v49) (V c main_v45) :=
  (dat1 (F := Ideal) V c).arrAt_eq_of_cover 6 _ (fun t _ => flushed_eq V c t) covered

end Cert.KernelIdeal.Reg1

end
-- ==== Proof.KReg2.lean ====
/- The third layer's array after its region: as the second layer's, with 128 output channels. -/
import proofs.«128494_j5145370821372_1_alg».proof.Proof.Gen.KernelIdeal.Frame
import proofs.«128494_j5145370821372_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Idealize.ShloMosaic Idealize.ShloMosaic.TcCoe Idealize.SL.Sem Idealize.ShloMosaic.ValueIdx
open Cert.KernelIdeal Cert.KernelIdeal.Gen
open scoped BigOperators

variable (V : (c : Dev nD) → (b : Ref sig .tc) → Buf (Elt Ideal) ((c : Thread nD τ).loc b))

/-- The product's dimension numbers: rows of the left operand against columns of the right, one contracted axis of 64,
    128 output channels. -/
abbrev D2 := dot_S8192x64_S64x128_S8192x128_1_0_0_1_n_n

/-! ## Which operand entries the product at (p, o), contraction position c, reads: left (p, c), right (c, o) -/

theorem lhs_row (j : S8192x128.Idx) (k : D2.contr.Idx) : (D2.lhsIdx j k 0 : ℕ) = j 0 := by
  simp [DotDims.lhsIdx, D2, dot_S8192x64_S64x128_S8192x128_1_0_0_1_n_n]; rfl
theorem lhs_col (j : S8192x128.Idx) (k : D2.contr.Idx) : (D2.lhsIdx j k 1 : ℕ) = k ⟨0, by decide⟩ := by
  simp [DotDims.lhsIdx, D2, dot_S8192x64_S64x128_S8192x128_1_0_0_1_n_n]; rfl
theorem rhs_row (j : S8192x128.Idx) (k : D2.contr.Idx) : (D2.rhsIdx j k 0 : ℕ) = k ⟨0, by decide⟩ := by
  simp [DotDims.rhsIdx, D2, dot_S8192x64_S64x128_S8192x128_1_0_0_1_n_n]; rfl
theorem rhs_col (j : S8192x128.Idx) (k : D2.contr.Idx) : (D2.rhsIdx j k 1 : ℕ) = j 1 := by
  simp [DotDims.rhsIdx, D2, dot_S8192x64_S64x128_S8192x128_1_0_0_1_n_n]; rfl

/-- The left operand is read at (p, c). -/
theorem lhs_at (p : Fin 8192) (o : Fin 128) (c : Fin 64) :
    D2.lhsIdx (ix2 p o) ((contrEquiv1 D2 64 rfl rfl).symm c) = ix2 p c := by
  refine Shape.idx_ext₂ ?_ ?_
  · exact lhs_row _ _
  · exact (lhs_col _ _).trans (contrEquiv1_symm_val D2 64 rfl rfl c)

/-- The right operand is read at (c, o). -/
theorem rhs_at (p : Fin 8192) (o : Fin 128) (c : Fin 64) :
    D2.rhsIdx (ix2 p o) ((contrEquiv1 D2 64 rfl rfl).symm c) = ix2 c o := by
  refine Shape.idx_ext₂ ?_ ?_
  · exact (rhs_row _ _).trans (contrEquiv1_symm_val D2 64 rfl rfl c)
  · exact rhs_col _ _

/-- The block body read at row p and output channel o: every channel c of the row is normalised with the
    parameter rows' entries at c, scaled, shifted and rectified, then multiplied by the weight (c, o); the products
    are added over c. The two roundings to the narrower format are the identity on extended reals. -/
theorem payload_apply (x0 : Vec Ideal S8192x64 .f32) (x1 x2 x3 x4 : Vec Ideal S1x64 .f32) (x5 : Vec Ideal S64x128 .f32)
    (p : Fin 8192) (o : Fin 128) :
    k2_pay1 (F := Ideal) x0 x1 x2 x3 x4 x5 (ix2 p o)
      = ∑ c : Fin 64, Cert.SA.bnr (x0 (ix2 p c)) (x1 (ix2 0 c)) (x2 (ix2 0 c)) (x3 (ix2 0 c)) (x4 (ix2 0 c)) * x5 (ix2 c o) := by
  unfold k2_pay1
  refine (Ideal.matmul_constant_zero_apply D2 none _ _ (ix2 p o)).trans ?_
  rw [← Equiv.sum_comp (contrEquiv1 D2 64 rfl rfl).symm]
  refine Finset.sum_congr rfl fun c _ => ?_
  rw [lhs_at, rhs_at]
  simp only [truncf_apply, shapeCast_self, maximumf_apply, addf_apply, mulf_apply, subf_apply, broadcast_apply,
    broadcastTo_1b_ab_apply]
  show max ((x0 (ix2 p c) - x1 (ix2 0 c)) * Ideal.rsqrt (x2 (ix2 0 c) + Ideal.ofBits .f32 0x3727C5AC#32) * x3 (ix2 0 c)
      + x4 (ix2 0 c)) (Ideal.ofBits .f32 0x00000000#32) * x5 (ix2 c o) = _
  rw [Ideal.ofBits_zero_f32]
  rfl

/-! ## From the 64 blocks to the array -/

/-- Both offsets of a whole-block access are zero. -/
theorem zero_offsets : (![0, 0] : Fin 2 → Nat) = fun _ => 0 := funext fun a => by fin_cases a <;> rfl

/-- At every one of the 64 grid points the sample windows (input 0 and the output) sit at block (t, 0), the four
    parameter rows and the weights at block (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of block t is row 8192 t + p of the array. -/
def row (t : Fin cfg2.N) (p : Fin 8192) : Fin 524288 :=
  ⟨t.val * 8192 + p.val, by have hN : cfg2.N = 64 := N_2; have := t.isLt; have := p.isLt; omega⟩

/-- The sample block at point t holds rows 8192 t … 8192 t + 8191 of the previous layer's array. -/
theorem samples_apply (c : Dev nD) (t : Fin cfg2.N) (p : Fin 8192) (q : Fin 64) :
    (iblk2 (F := Ideal) V c 0 t : Vec Ideal S8192x64 .f32) (ix2 p q)
      = (V c main_v50 : S524288x64.Idx → EReal) (ix2 (row t p) q) := by
  obtain ⟨e0, e1, -⟩ := block_indices t
  unfold iblk2
  rw [View.read_apply]
  show (V c main_v50 : S524288x64.Idx → EReal) _ = _
  congr 1
  funext a
  apply Fin.ext
  match a with
  | ⟨0, _⟩ => show win2_0.index t (0 : Fin 2) * 8192 + 1 * p.val = t.val * 8192 + p.val; rw [e0]; omega
  | ⟨1, _⟩ => show win2_0.index t (1 : Fin 2) * 64 + 1 * q.val = q.val; rw [e1]; omega

/-- The mean row's block is the whole row at every point. -/
theorem mean_apply (c : Dev nD) (t : Fin cfg2.N) (q : Fin 64) :
    (iblk2 (F := Ideal) V c 1 t : Vec Ideal S1x64 .f32) (ix2 0 q) = (V c main_v56 : S1x64.Idx → EReal) (ix2 0 q) := by
  obtain ⟨-, -, e0, e1, -⟩ := block_indices t
  unfold iblk2
  rw [View.read_apply]
  show (V c main_v56 : S1x64.Idx → EReal) _ = _
  congr 1
  funext a
  apply Fin.ext
  match a with
  | ⟨0, _⟩ => show win2_1.index t (0 : Fin 2) * 1 + 1 * (0 : Fin 1).val = (0 : Fin 1).val; rw [e0]; rfl
  | ⟨1, _⟩ => show win2_1.index t (1 : Fin 2) * 64 + 1 * q.val = q.val; rw [e1]; omega

/-- The variance row's block is the whole row at every point. -/
theorem variance_apply (c : Dev nD) (t : Fin cfg2.N) (q : Fin 64) :
    (iblk2 (F := Ideal) V c 2 t : Vec Ideal S1x64 .f32) (ix2 0 q) = (V c main_v57 : S1x64.Idx → EReal) (ix2 0 q) := by
  obtain ⟨-, -, -, -, e0, e1, -⟩ := block_indices t
  unfold iblk2
  rw [View.read_apply]
  show (V c main_v57 : S1x64.Idx → EReal) _ = _
  congr 1
  funext a
  apply Fin.ext
  match a with
  | ⟨0, _⟩ => show win2_2.index t (0 : Fin 2) * 1 + 1 * (0 : Fin 1).val = (0 : Fin 1).val; rw [e0]; rfl
  | ⟨1, _⟩ => show win2_2.index t (1 : Fin 2) * 64 + 1 * q.val = q.val; rw [e1]; omega

/-- The scale row's block is the whole row at every point. -/
theorem scale_apply (c : Dev nD) (t : Fin cfg2.N) (q : Fin 64) :
    (iblk2 (F := Ideal) V c 3 t : Vec Ideal S1x64 .f32) (ix2 0 q) = (V c main_v58 : S1x64.Idx → EReal) (ix2 0 q) := by
  obtain ⟨-, -, -, -, -, -, e0, e1, -⟩ := block_indices t
  unfold iblk2
  rw [View.read_apply]
  show (V c main_v58 : S1x64.Idx → EReal) _ = _
  congr 1
  funext a
  apply Fin.ext
  match a with
  | ⟨0, _⟩ => show win2_3.index t (0 : Fin 2) * 1 + 1 * (0 : Fin 1).val = (0 : Fin 1).val; rw [e0]; rfl
  | ⟨1, _⟩ => show win2_3.index t (1 : Fin 2) * 64 + 1 * q.val = q.val; rw [e1]; omega

/-- The shift row's block is the whole row at every point. -/
theorem shift_apply (c : Dev nD) (t : Fin cfg2.N) (q : Fin 64) :
    (iblk2 (F := Ideal) V c 4 t : Vec Ideal S1x64 .f32) (ix2 0 q) = (V c main_v59 : S1x64.Idx → EReal) (ix2 0 q) := by
  obtain ⟨-, -, -, -, -, -, -, -, e0, e1, -⟩ := block_indices t
  unfold iblk2
  rw [View.read_apply]
  show (V c main_v59 : S1x64.Idx → EReal) _ = _
  congr 1
  funext a
  apply Fin.ext
  match a with
  | ⟨0, _⟩ => show win2_4.index t (0 : Fin 2) * 1 + 1 * (0 : Fin 1).val = (0 : Fin 1).val; rw [e0]; rfl
  | ⟨1, _⟩ => show win2_4.index t (1 : Fin 2) * 64 + 1 * q.val = q.val; rw [e1]; omega

/-- The weights' block is the whole matrix at every point. -/
theorem weights_apply (c : Dev nD) (t : Fin cfg2.N) (r : Fin 64) (q : Fin 128) :
    (iblk2 (F := Ideal) V c 5 t : Vec Ideal S64x128 .f32) (ix2 r q) = (V c main_v55 : S64x128.Idx → EReal) (ix2 r q) := by
  obtain ⟨-, -, -, -, -, -, -, -, -, -, e0, e1, -⟩ := block_indices t
  unfold iblk2
  rw [View.read_apply]
  show (V c main_v55 : S64x128.Idx → EReal) _ = _
  congr 1
  funext a
  apply Fin.ext
  match a with
  | ⟨0, _⟩ => show win2_5.index t (0 : Fin 2) * 64 + 1 * r.val = r.val; rw [e0]; omega
  | ⟨1, _⟩ => show win2_5.index t (1 : Fin 2) * 128 + 1 * q.val = q.val; rw [e1]; omega

/-- Entry (p, q) of the output block at point t sits at row 8192 t + p, column q of the output array. -/
theorem result_emb (t : Fin cfg2.N) (p : Fin 8192) (q : Fin 128) :
    (((cfg2.win 6).blk t).view.emb (ix2 p q) : S524288x128.Idx) = ix2 (row t p) q := by
  obtain ⟨-, -, -, -, -, -, -, -, -, -, -, -, e0, e1⟩ := block_indices t
  funext a
  apply Fin.ext
  match a with
  | ⟨0, _⟩ => show win2_6.index t (0 : Fin 2) * 8192 + 1 * p.val = t.val * 8192 + p.val; rw [e0]; omega
  | ⟨1, _⟩ => show win2_6.index t (1 : Fin 2) * 128 + 1 * q.val = q.val; rw [e1]; omega

/-- What point t writes back is block t of the whole-array function: at (p, q) both sides are the same sum over the
    64 channels of the rectified entries of row 8192 t + p times the weights' column q. -/
theorem flushed_eq (c : Dev nD) (t : Fin cfg2.N) :
    (dat2 (F := Ideal) V c).flushed 6 t
      = ((cfg2.win 6).blk t).view.read (Elt Ideal)
          (Cert.SA.bnmm (V c main_v50) (V c main_v56) (V c main_v57) (V c main_v58) (V c main_v59) (V c main_v55)) := by
  show (cfg2.win 6).cut (grid2.coords t) ((dat2 V c).after 6 t) = _
  rw [after2_6]
  unfold out2_6
  rw [View.canon_unit_zero zero_offsets]
  simp only [View.ld_unit_zero (S := S8192x64) zero_offsets, View.ld_unit_zero (S := S1x64) zero_offsets,
    View.ld_unit_zero (S := S64x128) zero_offsets]
  funext j
  obtain ⟨p, q, rfl⟩ : ∃ (p : Fin 8192) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t) (ix2 p q)
    = Cert.SA.bnmm (V c main_v50) (V c main_v56) (V c main_v57) (V c main_v58) (V c main_v59) (V c main_v55)
        (((cfg2.win 6).blk t).view.emb (ix2 p q))
  rw [result_emb]
  refine (payload_apply (iblk2 V c 0 t) (iblk2 V c 1 t) (iblk2 V c 2 t) (iblk2 V c 3 t) (iblk2 V c 4 t) (iblk2 V c 5 t) p q).trans ?_
  show _ = Cert.SA.bnmmAt (V c main_v50) (V c main_v56) (V c main_v57) (V c main_v58) (V c main_v59) (V c main_v55) (row t p) q
  unfold Cert.SA.bnmmAt Cert.SA.bnAt
  refine Finset.sum_congr rfl fun k _ => ?_
  rw [samples_apply, mean_apply, variance_apply, scale_apply, shift_apply, weights_apply]

/-- An index of the output array is in point t's block iff each coordinate is in the block's range on its axis. -/
theorem mem_block (t : Fin cfg2.N) (i : S524288x128.Idx) :
    i ∈ ((cfg2.win 6).blk t).view.set ↔ ∀ a : Fin 2, win2_6.index t a * S8192x128.size a ≤ (i a).val
      ∧ (i a).val < win2_6.index t a * S8192x128.size a + S8192x128.size a := by
  show i ∈ ((View.whole main_v60).slice (win2_6.rect t)).set ↔ _
  rw [View.set_slice_whole, Rect.mem_set_unit]
  exact Iff.rfl

/-- Every index of the output array is in the block of the point numbered by its row divided by 8192. -/
theorem covered (i : S524288x128.Idx) :
    ∃ t : Fin cfg2.N, (cfg2.win 6).flush t = true ∧ i ∈ ((cfg2.win 6).blk t).view.set := by
  have hN : cfg2.N = 64 := N_2
  have hi0 : (i 0).val < 524288 := idx2_lt0 i
  have hi1 : (i 1).val < 128 := idx2_lt1 i
  obtain ⟨t, ht⟩ : ∃ t : Fin cfg2.N, t.val = (i 0).val / 8192 := ⟨⟨(i 0).val / 8192, by rw [hN]; omega⟩, rfl⟩
  obtain ⟨-, -, -, -, -, -, -, -, -, -, -, -, e0, e1⟩ := block_indices t
  refine ⟨t, flush2_6 t, ?_⟩
  rw [mem_block]
  intro a
  match a with
  | ⟨0, _⟩ =>
    show win2_6.index t (0 : Fin 2) * 8192 ≤ (i 0).val ∧ (i 0).val < win2_6.index t (0 : Fin 2) * 8192 + 8192
    rw [e0, ht]; omega
  | ⟨1, _⟩ =>
    show win2_6.index t (1 : Fin 2) * 128 ≤ (i 1).val ∧ (i 1).val < win2_6.index t (1 : Fin 2) * 128 + 128
    rw [e1]; omega

/-- After region 2 the output array is the rectified-then-multiplied function of the six input arrays as the region found them. -/
theorem final (c : Dev nD) :
    (dat2 (F := Ideal) V c).arrAt 6 cfg2.N
      = Cert.SA.bnmm (V c main_v50) (V c main_v56) (V c main_v57) (V c main_v58) (V c main_v59) (V c main_v55) :=
  (dat2 (F := Ideal) V c).arrAt_eq_of_cover 6 _ (fun t _ => flushed_eq V c t) covered

end Cert.KernelIdeal.Reg2

end
-- ==== Proof.KReg3.lean ====
/- The pooled array after its region: each block of 8192 samples (256 queries of 32 samples) is normalised, scaled,
   shifted, rectified, and each query's 32 samples reduced by their maximum; the blocks of 256 queries tile the array. -/
import proofs.«128494_j5145370821372_1_alg».proof.Proof.Gen.KernelIdeal.Frame
import proofs.«128494_j5145370821372_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Idealize.ShloMosaic Idealize.ShloMosaic.TcCoe Idealize.SL.Sem Idealize.ShloMosaic.ValueIdx
open Cert.KernelIdeal Cert.KernelIdeal.Gen

/-- The rectified block: every entry normalised by its channel's mean and variance, scaled, shifted, and cut at zero. -/
def act (v0 : Vec Ideal S8192x128 .f32) (v2 v6 v13 v17 : Vec Ideal S1x128 .f32) : FVec Ideal S8192x128 .f32 :=
  maximumf
    (addf
      (mulf
        (mulf (subf (shapeCast S8192x128 v0 shapeCasts_S8192x128_S8192x128)
                (broadcastTo S8192x128 (shapeCast S1x128 v2 shapeCasts_S1x128_S1x128) broadcasts_S1x128_S8192x128))
          (broadcastTo S8192x128
            (rsqrt (addf (shapeCast S1x128 v6 shapeCasts_S1x128_S1x128) (broadcast S1x128 (Scalar.ofBits .f32 0x3727C5AC#32))))
            broadcasts_S1x128_S8192x128))
        (broadcastTo S8192x128 (shapeCast S1x128 v13 shapeCasts_S1x128_S1x128) broadcasts_S1x128_S8192x128))
      (broadcastTo S8192x128 (shapeCast S1x128 v17 shapeCasts_S1x128_S1x128) broadcasts_S1x128_S8192x128))
    (broadcast S8192x128 (Scalar.ofBits .f32 0x00000000#32))

/-- The stored block is the maximum, over the middle axis, of the rectified block regrouped as 256 queries of 32 samples. -/
theorem pay_eq (v0 : Vec Ideal S8192x128 .f32) (v2 v6 v13 v17 : Vec Ideal S1x128 .f32) :
    k3_pay1 v0 v2 v6 v13 v17
      = multiReduction .maximumf [1] S256x128 (shapeCast S256x32x128 (act v0 v2 v6 v13 v17) shapeCasts_S8192x128_S256x32x128)
          0xFF800000#32 reduces_S256x32x128_S256x128 (.inl rfl) rfl := rfl

/-- An entry of the rectified block is the rectified value of the sample's entry with its channel's four parameters. -/
theorem act_apply (v0 : Vec Ideal S8192x128 .f32) (v2 v6 v13 v17 : Vec Ideal S1x128 .f32) (p : Fin 8192) (c : Fin 128) :
    act v0 v2 v6 v13 v17 (ix2 p c)
      = Cert.SA.bnr (v0 (ix2 p c)) (v2 (ix2 0 c)) (v6 (ix2 0 c)) (v13 (ix2 0 c)) (v17 (ix2 0 c)) := by
  unfold act Cert.SA.bnr
  rw [maximumf_apply, addf_apply, mulf_apply, mulf_apply, subf_apply]
  rw [shapeCast_self, shapeCast_self, shapeCast_self, shapeCast_self, shapeCast_self]
  rw [broadcastTo_1b_ab_apply, broadcastTo_1b_ab_apply, broadcastTo_1b_ab_apply, broadcastTo_1b_ab_apply]
  rw [broadcast_apply]
  show max ((v0 (ix2 p c) - v2 (ix2 0 c)) * Ideal.rsqrt (v6 (ix2 0 c) + Ideal.ofBits .f32 0x3727C5AC#32) * v13 (ix2 0 c) + v17 (ix2 0 c)) (Ideal.ofBits .f32 0x00000000#32) = _
  rw [Ideal.ofBits_zero_f32]
  rfl

/-- Local sample row of neighbour `k` of local query `ρ`: ρ · 32 + k, below 8192. -/
def lsmp (ρ : Fin 256) (k : Fin 32) : Fin 8192 :=
  ⟨ρ.val * 32 + k.val, by have := ρ.isLt; have := k.isLt; omega⟩

/-- The maximum over the middle axis of a [256, 32, 128] array, at (ρ, c): the fold of max, from −∞, over the 32
    middle coordinates k of the entries (ρ, k, c). -/
theorem lane_max (src : FVec Ideal S256x32x128 .f32) (ρ : Fin 256) (c : Fin 128) :
    multiReduction .maximumf [1] S256x128 src 0xFF800000#32 reduces_S256x32x128_S256x128 (.inl rfl) rfl (ix2 ρ c)
      = (Finset.univ : Finset (Fin 32)).fold max (Ideal.ofBits .f32 0xFF800000#32) (fun k => src (ix3 ρ k c)) := by
  refine (Ideal.multiReduction_maximumf_single (φ := .f32) (s := S256x32x128) (t := S256x128) (a := 1) src 0xFF800000#32
    reduces_S256x32x128_S256x128 (.inl rfl) rfl (ix2 ρ c)).trans ?_
  refine congrArg (fun f => Finset.fold max (Ideal.ofBits .f32 0xFF800000#32) f (Finset.univ : Finset (Fin 32))) ?_
  funext k
  show src ((reduces_S256x32x128_S256x128).lift (ix2 ρ c) k) = src (ix3 ρ k c)
  refine congrArg src ?_
  funext a
  apply Fin.ext
  match a with
  | ⟨0, _⟩ => rfl
  | ⟨1, _⟩ => rfl
  | ⟨2, _⟩ => rfl

/-- The stored block at (ρ, c): the maximum, from −∞, over the 32 neighbours k of the rectified entries of local
    sample row ρ · 32 + k in channel c — the regrouping [8192, 128] → [256, 32, 128] keeps row-major positions, and
    (ρ, k, c) sits at position (ρ · 32 + k) · 128 + c in both. -/
theorem pay_apply (v0 : Vec Ideal S8192x128 .f32) (v2 v6 v13 v17 : Vec Ideal S1x128 .f32) (ρ : Fin 256) (c : Fin 128) :
    k3_pay1 v0 v2 v6 v13 v17 (ix2 ρ c)
      = (Finset.univ : Finset (Fin 32)).fold max (Ideal.ofBits .f32 0xFF800000#32)
          (fun k => Cert.SA.bnr (v0 (ix2 (lsmp ρ k) c)) (v2 (ix2 0 c)) (v6 (ix2 0 c)) (v13 (ix2 0 c)) (v17 (ix2 0 c))) := by
  rw [pay_eq]
  refine (lane_max _ ρ c).trans ?_
  refine congrArg (fun f => Finset.fold max (Ideal.ofBits .f32 0xFF800000#32) f (Finset.univ : Finset (Fin 32))) ?_
  funext k
  show shapeCast S256x32x128 (act v0 v2 v6 v13 v17) shapeCasts_S8192x128_S256x32x128 (ix3 ρ k c) = _
  rw [shapeCast_apply (act v0 v2 v6 v13 v17) shapeCasts_S8192x128_S256x32x128 (ix3 ρ k c) (ix2 (lsmp ρ k) c) (by
        rw [Shape.rowMajor_val_two, Shape.rowMajor_val_three]
        show (ρ.val * 32 + k.val) * 128 + c.val = (ρ.val * 32 + k.val) * 128 + c.val
        rfl)]
  exact act_apply v0 v2 v6 v13 v17 (lsmp ρ k) c

/-- ONE POINT: when a block holds rows t · 8192 … of the samples and the four rows hold the parameters, the stored
    block's entry (ρ, c) is the pooled value of query t · 256 + ρ: its k-th sample is global row
    (t · 256 + ρ) · 32 + k = t · 8192 + (ρ · 32 + k). -/
theorem point_apply (x0 : Vec Ideal S8192x128 .f32) (x1 x2 x3 x4 : Vec Ideal S1x128 .f32)
    (y : FVec Ideal ⟨2, ![524288, 128]⟩ .f32) (mean var g b : FVec Ideal ⟨2, ![1, 128]⟩ .f32)
    (t : Nat) (ht : t < 64)
    (h0 : ∀ (p : Fin 8192) (ch : Fin 128),
      x0 (ix2 p ch) = y (ix2 (⟨t * 8192 + p.val, by have := p.isLt; omega⟩ : Fin 524288) ch))
    (h1 : ∀ ch : Fin 128, x1 (ix2 0 ch) = mean (ix2 0 ch))
    (h2 : ∀ ch : Fin 128, x2 (ix2 0 ch) = var (ix2 0 ch))
    (h3 : ∀ ch : Fin 128, x3 (ix2 0 ch) = g (ix2 0 ch))
    (h4 : ∀ ch : Fin 128, x4 (ix2 0 ch) = b (ix2 0 ch))
    (ρ : Fin 256) (ch : Fin 128) :
    k3_pay1 x0 x1 x2 x3 x4 (ix2 ρ ch)
      = Cert.SA.bnpoolAt y mean var g b (⟨t * 256 + ρ.val, by have := ρ.isLt; omega⟩ : Fin 16384) ch := by
  rw [pay_apply]
  unfold Cert.SA.bnpoolAt Cert.SA.bnAt
  refine congrArg (fun f => Finset.fold max (Ideal.ofBits .f32 0xFF800000#32) f (Finset.univ : Finset (Fin 32))) ?_
  funext k
  rw [h0, h1, h2, h3, h4]
  have e : (⟨t * 8192 + (lsmp ρ k).val, by have := (lsmp ρ k).isLt; omega⟩ : Fin 524288)
      = Cert.SA.smp (⟨t * 256 + ρ.val, by have := ρ.isLt; omega⟩ : Fin 16384) k := by
    apply Fin.ext
    show t * 8192 + (ρ.val * 32 + k.val) = (t * 256 + ρ.val) * 32 + k.val
    omega
  rw [e]

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: at point t the sample window and the result window are at block (t, 0), the four
    parameter rows at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem point_lt (t : Fin cfg3.N) : t.val < 64 := by
  have h := t.isLt
  have hN : cfg3.N = 64 := N_3
  omega

/-- The sample block at point t holds rows t · 8192 … of the sample array. -/
theorem blk0_read (c : Dev nD) (t : Fin cfg3.N) (p : Fin 8192) (ch : Fin 128) :
    iblk3 V c 0 t (ix2 p ch)
      = V c main_v60 (ix2 (⟨t.val * 8192 + p.val, by have := point_lt t; have := p.isLt; omega⟩ : Fin 524288) ch) := by
  obtain ⟨e0, e1, -⟩ := idx_facts t
  show V c main_v60 (((cfg3.win 0).blk t).view.emb (ix2 p ch)) = _
  refine congrArg (V c main_v60) ?_
  funext a
  apply Fin.ext
  match a with
  | ⟨0, _⟩ => show win3_0.index t (0 : Fin 2) * 8192 + 1 * p.val = t.val * 8192 + p.val; rw [e0]; omega
  | ⟨1, _⟩ => show win3_0.index t (1 : Fin 2) * 128 + 1 * ch.val = ch.val; rw [e1]; omega

/-- Each parameter block at any point is the whole parameter row. -/
theorem blk1_read (c : Dev nD) (t : Fin cfg3.N) (ch : Fin 128) :
    iblk3 V c 1 t (ix2 0 ch) = V c main_v65 (ix2 0 ch) := by
  obtain ⟨-, -, e0, e1, -⟩ := idx_facts t
  show V c main_v65 (((cfg3.win 1).blk t).view.emb (ix2 0 ch)) = _
  refine congrArg (V c main_v65) ?_
  funext a
  apply Fin.ext
  match a with
  | ⟨0, _⟩ => show win3_1.index t (0 : Fin 2) * 1 + 1 * 0 = 0; rw [e0]
  | ⟨1, _⟩ => show win3_1.index t (1 : Fin 2) * 128 + 1 * ch.val = ch.val; rw [e1]; omega

theorem blk2_read (c : Dev nD) (t : Fin cfg3.N) (ch : Fin 128) :
    iblk3 V c 2 t (ix2 0 ch) = V c main_v66 (ix2 0 ch) := by
  obtain ⟨-, -, -, -, e0, e1, -⟩ := idx_facts t
  show V c main_v66 (((cfg3.win 2).blk t).view.emb (ix2 0 ch)) = _
  refine congrArg (V c main_v66) ?_
  funext a
  apply Fin.ext
  match a with
  | ⟨0, _⟩ => show win3_2.index t (0 : Fin 2) * 1 + 1 * 0 = 0; rw [e0]
  | ⟨1, _⟩ => show win3_2.index t (1 : Fin 2) * 128 + 1 * ch.val = ch.val; rw [e1]; omega

theorem blk3_read (c : Dev nD) (t : Fin cfg3.N) (ch : Fin 128) :
    iblk3 V c 3 t (ix2 0 ch) = V c main_v67 (ix2 0 ch) := by
  obtain ⟨-, -, -, -, -, -, e0, e1, -⟩ := idx_facts t
  show V c main_v67 (((cfg3.win 3).blk t).view.emb (ix2 0 ch)) = _
  refine congrArg (V c main_v67) ?_
  funext a
  apply Fin.ext
  match a with
  | ⟨0, _⟩ => show win3_3.index t (0 : Fin 2) * 1 + 1 * 0 = 0; rw [e0]
  | ⟨1, _⟩ => show win3_3.index t (1 : Fin 2) * 128 + 1 * ch.val = ch.val; rw [e1]; omega

theorem blk4_read (c : Dev nD) (t : Fin cfg3.N) (ch : Fin 128) :
    iblk3 V c 4 t (ix2 0 ch) = V c main_v68 (ix2 0 ch) := by
  obtain ⟨-, -, -, -, -, -, -, -, e0, e1, -⟩ := idx_facts t
  show V c main_v68 (((cfg3.win 4).blk t).view.emb (ix2 0 ch)) = _
  refine congrArg (V c main_v68) ?_
  funext a
  apply Fin.ext
  match a with
  | ⟨0, _⟩ => show win3_4.index t (0 : Fin 2) * 1 + 1 * 0 = 0; rw [e0]
  | ⟨1, _⟩ => show win3_4.index t (1 : Fin 2) * 128 + 1 * ch.val = ch.val; rw [e1]; omega

/-- WHAT POINT t WRITES BACK is block t of the pooled array of the five input arrays. -/
theorem flushed_eq (c : Dev nD) (t : Fin cfg3.N) :
    (dat3 (F := Ideal) V c).flushed 5 t
      = ((cfg3.win 5).blk t).view.read (Elt Ideal)
          (Cert.SA.bnpool (V c main_v60) (V c main_v65) (V c main_v66) (V c main_v67) (V c main_v68)) := by
  show (cfg3.win 5).cut (grid3.coords t) ((dat3 V c).after 5 t) = _
  rw [after3_5]
  unfold out3_5
  rw [View.canon_unit_zero hz]
  simp only [View.ld_unit_zero (S := S8192x128) hz, View.ld_unit_zero (S := S1x128) hz]
  obtain ⟨-, -, -, -, -, -, -, -, -, -, e0, e1⟩ := idx_facts t
  funext y
  obtain ⟨ρ, ch, rfl⟩ : ∃ (ρ : Fin 256) (ch : Fin 128), y = ix2 ρ ch := ⟨y 0, y 1, eq_ix2 y⟩
  show k3_pay1 (iblk3 V c 0 t) (iblk3 V c 1 t) (iblk3 V c 2 t) (iblk3 V c 3 t) (iblk3 V c 4 t) (ix2 ρ ch)
      = Cert.SA.bnpool (V c main_v60) (V c main_v65) (V c main_v66) (V c main_v67) (V c main_v68)
          (((cfg3.win 5).blk t).view.emb (ix2 ρ ch))
  refine (point_apply (iblk3 V c 0 t) (iblk3 V c 1 t) (iblk3 V c 2 t) (iblk3 V c 3 t) (iblk3 V c 4 t)
    (V c main_v60) (V c main_v65) (V c main_v66) (V c main_v67) (V c main_v68) t.val (point_lt t)
    (blk0_read V c t) (blk1_read V c t) (blk2_read V c t) (blk3_read V c t) (blk4_read V c t) ρ ch).trans ?_
  show _ = Cert.SA.bnpoolAt (V c main_v60) (V c main_v65) (V c main_v66) (V c main_v67) (V c main_v68)
      ⟨((((cfg3.win 5).blk t).view.emb (ix2 ρ ch)) 0).val, _⟩ ⟨((((cfg3.win 5).blk t).view.emb (ix2 ρ ch)) 1).val, _⟩
  have r0 : ((((cfg3.win 5).blk t).view.emb (ix2 ρ ch)) 0).val = t.val * 256 + ρ.val := by
    show win3_5.index t (0 : Fin 2) * 256 + 1 * ρ.val = _
    rw [e0]; omega
  have r1 : ((((cfg3.win 5).blk t).view.emb (ix2 ρ ch)) 1).val = ch.val := by
    show win3_5.index t (1 : Fin 2) * 128 + 1 * ch.val = _
    rw [e1]; omega
  exact congr (congrArg (Cert.SA.bnpoolAt (V c main_v60) (V c main_v65) (V c main_v66) (V c main_v67) (V c main_v68))
    (Fin.ext r0.symm)) (Fin.ext r1.symm)

/-- An index of the result array is in point t's block iff each coordinate is in the block's range on its axis. -/
theorem mem_blk (t : Fin cfg3.N) (i : S16384x128.Idx) :
    i ∈ ((cfg3.win 5).blk t).view.set
      ↔ ∀ a : Fin 2, win3_5.index t a * S256x128.size a ≤ (i a).val
          ∧ (i a).val < win3_5.index t a * S256x128.size a + S256x128.size a := by
  show i ∈ ((View.whole main_v69).slice (win3_5.rect t)).set ↔ _
  rw [View.set_slice_whole, Rect.mem_set_unit]
  exact Iff.rfl

/-- Every block row of the result is some point's. -/
theorem idx_onto : ∀ q : Fin 64, ∃ t : Fin cfg3.N, win3_5.index t (0 : Fin 2) = q.val ∧ win3_5.index t (1 : Fin 2) = 0 :=
  (by decide +kernel : ∀ q : Fin 64, ∃ t : Fin grid3.N, win3_5.index t (0 : Fin 2) = q.val ∧ win3_5.index t (1 : Fin 2) = 0)

/-- The 64 blocks of 256 rows tile the 16384 rows: row r is in the block of point r / 256. -/
theorem cover (i : S16384x128.Idx) :
    ∃ t : Fin cfg3.N, (cfg3.win 5).flush t = true ∧ i ∈ ((cfg3.win 5).blk t).view.set := by
  have hi0 : (i 0).val < 16384 := (i 0).isLt
  have hi1 : (i 1).val < 128 := (i 1).isLt
  obtain ⟨t, q0, q1⟩ := idx_onto ⟨(i 0).val / 256, by omega⟩
  refine ⟨t, flush3_5 t, ?_⟩
  rw [mem_blk]
  intro a
  match a with
  | ⟨0, _⟩ =>
    show win3_5.index t (0 : Fin 2) * 256 ≤ (i 0).val ∧ (i 0).val < win3_5.index t (0 : Fin 2) * 256 + 256
    rw [q0]
    show (i 0).val / 256 * 256 ≤ (i 0).val ∧ (i 0).val < (i 0).val / 256 * 256 + 256
    omega
  | ⟨1, _⟩ =>
    show win3_5.index t (1 : Fin 2) * 128 ≤ (i 1).val ∧ (i 1).val < win3_5.index t (1 : Fin 2) * 128 + 128
    rw [q1]
    omega

/-- After region 3 the output array is the pooled function of the five input arrays as the region found them. -/
theorem final (c : Dev nD) :
    (dat3 (F := Ideal) V c).arrAt 5 cfg3.N
      = Cert.SA.bnpool (V c main_v60) (V c main_v65) (V c main_v66) (V c main_v67) (V c main_v68) :=
  (dat3 (F := Ideal) V c).arrAt_eq_of_cover 5
    (Cert.SA.bnpool (V c main_v60) (V c main_v65) (V c main_v66) (V c main_v67) (V c main_v68))
    (fun t _ => flushed_eq V c t) cover

end Cert.KernelIdeal.Reg3

end
-- ==== Proof.ROps.lean ====
import proofs.«128494_j5145370821372_1_alg».proof.Proof.Gen.ReferenceIdeal
import Idealize.ShloMosaic.Lib.StableHlo.Run

set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The 72 operations that gather the feature array (the ball query, the two gathers, the concatenation): the opening of window 0 of @main. -/
abbrev ops_head : List (HloOp τ sig (Elt F)) :=
  [ StableHlo.unary main_arg1 main_v0 (broadcastInDim S16x1024x1x3 ![0, 1, 3] bcast_S16x1024x3_S16x1024x1x3_0_1_3 : (⟨S16x1024x3, .f32⟩ : BufTy).Contents (Elt F) → (⟨S16x1024x1x3, .f32⟩ : BufTy).Contents (Elt F)),
    StableHlo.unary main_arg0 main_v1 (broadcastInDim S16x1x4096x3 ![0, 2, 3] bcast_S16x4096x3_S16x1x4096x3_0_2_3 : (⟨S16x4096x3, .f32⟩ : BufTy).Contents (Elt F) → (⟨S16x1x4096x3, .f32⟩ : BufTy).Contents (Elt F)),
    StableHlo.unary main_v0 main_v2 (broadcastInDim S16x1024x4096x3 ![0, 1, 2, 3] bcast_S16x1024x1x3_S16x1024x4096x3_0_1_2_3 : (⟨S16x1024x1x3, .f32⟩ : BufTy).Contents (Elt F) → (⟨S16x1024x4096x3, .f32⟩ : BufTy).Contents (Elt F)),
    StableHlo.unary main_v1 main_v3 (broadcastInDim S16x1024x4096x3 ![0, 1, 2, 3] bcast_S16x1x4096x3_S16x1024x4096x3_0_1_2_3 : (⟨S16x1x4096x3, .f32⟩ : BufTy).Contents (Elt F) → (⟨S16x1024x4096x3, .f32⟩ : BufTy).Contents (Elt F)),
    StableHlo.binary main_v2 main_v3 main_v4 (subf : (⟨S16x1024x4096x3, .f32⟩ : BufTy).Contents (Elt F) → (⟨S16x1024x4096x3, .f32⟩ : BufTy).Contents (Elt F) → (⟨S16x1024x4096x3, .f32⟩ : BufTy).Contents (Elt F)),
    StableHlo.binary main_v4 main_v4 main_v5 (mulf : (⟨S16x1024x4096x3, .f32⟩ : BufTy).Contents (Elt F) → (⟨S16x1024x4096x3, .f32⟩ : BufTy).Contents (Elt F) → (⟨S16x1024x4096x3, .f32⟩ : BufTy).Contents (Elt F)),
    StableHlo.nullary main_cst (constant S_ .f32 0x00000000#32),
    StableHlo.binary main_v5 main_cst main_v6 ((fun x v => Host.reduceAdd x v reducesTo_S16x1024x4096x3_S16x1024x4096_d3 h_S_) : (⟨S16x1024x4096x3, .f32⟩ : BufTy).Contents (Elt F) → (⟨S_, .f32⟩ : BufTy).Contents (Elt F) → (⟨S16x1024x4096, .f32⟩ : BufTy).Contents (Elt F)),
    StableHlo.nullary main_cst_0 (constant S_ .f32 0x3CB851EC#32),
    StableHlo.unary main_cst_0 main_v7 (broadcastInDim S16x1024x4096 ![] bcast_S_S16x1024x4096 : (⟨S_, .f32⟩ : BufTy).Contents (Elt F) → (⟨S16x1024x4096, .f32⟩ : BufTy).Contents (Elt F)),
    StableHlo.binary main_v6 main_v7 main_v8 (cmpf .olt : (⟨S16x1024x4096, .f32⟩ : BufTy).Contents (Elt F) → (⟨S16x1024x4096, .f32⟩ : BufTy).Contents (Elt F) → (⟨S16x1024x4096, .i1⟩ : BufTy).Contents (Elt F)),
    StableHlo.nullary main_v9 (iotaInDim S4096 32 0),
    StableHlo.unary main_v9 main_v10 (broadcastInDim S1x1x4096 ![2] bcast_S4096_S1x1x4096_2 : (⟨S4096, .i32⟩ : BufTy).Contents (Elt F) → (⟨S1x1x4096, .i32⟩ : BufTy).Contents (Elt F)),
    StableHlo.nullary main_c (constantI S_ 32 4096#32),
    StableHlo.TRef.unary ((.of main_v10) : StableHlo.TRef sig ⟨S1x1x4096, .i32⟩) main_call0.v0 (broadcastInDim S16x1024x4096 ![0, 1, 2] bcast_S1x1x4096_S16x1024x4096_0_1_2),
    StableHlo.TRef.unary ((.of main_c) : StableHlo.TRef sig ⟨S_, .i32⟩) main_call0.v1 (broadcastInDim S16x1024x4096 ![] bcast_S_S16x1024x4096),
    StableHlo.TRef.ternary ((.of main_v8) : StableHlo.TRef sig ⟨S16x1024x4096, .i1⟩) main_call0.v0 main_call0.v1 main_call0.v2 select,
    StableHlo.TRef.nullary main_call1.v0 (iotaInDim S16x1024x4096 32 2),
    StableHlo.TRef.binary ((.of main_v11) : StableHlo.TRef sig ⟨S16x1024x4096, .i32⟩) main_call1.v0 main_call1.v1_0 (fun x y => (Host.sort2 S16x1024x4096 2 comparator_i32_i32_d2 x y).1),
    StableHlo.TRef.binary ((.of main_v11) : StableHlo.TRef sig ⟨S16x1024x4096, .i32⟩) main_call1.v0 main_call1.v1_1 (fun x y => (Host.sort2 S16x1024x4096 2 comparator_i32_i32_d2 x y).2),
    StableHlo.unary main_v12 main_v13 ((extractStridedSlice S16x1024x32 ![0, 0, 0] · slices_S16x1024x4096_S16x1024x32_0_0_0) : (⟨S16x1024x4096, .i32⟩ : BufTy).Contents (Elt F) → (⟨S16x1024x32, .i32⟩ : BufTy).Contents (Elt F)),
    StableHlo.TRef.nullary main_call2.c (constantI S_ 32 0#32),
    StableHlo.TRef.unary main_call2.c main_call2.v0 (broadcastInDim S16x1024x32 ![] bcast_S_S16x1024x32),
    StableHlo.TRef.binary ((.of main_v13) : StableHlo.TRef sig ⟨S16x1024x32, .i32⟩) main_call2.v0 main_call2.v1 (cmpi .slt),
    StableHlo.TRef.nullary main_call2.c_0 (constantI S_ 32 4096#32),
    StableHlo.TRef.unary main_call2.c_0 main_call2.v2 (broadcastInDim S16x1024x32 ![] bcast_S_S16x1024x32),
    StableHlo.TRef.binary ((.of main_v13) : StableHlo.TRef sig ⟨S16x1024x32, .i32⟩) main_call2.v2 main_call2.v3 addi,
    StableHlo.TRef.ternary main_call2.v1 main_call2.v3 ((.of main_v13) : StableHlo.TRef sig ⟨S16x1024x32, .i32⟩) main_call2.v4 select,
    StableHlo.TRef.reshape main_call2.v4 main_call2.v5 rfl shapeCasts_S16x1024x32_S16x1024x32x1,
    StableHlo.TRef.nullary main_call2.c_1 (constantI S1 32 4095#32),
    StableHlo.TRef.nullary main_call2.c_2 (constantI S_ 32 0#32),
    StableHlo.TRef.unary main_call2.c_2 main_call2.v6 (broadcastInDim S16x1024x32x1 ![] bcast_S_S16x1024x32x1),
    StableHlo.TRef.binary main_call2.v5 main_call2.v6 main_call2.v7 (cmpi .sge),
    StableHlo.TRef.unary main_call2.c_1 main_call2.v8 (broadcastInDim S1x1x1x1 ![3] bcast_S1_S1x1x1x1_3),
    StableHlo.TRef.unary main_call2.v8 main_call2.v9 (broadcastInDim S16x1024x32x1 ![0, 1, 2, 3] bcast_S1x1x1x1_S16x1024x32x1_0_1_2_3),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S16x1024x32x1_S16x1024x32_d3 h_S_),
    StableHlo.TRef.binary ((.of main_v11) : StableHlo.TRef sig ⟨S16x1024x4096, .i32⟩) main_call2.v5 main_call2.v13 (fun x i => Host.gather gather_S16x1024x4096_S16x1024x32x1_S16x1024x32_n_2_01_01_2_3_111 x i),
    StableHlo.TRef.nullary main_call2.c_4 (constantI S_ 32 2147483648#32),
    StableHlo.TRef.unary main_call2.c_4 main_call2.v14 (broadcastInDim S16x1024x32 ![] bcast_S_S16x1024x32),
    StableHlo.TRef.ternary main_call2.v12 main_call2.v13 main_call2.v14 main_call2.v15 select,
    StableHlo.nullary main_c_1 (constantI S_ 32 4096#32),
    StableHlo.unary main_c_1 main_v15 (broadcastInDim S16x1024x32 ![] bcast_S_S16x1024x32 : (⟨S_, .i32⟩ : BufTy).Contents (Elt F) → (⟨S16x1024x32, .i32⟩ : BufTy).Contents (Elt F)),
    StableHlo.binary main_v14 main_v15 main_v16 (cmpi .slt : (⟨S16x1024x32, .i32⟩ : BufTy).Contents (Elt F) → (⟨S16x1024x32, .i32⟩ : BufTy).Contents (Elt F) → (⟨S16x1024x32, .i1⟩ : BufTy).Contents (Elt F)),
    StableHlo.unary main_v13 main_v17 ((extractStridedSlice S16x1024x1 ![0, 0, 0] · slices_S16x1024x32_S16x1024x1_0_0_0) : (⟨S16x1024x32, .i32⟩ : BufTy).Contents (Elt F) → (⟨S16x1024x1, .i32⟩ : BufTy).Contents (Elt F)),
    StableHlo.TRef.unary ((.of main_v17) : StableHlo.TRef sig ⟨S16x1024x1, .i32⟩) main_call3.v0 (broadcastInDim S16x1024x32 ![0, 1, 2] bcast_S16x1024x1_S16x1024x32_0_1_2),
    StableHlo.TRef.ternary ((.of main_v16) : StableHlo.TRef sig ⟨S16x1024x32, .i1⟩) ((.of main_v13) : StableHlo.TRef sig ⟨S16x1024x32, .i32⟩) main_call3.v0 main_call3.v1 select,
    StableHlo.nullary main_c_2 (constantI S_ 32 0#32),
    StableHlo.unary main_c_2 main_v19 (broadcastInDim S16x1024x32 ![] bcast_S_S16x1024x32 : (⟨S_, .i32⟩ : BufTy).Contents (Elt F) → (⟨S16x1024x32, .i32⟩ : BufTy).Contents (Elt F)),
    StableHlo.binary main_v18 main_v19 main_v20 (cmpi .slt : (⟨S16x1024x32, .i32⟩ : BufTy).Contents (Elt F) → (⟨S16x1024x32, .i32⟩ : BufTy).Contents (Elt F) → (⟨S16x1024x32, .i1⟩ : BufTy).Contents (Elt F)),
    StableHlo.nullary main_c_3 (constantI S_ 32 4096#32),
    StableHlo.unary main_c_3 main_v21 (broadcastInDim S16x1024x32 ![] bcast_S_S16x1024x32 : (⟨S_, .i32⟩ : BufTy).Contents (Elt F) → (⟨S16x1024x32, .i32⟩ : BufTy).Contents (Elt F)),
    StableHlo.binary main_v18 main_v21 main_v22 (addi : (⟨S16x1024x32, .i32⟩ : BufTy).Contents (Elt F) → (⟨S16x1024x32, .i32⟩ : BufTy).Contents (Elt F) → (⟨S16x1024x32, .i32⟩ : BufTy).Contents (Elt F)),
    StableHlo.ternary main_v20 main_v22 main_v18 main_v23 (select : (⟨S16x1024x32, .i1⟩ : BufTy).Contents (Elt F) → (⟨S16x1024x32, .i32⟩ : BufTy).Contents (Elt F) → (⟨S16x1024x32, .i32⟩ : BufTy).Contents (Elt F) → (⟨S16x1024x32, .i32⟩ : BufTy).Contents (Elt F)),
    StableHlo.unary main_v23 main_v24 (broadcastInDim S16x1024x32x1 ![0, 1, 2] bcast_S16x1024x32_S16x1024x32x1_0_1_2 : (⟨S16x1024x32, .i32⟩ : BufTy).Contents (Elt F) → (⟨S16x1024x32x1, .i32⟩ : BufTy).Contents (Elt F)),
    StableHlo.binary main_arg0 main_v24 main_v25 ((fun x i => Host.gather gather_S16x4096x3_S16x1024x32x1_S16x1024x32x3_3_1_0_0_1_3_113 x i) : (⟨S16x4096x3, .f32⟩ : BufTy).Contents (Elt F) → (⟨S16x1024x32x1, .i32⟩ : BufTy).Contents (Elt F) → (⟨S16x1024x32x3, .f32⟩ : BufTy).Contents (Elt F)),
    StableHlo.unary main_arg1 main_v26 (broadcastInDim S16x1024x1x3 ![0, 1, 3] bcast_S16x1024x3_S16x1024x1x3_0_1_3 : (⟨S16x1024x3, .f32⟩ : BufTy).Contents (Elt F) → (⟨S16x1024x1x3, .f32⟩ : BufTy).Contents (Elt F)),
    StableHlo.unary main_v26 main_v27 (broadcastInDim S16x1024x32x3 ![0, 1, 2, 3] bcast_S16x1024x1x3_S16x1024x32x3_0_1_2_3 : (⟨S16x1024x1x3, .f32⟩ : BufTy).Contents (Elt F) → (⟨S16x1024x32x3, .f32⟩ : BufTy).Contents (Elt F)),
    StableHlo.binary main_v25 main_v27 main_v28 (subf : (⟨S16x1024x32x3, .f32⟩ : BufTy).Contents (Elt F) → (⟨S16x1024x32x3, .f32⟩ : BufTy).Contents (Elt F) → (⟨S16x1024x32x3, .f32⟩ : BufTy).Contents (Elt F)),
    StableHlo.unary main_arg2 main_v29 ((transpose S16x4096x64 [0, 2, 1] · transposes_S16x64x4096_S16x4096x64_0_2_1) : (⟨S16x64x4096, .f32⟩ : BufTy).Contents (Elt F) → (⟨S16x4096x64, .f32⟩ : BufTy).Contents (Elt F)),
    StableHlo.nullary main_c_4 (constantI S_ 32 0#32),
    StableHlo.unary main_c_4 main_v30 (broadcastInDim S16x1024x32 ![] bcast_S_S16x1024x32 : (⟨S_, .i32⟩ : BufTy).Contents (Elt F) → (⟨S16x1024x32, .i32⟩ : BufTy).Contents (Elt F)),
    StableHlo.binary main_v18 main_v30 main_v31 (cmpi .slt : (⟨S16x1024x32, .i32⟩ : BufTy).Contents (Elt F) → (⟨S16x1024x32, .i32⟩ : BufTy).Contents (Elt F) → (⟨S16x1024x32, .i1⟩ : BufTy).Contents (Elt F)),
    StableHlo.nullary main_c_5 (constantI S_ 32 4096#32),
    StableHlo.unary main_c_5 main_v32 (broadcastInDim S16x1024x32 ![] bcast_S_S16x1024x32 : (⟨S_, .i32⟩ : BufTy).Contents (Elt F) → (⟨S16x1024x32, .i32⟩ : BufTy).Contents (Elt F)),
    StableHlo.binary main_v18 main_v32 main_v33 (addi : (⟨S16x1024x32, .i32⟩ : BufTy).Contents (Elt F) → (⟨S16x1024x32, .i32⟩ : BufTy).Contents (Elt F) → (⟨S16x1024x32, .i32⟩ : BufTy).Contents (Elt F)),
    StableHlo.ternary main_v31 main_v33 main_v18 main_v34 (select : (⟨S16x1024x32, .i1⟩ : BufTy).Contents (Elt F) → (⟨S16x1024x32, .i32⟩ : BufTy).Contents (Elt F) → (⟨S16x1024x32, .i32⟩ : BufTy).Contents (Elt F) → (⟨S16x1024x32, .i32⟩ : BufTy).Contents (Elt F)),
    StableHlo.unary main_v34 main_v35 (broadcastInDim S16x1024x32x1 ![0, 1, 2] bcast_S16x1024x32_S16x1024x32x1_0_1_2 : (⟨S16x1024x32, .i32⟩ : BufTy).Contents (Elt F) → (⟨S16x1024x32x1, .i32⟩ : BufTy).Contents (Elt F)),
    StableHlo.binary main_v29 main_v35 main_v36 ((fun x i => Host.gather gather_S16x4096x64_S16x1024x32x1_S16x1024x32x64_3_1_0_0_1_3_1164 x i) : (⟨S16x4096x64, .f32⟩ : BufTy).Contents (Elt F) → (⟨S16x1024x32x1, .i32⟩ : BufTy).Contents (Elt F) → (⟨S16x1024x32x64, .f32⟩ : BufTy).Contents (Elt F)),
    StableHlo.binary main_v28 main_v36 main_v37 ((fun a b => concatenate S16x1024x32x67 3 [⟨S16x1024x32x3, a⟩, ⟨S16x1024x32x64, b⟩] concatenates_S16x1024x32x3_S16x1024x32x64_S16x1024x32x67_d3) : (⟨S16x1024x32x3, .f32⟩ : BufTy).Contents (Elt F) → (⟨S16x1024x32x64, .f32⟩ : BufTy).Contents (Elt F) → (⟨S16x1024x32x67, .f32⟩ : BufTy).Contents (Elt F)) ]
theorem ops_head_sub : (ops_head : List (HloOp τ sig (Elt F))).Forall fun op => op.bufs ⊆ tcRefs τ sig :=
  ⟨StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

/-- The remaining 36 operations of window 0 of @main. -/
abbrev ops_p0b : List (HloOp τ sig (Elt F)) :=
  [ StableHlo.binary main_v37 main_arg3 main_v38 ((fun l r => Host.dotGeneral dot_S16x1024x32x67_S64x67_S16x1024x32x64_3_1_012_0_n_n none l r) : (⟨S16x1024x32x67, .f32⟩ : BufTy).Contents (Elt F) → (⟨S64x67, .f32⟩ : BufTy).Contents (Elt F) → (⟨S16x1024x32x64, .f32⟩ : BufTy).Contents (Elt F)),
    StableHlo.nullary main_cst_6 (constant S_ .f32 0x00000000#32),
    StableHlo.binary main_v38 main_cst_6 main_v39 ((fun x v => Host.reduceAdd x v reducesTo_S16x1024x32x64_S64_d0_1_2 h_S_) : (⟨S16x1024x32x64, .f32⟩ : BufTy).Contents (Elt F) → (⟨S_, .f32⟩ : BufTy).Contents (Elt F) → (⟨S64, .f32⟩ : BufTy).Contents (Elt F)),
    StableHlo.unary main_v39 main_v40 (broadcastInDim S1x1x1x64 ![3] bcast_S64_S1x1x1x64_3 : (⟨S64, .f32⟩ : BufTy).Contents (Elt F) → (⟨S1x1x1x64, .f32⟩ : BufTy).Contents (Elt F)),
    StableHlo.nullary main_cst_7 (constant S_ .f32 0x49000000#32),
    StableHlo.unary main_cst_7 main_v41 (broadcastInDim S1x1x1x64 ![] bcast_S_S1x1x1x64 : (⟨S_, .f32⟩ : BufTy).Contents (Elt F) → (⟨S1x1x1x64, .f32⟩ : BufTy).Contents (Elt F)),
    StableHlo.binary main_v40 main_v41 main_v42 (Host.divf : (⟨S1x1x1x64, .f32⟩ : BufTy).Contents (Elt F) → (⟨S1x1x1x64, .f32⟩ : BufTy).Contents (Elt F) → (⟨S1x1x1x64, .f32⟩ : BufTy).Contents (Elt F)),
    StableHlo.nullary main_c_8 (constantI S_ 32 0#32),
    StableHlo.TRef.nullary main_call4.cst (constant S_ .f32 0x00000000#32),
    StableHlo.TRef.binary ((.of main_v38) : StableHlo.TRef sig ⟨S16x1024x32x64, .f32⟩) main_call4.cst main_call4.v0 (fun x v => Host.reduceAdd x v reducesTo_S16x1024x32x64_S64_d0_1_2 h_S_),
    StableHlo.TRef.unary main_call4.v0 main_call4.v1 (broadcastInDim S1x1x1x64 ![3] bcast_S64_S1x1x1x64_3),
    StableHlo.TRef.nullary main_call4.cst_0 (constant S_ .f32 0x49000000#32),
    StableHlo.TRef.unary main_call4.cst_0 main_call4.v2 (broadcastInDim S1x1x1x64 ![] bcast_S_S1x1x1x64),
    StableHlo.TRef.binary main_call4.v1 main_call4.v2 main_call4.v3 Host.divf,
    StableHlo.TRef.unary main_call4.v3 main_call4.v4 (broadcastInDim S16x1024x32x64 ![0, 1, 2, 3] bcast_S1x1x1x64_S16x1024x32x64_0_1_2_3),
    StableHlo.TRef.binary ((.of main_v38) : StableHlo.TRef sig ⟨S16x1024x32x64, .f32⟩) main_call4.v4 main_call4.v5 subf,
    StableHlo.TRef.binary main_call4.v5 main_call4.v5 main_call4.v6 mulf,
    StableHlo.TRef.unary ((.of main_c_8) : StableHlo.TRef sig ⟨S_, .i32⟩) main_call4.v7 (sitofp .f32),
    StableHlo.TRef.nullary main_call4.cst_1 (constant S_ .f32 0x49000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S16x1024x32x64_S64_d0_1_2 h_S_),
    StableHlo.TRef.unary main_call4.v9 main_call4.v10 (broadcastInDim S1x1x1x64 ![3] bcast_S64_S1x1x1x64_3),
    StableHlo.TRef.unary main_call4.v8 main_call4.v11 (broadcastInDim S1x1x1x64 ![] bcast_S_S1x1x1x64),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary (main_call4.cst_4 : StableHlo.TRef sig ⟨S_, .f32⟩) main_call4.call0.v0 id,
    StableHlo.TRef.unary main_call4.call0.v0 main_call4.call0.v1 (broadcastInDim S1x1x1x64 ![] bcast_S_S1x1x1x64),
    StableHlo.TRef.ternary (main_call4.v13 : StableHlo.TRef sig ⟨S_, .i1⟩) (main_call4.v12 : StableHlo.TRef sig ⟨S1x1x1x64, .f32⟩) main_call4.call0.v1 main_call4.call0.v2 (fun p a b => select (broadcastInDim S1x1x1x64 ![] bcast_S_S1x1x1x64 p) a b),
    StableHlo.unary main_v42 main_v44 (broadcastInDim S16x1024x32x64 ![0, 1, 2, 3] bcast_S1x1x1x64_S16x1024x32x64_0_1_2_3 : (⟨S1x1x1x64, .f32⟩ : BufTy).Contents (Elt F) → (⟨S16x1024x32x64, .f32⟩ : BufTy).Contents (Elt F)),
    StableHlo.binary main_v38 main_v44 main_v45 (subf : (⟨S16x1024x32x64, .f32⟩ : BufTy).Contents (Elt F) → (⟨S16x1024x32x64, .f32⟩ : BufTy).Contents (Elt F) → (⟨S16x1024x32x64, .f32⟩ : BufTy).Contents (Elt F)),
    StableHlo.nullary main_cst_9 (constant S_ .f32 0x3727C5AC#32),
    StableHlo.unary main_cst_9 main_v46 (broadcastInDim S1x1x1x64 ![] bcast_S_S1x1x1x64 : (⟨S_, .f32⟩ : BufTy).Contents (Elt F) → (⟨S1x1x1x64, .f32⟩ : BufTy).Contents (Elt F)),
    StableHlo.binary main_v43 main_v46 main_v47 (addf : (⟨S1x1x1x64, .f32⟩ : BufTy).Contents (Elt F) → (⟨S1x1x1x64, .f32⟩ : BufTy).Contents (Elt F) → (⟨S1x1x1x64, .f32⟩ : BufTy).Contents (Elt F)) ]
theorem ops_p0b_sub : (ops_p0b : List (HloOp τ sig (Elt F))).Forall fun op => op.bufs ⊆ tcRefs τ sig :=
  ⟨StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub ..⟩

/-- The 110 operations of window 1 of @main. -/
abbrev ops_part1 : List (HloOp τ sig (Elt F)) :=
  [ StableHlo.unary main_v47 main_v48 (Host.rsqrt : (⟨S1x1x1x64, .f32⟩ : BufTy).Contents (Elt F) → (⟨S1x1x1x64, .f32⟩ : BufTy).Contents (Elt F)),
    StableHlo.unary main_v48 main_v49 (broadcastInDim S16x1024x32x64 ![0, 1, 2, 3] bcast_S1x1x1x64_S16x1024x32x64_0_1_2_3 : (⟨S1x1x1x64, .f32⟩ : BufTy).Contents (Elt F) → (⟨S16x1024x32x64, .f32⟩ : BufTy).Contents (Elt F)),
    StableHlo.binary main_v45 main_v49 main_v50 (mulf : (⟨S16x1024x32x64, .f32⟩ : BufTy).Contents (Elt F) → (⟨S16x1024x32x64, .f32⟩ : BufTy).Contents (Elt F) → (⟨S16x1024x32x64, .f32⟩ : BufTy).Contents (Elt F)),
    StableHlo.unary main_arg4 main_v51 (broadcastInDim S1x1x1x64 ![3] bcast_S64_S1x1x1x64_3 : (⟨S64, .f32⟩ : BufTy).Contents (Elt F) → (⟨S1x1x1x64, .f32⟩ : BufTy).Contents (Elt F)),
    StableHlo.unary main_v51 main_v52 (broadcastInDim S16x1024x32x64 ![0, 1, 2, 3] bcast_S1x1x1x64_S16x1024x32x64_0_1_2_3 : (⟨S1x1x1x64, .f32⟩ : BufTy).Contents (Elt F) → (⟨S16x1024x32x64, .f32⟩ : BufTy).Contents (Elt F)),
    StableHlo.binary main_v50 main_v52 main_v53 (mulf : (⟨S16x1024x32x64, .f32⟩ : BufTy).Contents (Elt F) → (⟨S16x1024x32x64, .f32⟩ : BufTy).Contents (Elt F) → (⟨S16x1024x32x64, .f32⟩ : BufTy).Contents (Elt F)),
    StableHlo.unary main_arg5 main_v54 (broadcastInDim S1x1x1x64 ![3] bcast_S64_S1x1x1x64_3 : (⟨S64, .f32⟩ : BufTy).Contents (Elt F) → (⟨S1x1x1x64, .f32⟩ : BufTy).Contents (Elt F)),
    StableHlo.unary main_v54 main_v55 (broadcastInDim S16x1024x32x64 ![0, 1, 2, 3] bcast_S1x1x1x64_S16x1024x32x64_0_1_2_3 : (⟨S1x1x1x64, .f32⟩ : BufTy).Contents (Elt F) → (⟨S16x1024x32x64, .f32⟩ : BufTy).Contents (Elt F)),
    StableHlo.binary main_v53 main_v55 main_v56 (addf : (⟨S16x1024x32x64, .f32⟩ : BufTy).Contents (Elt F) → (⟨S16x1024x32x64, .f32⟩ : BufTy).Contents (Elt F) → (⟨S16x1024x32x64, .f32⟩ : BufTy).Contents (Elt F)),
    StableHlo.TRef.nullary main_call5.cst (constant S_ .f32 0x00000000#32),
    StableHlo.TRef.unary main_call5.cst main_call5.v0 (broadcastInDim S16x1024x32x64 ![] bcast_S_S16x1024x32x64),
    StableHlo.TRef.binary ((.of main_v56) : StableHlo.TRef sig ⟨S16x1024x32x64, .f32⟩) main_call5.v0 main_call5.v1 maximumf,
    StableHlo.binary main_v57 main_arg6 main_v58 ((fun l r => Host.dotGeneral dot_S16x1024x32x64_S64x64_S16x1024x32x64_3_1_012_0_n_n none l r) : (⟨S16x1024x32x64, .f32⟩ : BufTy).Contents (Elt F) → (⟨S64x64, .f32⟩ : BufTy).Contents (Elt F) → (⟨S16x1024x32x64, .f32⟩ : BufTy).Contents (Elt F)),
    StableHlo.nullary main_cst_10 (constant S_ .f32 0x00000000#32),
    StableHlo.binary main_v58 main_cst_10 main_v59 ((fun x v => Host.reduceAdd x v reducesTo_S16x1024x32x64_S64_d0_1_2 h_S_) : (⟨S16x1024x32x64, .f32⟩ : BufTy).Contents (Elt F) → (⟨S_, .f32⟩ : BufTy).Contents (Elt F) → (⟨S64, .f32⟩ : BufTy).Contents (Elt F)),
    StableHlo.unary main_v59 main_v60 (broadcastInDim S1x1x1x64 ![3] bcast_S64_S1x1x1x64_3 : (⟨S64, .f32⟩ : BufTy).Contents (Elt F) → (⟨S1x1x1x64, .f32⟩ : BufTy).Contents (Elt F)),
    StableHlo.nullary main_cst_11 (constant S_ .f32 0x49000000#32),
    StableHlo.unary main_cst_11 main_v61 (broadcastInDim S1x1x1x64 ![] bcast_S_S1x1x1x64 : (⟨S_, .f32⟩ : BufTy).Contents (Elt F) → (⟨S1x1x1x64, .f32⟩ : BufTy).Contents (Elt F)),
    StableHlo.binary main_v60 main_v61 main_v62 (Host.divf : (⟨S1x1x1x64, .f32⟩ : BufTy).Contents (Elt F) → (⟨S1x1x1x64, .f32⟩ : BufTy).Contents (Elt F) → (⟨S1x1x1x64, .f32⟩ : BufTy).Contents (Elt F)),
    StableHlo.nullary main_c_12 (constantI S_ 32 0#32),
    StableHlo.TRef.nullary main_call6.cst (constant S_ .f32 0x00000000#32),
    StableHlo.TRef.binary ((.of main_v58) : StableHlo.TRef sig ⟨S16x1024x32x64, .f32⟩) main_call6.cst main_call6.v0 (fun x v => Host.reduceAdd x v reducesTo_S16x1024x32x64_S64_d0_1_2 h_S_),
    StableHlo.TRef.unary main_call6.v0 main_call6.v1 (broadcastInDim S1x1x1x64 ![3] bcast_S64_S1x1x1x64_3),
    StableHlo.TRef.nullary main_call6.cst_0 (constant S_ .f32 0x49000000#32),
    StableHlo.TRef.unary main_call6.cst_0 main_call6.v2 (broadcastInDim S1x1x1x64 ![] bcast_S_S1x1x1x64),
    StableHlo.TRef.binary main_call6.v1 main_call6.v2 main_call6.v3 Host.divf,
    StableHlo.TRef.unary main_call6.v3 main_call6.v4 (broadcastInDim S16x1024x32x64 ![0, 1, 2, 3] bcast_S1x1x1x64_S16x1024x32x64_0_1_2_3),
    StableHlo.TRef.binary ((.of main_v58) : StableHlo.TRef sig ⟨S16x1024x32x64, .f32⟩) main_call6.v4 main_call6.v5 subf,
    StableHlo.TRef.binary main_call6.v5 main_call6.v5 main_call6.v6 mulf,
    StableHlo.TRef.unary ((.of main_c_12) : StableHlo.TRef sig ⟨S_, .i32⟩) main_call6.v7 (sitofp .f32),
    StableHlo.TRef.nullary main_call6.cst_1 (constant S_ .f32 0x49000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S16x1024x32x64_S64_d0_1_2 h_S_),
    StableHlo.TRef.unary main_call6.v9 main_call6.v10 (broadcastInDim S1x1x1x64 ![3] bcast_S64_S1x1x1x64_3),
    StableHlo.TRef.unary main_call6.v8 main_call6.v11 (broadcastInDim S1x1x1x64 ![] bcast_S_S1x1x1x64),
    StableHlo.TRef.binary main_call6.v10 main_call6.v11 main_call6.v12 Host.divf,
    StableHlo.TRef.nullary main_call6.cst_3 (constant S_ .f32 0x00000000#32),
    StableHlo.TRef.binary main_call6.v8 main_call6.cst_3 main_call6.v13 (cmpf .ogt),
    StableHlo.TRef.nullary main_call6.cst_4 (constant S_ .f32 0x7FC00000#32),
    StableHlo.TRef.unary (main_call6.cst_4 : StableHlo.TRef sig ⟨S_, .f32⟩) main_call6.call0.v0 id,
    StableHlo.TRef.unary main_call6.call0.v0 main_call6.call0.v1 (broadcastInDim S1x1x1x64 ![] bcast_S_S1x1x1x64),
    StableHlo.TRef.ternary (main_call6.v13 : StableHlo.TRef sig ⟨S_, .i1⟩) (main_call6.v12 : StableHlo.TRef sig ⟨S1x1x1x64, .f32⟩) main_call6.call0.v1 main_call6.call0.v2 (fun p a b => select (broadcastInDim S1x1x1x64 ![] bcast_S_S1x1x1x64 p) a b),
    StableHlo.unary main_v62 main_v64 (broadcastInDim S16x1024x32x64 ![0, 1, 2, 3] bcast_S1x1x1x64_S16x1024x32x64_0_1_2_3 : (⟨S1x1x1x64, .f32⟩ : BufTy).Contents (Elt F) → (⟨S16x1024x32x64, .f32⟩ : BufTy).Contents (Elt F)),
    StableHlo.binary main_v58 main_v64 main_v65 (subf : (⟨S16x1024x32x64, .f32⟩ : BufTy).Contents (Elt F) → (⟨S16x1024x32x64, .f32⟩ : BufTy).Contents (Elt F) → (⟨S16x1024x32x64, .f32⟩ : BufTy).Contents (Elt F)),
    StableHlo.nullary main_cst_13 (constant S_ .f32 0x3727C5AC#32),
    StableHlo.unary main_cst_13 main_v66 (broadcastInDim S1x1x1x64 ![] bcast_S_S1x1x1x64 : (⟨S_, .f32⟩ : BufTy).Contents (Elt F) → (⟨S1x1x1x64, .f32⟩ : BufTy).Contents (Elt F)),
    StableHlo.binary main_v63 main_v66 main_v67 (addf : (⟨S1x1x1x64, .f32⟩ : BufTy).Contents (Elt F) → (⟨S1x1x1x64, .f32⟩ : BufTy).Contents (Elt F) → (⟨S1x1x1x64, .f32⟩ : BufTy).Contents (Elt F)),
    StableHlo.unary main_v67 main_v68 (Host.rsqrt : (⟨S1x1x1x64, .f32⟩ : BufTy).Contents (Elt F) → (⟨S1x1x1x64, .f32⟩ : BufTy).Contents (Elt F)),
    StableHlo.unary main_v68 main_v69 (broadcastInDim S16x1024x32x64 ![0, 1, 2, 3] bcast_S1x1x1x64_S16x1024x32x64_0_1_2_3 : (⟨S1x1x1x64, .f32⟩ : BufTy).Contents (Elt F) → (⟨S16x1024x32x64, .f32⟩ : BufTy).Contents (Elt F)),
    StableHlo.binary main_v65 main_v69 main_v70 (mulf : (⟨S16x1024x32x64, .f32⟩ : BufTy).Contents (Elt F) → (⟨S16x1024x32x64, .f32⟩ : BufTy).Contents (Elt F) → (⟨S16x1024x32x64, .f32⟩ : BufTy).Contents (Elt F)),
    StableHlo.unary main_arg7 main_v71 (broadcastInDim S1x1x1x64 ![3] bcast_S64_S1x1x1x64_3 : (⟨S64, .f32⟩ : BufTy).Contents (Elt F) → (⟨S1x1x1x64, .f32⟩ : BufTy).Contents (Elt F)),
    StableHlo.unary main_v71 main_v72 (broadcastInDim S16x1024x32x64 ![0, 1, 2, 3] bcast_S1x1x1x64_S16x1024x32x64_0_1_2_3 : (⟨S1x1x1x64, .f32⟩ : BufTy).Contents (Elt F) → (⟨S16x1024x32x64, .f32⟩ : BufTy).Contents (Elt F)),
    StableHlo.binary main_v70 main_v72 main_v73 (mulf : (⟨S16x1024x32x64, .f32⟩ : BufTy).Contents (Elt F) → (⟨S16x1024x32x64, .f32⟩ : BufTy).Contents (Elt F) → (⟨S16x1024x32x64, .f32⟩ : BufTy).Contents (Elt F)),
    StableHlo.unary main_arg8 main_v74 (broadcastInDim S1x1x1x64 ![3] bcast_S64_S1x1x1x64_3 : (⟨S64, .f32⟩ : BufTy).Contents (Elt F) → (⟨S1x1x1x64, .f32⟩ : BufTy).Contents (Elt F)),
    StableHlo.unary main_v74 main_v75 (broadcastInDim S16x1024x32x64 ![0, 1, 2, 3] bcast_S1x1x1x64_S16x1024x32x64_0_1_2_3 : (⟨S1x1x1x64, .f32⟩ : BufTy).Contents (Elt F) → (⟨S16x1024x32x64, .f32⟩ : BufTy).Contents (Elt F)),
    StableHlo.binary main_v73 main_v75 main_v76 (addf : (⟨S16x1024x32x64, .f32⟩ : BufTy).Contents (Elt F) → (⟨S16x1024x32x64, .f32⟩ : BufTy).Contents (Elt F) → (⟨S16x1024x32x64, .f32⟩ : BufTy).Contents (Elt F)),
    StableHlo.TRef.nullary main_call7.cst (constant S_ .f32 0x00000000#32),
    StableHlo.TRef.unary main_call7.cst main_call7.v0 (broadcastInDim S16x1024x32x64 ![] bcast_S_S16x1024x32x64),
    StableHlo.TRef.binary ((.of main_v76) : StableHlo.TRef sig ⟨S16x1024x32x64, .f32⟩) main_call7.v0 main_call7.v1 maximumf,
    StableHlo.binary main_v77 main_arg9 main_v78 ((fun l r => Host.dotGeneral dot_S16x1024x32x64_S128x64_S16x1024x32x128_3_1_012_0_n_n none l r) : (⟨S16x1024x32x64, .f32⟩ : BufTy).Contents (Elt F) → (⟨S128x64, .f32⟩ : BufTy).Contents (Elt F) → (⟨S16x1024x32x128, .f32⟩ : BufTy).Contents (Elt F)),
    StableHlo.nullary main_cst_14 (constant S_ .f32 0x00000000#32),
    StableHlo.binary main_v78 main_cst_14 main_v79 ((fun x v => Host.reduceAdd x v reducesTo_S16x1024x32x128_S128_d0_1_2 h_S_) : (⟨S16x1024x32x128, .f32⟩ : BufTy).Contents (Elt F) → (⟨S_, .f32⟩ : BufTy).Contents (Elt F) → (⟨S128, .f32⟩ : BufTy).Contents (Elt F)),
    StableHlo.unary main_v79 main_v80 (broadcastInDim S1x1x1x128 ![3] bcast_S128_S1x1x1x128_3 : (⟨S128, .f32⟩ : BufTy).Contents (Elt F) → (⟨S1x1x1x128, .f32⟩ : BufTy).Contents (Elt F)),
    StableHlo.nullary main_cst_15 (constant S_ .f32 0x49000000#32),
    StableHlo.unary main_cst_15 main_v81 (broadcastInDim S1x1x1x128 ![] bcast_S_S1x1x1x128 : (⟨S_, .f32⟩ : BufTy).Contents (Elt F) → (⟨S1x1x1x128, .f32⟩ : BufTy).Contents (Elt F)),
    StableHlo.binary main_v80 main_v81 main_v82 (Host.divf : (⟨S1x1x1x128, .f32⟩ : BufTy).Contents (Elt F) → (⟨S1x1x1x128, .f32⟩ : BufTy).Contents (Elt F) → (⟨S1x1x1x128, .f32⟩ : BufTy).Contents (Elt F)),
    StableHlo.nullary main_c_16 (constantI S_ 32 0#32),
    StableHlo.TRef.nullary main_call8.cst (constant S_ .f32 0x00000000#32),
    StableHlo.TRef.binary ((.of main_v78) : StableHlo.TRef sig ⟨S16x1024x32x128, .f32⟩) main_call8.cst main_call8.v0 (fun x v => Host.reduceAdd x v reducesTo_S16x1024x32x128_S128_d0_1_2 h_S_),
    StableHlo.TRef.unary main_call8.v0 main_call8.v1 (broadcastInDim S1x1x1x128 ![3] bcast_S128_S1x1x1x128_3),
    StableHlo.TRef.nullary main_call8.cst_0 (constant S_ .f32 0x49000000#32),
    StableHlo.TRef.unary main_call8.cst_0 main_call8.v2 (broadcastInDim S1x1x1x128 ![] bcast_S_S1x1x1x128),
    StableHlo.TRef.binary main_call8.v1 main_call8.v2 main_call8.v3 Host.divf,
    StableHlo.TRef.unary main_call8.v3 main_call8.v4 (broadcastInDim S16x1024x32x128 ![0, 1, 2, 3] bcast_S1x1x1x128_S16x1024x32x128_0_1_2_3),
    StableHlo.TRef.binary ((.of main_v78) : StableHlo.TRef sig ⟨S16x1024x32x128, .f32⟩) main_call8.v4 main_call8.v5 subf,
    StableHlo.TRef.binary main_call8.v5 main_call8.v5 main_call8.v6 mulf,
    StableHlo.TRef.unary ((.of main_c_16) : StableHlo.TRef sig ⟨S_, .i32⟩) main_call8.v7 (sitofp .f32),
    StableHlo.TRef.nullary main_call8.cst_1 (constant S_ .f32 0x49000000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S16x1024x32x128_S128_d0_1_2 h_S_),
    StableHlo.TRef.unary main_call8.v9 main_call8.v10 (broadcastInDim S1x1x1x128 ![3] bcast_S128_S1x1x1x128_3),
    StableHlo.TRef.unary main_call8.v8 main_call8.v11 (broadcastInDim S1x1x1x128 ![] bcast_S_S1x1x1x128),
    StableHlo.TRef.binary main_call8.v10 main_call8.v11 main_call8.v12 Host.divf,
    StableHlo.TRef.nullary main_call8.cst_3 (constant S_ .f32 0x00000000#32),
    StableHlo.TRef.binary main_call8.v8 main_call8.cst_3 main_call8.v13 (cmpf .ogt),
    StableHlo.TRef.nullary main_call8.cst_4 (constant S_ .f32 0x7FC00000#32),
    StableHlo.TRef.unary (main_call8.cst_4 : StableHlo.TRef sig ⟨S_, .f32⟩) main_call8.call0.v0 id,
    StableHlo.TRef.unary main_call8.call0.v0 main_call8.call0.v1 (broadcastInDim S1x1x1x128 ![] bcast_S_S1x1x1x128),
    StableHlo.TRef.ternary (main_call8.v13 : StableHlo.TRef sig ⟨S_, .i1⟩) (main_call8.v12 : StableHlo.TRef sig ⟨S1x1x1x128, .f32⟩) main_call8.call0.v1 main_call8.call0.v2 (fun p a b => select (broadcastInDim S1x1x1x128 ![] bcast_S_S1x1x1x128 p) a b),
    StableHlo.unary main_v82 main_v84 (broadcastInDim S16x1024x32x128 ![0, 1, 2, 3] bcast_S1x1x1x128_S16x1024x32x128_0_1_2_3 : (⟨S1x1x1x128, .f32⟩ : BufTy).Contents (Elt F) → (⟨S16x1024x32x128, .f32⟩ : BufTy).Contents (Elt F)),
    StableHlo.binary main_v78 main_v84 main_v85 (subf : (⟨S16x1024x32x128, .f32⟩ : BufTy).Contents (Elt F) → (⟨S16x1024x32x128, .f32⟩ : BufTy).Contents (Elt F) → (⟨S16x1024x32x128, .f32⟩ : BufTy).Contents (Elt F)),
    StableHlo.nullary main_cst_17 (constant S_ .f32 0x3727C5AC#32),
    StableHlo.unary main_cst_17 main_v86 (broadcastInDim S1x1x1x128 ![] bcast_S_S1x1x1x128 : (⟨S_, .f32⟩ : BufTy).Contents (Elt F) → (⟨S1x1x1x128, .f32⟩ : BufTy).Contents (Elt F)),
    StableHlo.binary main_v83 main_v86 main_v87 (addf : (⟨S1x1x1x128, .f32⟩ : BufTy).Contents (Elt F) → (⟨S1x1x1x128, .f32⟩ : BufTy).Contents (Elt F) → (⟨S1x1x1x128, .f32⟩ : BufTy).Contents (Elt F)),
    StableHlo.unary main_v87 main_v88 (Host.rsqrt : (⟨S1x1x1x128, .f32⟩ : BufTy).Contents (Elt F) → (⟨S1x1x1x128, .f32⟩ : BufTy).Contents (Elt F)),
    StableHlo.unary main_v88 main_v89 (broadcastInDim S16x1024x32x128 ![0, 1, 2, 3] bcast_S1x1x1x128_S16x1024x32x128_0_1_2_3 : (⟨S1x1x1x128, .f32⟩ : BufTy).Contents (Elt F) → (⟨S16x1024x32x128, .f32⟩ : BufTy).Contents (Elt F)),
    StableHlo.binary main_v85 main_v89 main_v90 (mulf : (⟨S16x1024x32x128, .f32⟩ : BufTy).Contents (Elt F) → (⟨S16x1024x32x128, .f32⟩ : BufTy).Contents (Elt F) → (⟨S16x1024x32x128, .f32⟩ : BufTy).Contents (Elt F)),
    StableHlo.unary main_arg10 main_v91 (broadcastInDim S1x1x1x128 ![3] bcast_S128_S1x1x1x128_3 : (⟨S128, .f32⟩ : BufTy).Contents (Elt F) → (⟨S1x1x1x128, .f32⟩ : BufTy).Contents (Elt F)),
    StableHlo.unary main_v91 main_v92 (broadcastInDim S16x1024x32x128 ![0, 1, 2, 3] bcast_S1x1x1x128_S16x1024x32x128_0_1_2_3 : (⟨S1x1x1x128, .f32⟩ : BufTy).Contents (Elt F) → (⟨S16x1024x32x128, .f32⟩ : BufTy).Contents (Elt F)),
    StableHlo.binary main_v90 main_v92 main_v93 (mulf : (⟨S16x1024x32x128, .f32⟩ : BufTy).Contents (Elt F) → (⟨S16x1024x32x128, .f32⟩ : BufTy).Contents (Elt F) → (⟨S16x1024x32x128, .f32⟩ : BufTy).Contents (Elt F)),
    StableHlo.unary main_arg11 main_v94 (broadcastInDim S1x1x1x128 ![3] bcast_S128_S1x1x1x128_3 : (⟨S128, .f32⟩ : BufTy).Contents (Elt F) → (⟨S1x1x1x128, .f32⟩ : BufTy).Contents (Elt F)),
    StableHlo.unary main_v94 main_v95 (broadcastInDim S16x1024x32x128 ![0, 1, 2, 3] bcast_S1x1x1x128_S16x1024x32x128_0_1_2_3 : (⟨S1x1x1x128, .f32⟩ : BufTy).Contents (Elt F) → (⟨S16x1024x32x128, .f32⟩ : BufTy).Contents (Elt F)),
    StableHlo.binary main_v93 main_v95 main_v96 (addf : (⟨S16x1024x32x128, .f32⟩ : BufTy).Contents (Elt F) → (⟨S16x1024x32x128, .f32⟩ : BufTy).Contents (Elt F) → (⟨S16x1024x32x128, .f32⟩ : BufTy).Contents (Elt F)),
    StableHlo.TRef.nullary main_call9.cst (constant S_ .f32 0x00000000#32),
    StableHlo.TRef.unary main_call9.cst main_call9.v0 (broadcastInDim S16x1024x32x128 ![] bcast_S_S16x1024x32x128),
    StableHlo.TRef.binary ((.of main_v96) : StableHlo.TRef sig ⟨S16x1024x32x128, .f32⟩) main_call9.v0 main_call9.v1 maximumf,
    StableHlo.nullary main_cst_18 (constant S_ .f32 0xFF800000#32),
    StableHlo.binary main_v97 main_cst_18 main_v98 ((fun x v => Host.reduce FloatOps.maximumf x v reducesTo_S16x1024x32x128_S16x1024x128_d2 h_S_) : (⟨S16x1024x32x128, .f32⟩ : BufTy).Contents (Elt F) → (⟨S_, .f32⟩ : BufTy).Contents (Elt F) → (⟨S16x1024x128, .f32⟩ : BufTy).Contents (Elt F)) ]
theorem ops_part1_sub : (ops_part1 : List (HloOp τ sig (Elt F))).Forall fun op => op.bufs ⊆ tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub ..⟩

/-- The 1 operations of window 2 of @main. -/
abbrev ops_part2 : List (HloOp τ sig (Elt F)) :=
  [ StableHlo.unary main_v98 main_v99 ((transpose S16x128x1024 [0, 2, 1] · transposes_S16x1024x128_S16x128x1024_0_2_1) : (⟨S16x1024x128, .f32⟩ : BufTy).Contents (Elt F) → (⟨S16x128x1024, .f32⟩ : BufTy).Contents (Elt F)) ]
theorem ops_part2_sub : (ops_part2 : List (HloOp τ sig (Elt F))).Forall fun op => op.bufs ⊆ tcRefs τ sig :=
  StableHlo.unary_bufs_sub ..

end Cert.ReferenceIdeal.Run

end
-- ==== Proof.RRun.lean ====
/- The reference's @main is the straight line of its host operations, so every weakly fair execution terminates with each
   buffer at the fold of the operations' results over the launch contents. -/
import proofs.«128494_j5145370821372_1_alg».proof.Proof.ROps
import Idealize.ShloMosaic.Lib.Pipeline.Regions

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-! ## Each window of @main is the line of its operations

A called function's body is the line of its own operations over the call's buffers, so unfolding the calls leaves one
line per window; the first window's line is the two stretches `ops_head` and `ops_p0b` end to end. -/

/-- Window 0 of @main is the line of `ops_head` followed by `ops_p0b`. -/
theorem main_part0_eq (c : Dev nD) : main_part0 (F := F) c = seq (ops_head ++ ops_p0b) := by chain_rfl

/-- Window 1 of @main is the line of `ops_part1`. -/
theorem main_part1_eq (c : Dev nD) : main_part1 (F := F) c = seq ops_part1 := by chain_rfl

/-- Window 2 of @main is the line of `ops_part2`. -/
theorem main_part2_eq (c : Dev nD) : main_part2 (F := F) c = seq ops_part2 := by chain_rfl

/-! ## @main is one line

@main runs its three windows in order, and a line of several stretches end to end is the stretches run one after the
other; so @main is the line of all its operations. -/

/-- A line of four stretches end to end runs the first two as one line, then the third, then the fourth. -/
theorem seq_four {Λ : Labels} (a b c d : List (HloOp τ sig (Elt F))) :
    (seq (a ++ b ++ (c ++ d)) : Prog (TpuEff nD τ sig (Elt F) Λ .tc) PUnit)
      = seq (a ++ b) >>= fun _ => seq c >>= fun _ => seq d := by
  rw [seq_append (a ++ b), seq_append c]

/-- Three programs run in order are equal to three others run in order when they are equal one by one. -/
theorem bind_three {E : Type → Type} {p p' q q' r r' : Prog E PUnit} (hp : p = p') (hq : q = q') (hr : r = r') :
    (p >>= fun _ => q >>= fun _ => r) = (p' >>= fun _ => q' >>= fun _ => r') := by
  subst hp hq hr; rfl

/-- @main is the line of the four stretches of operations end to end. -/
theorem main_eq (c : Dev nD) : main (F := F) c = seq (ops_head ++ ops_p0b ++ (ops_part1 ++ ops_part2)) :=
  (show main (F := F) c = (main_part0 c >>= fun _ => main_part1 c >>= fun _ => main_part2 c) from rfl).trans
    ((bind_three (main_part0_eq c) (main_part1_eq c) (main_part2_eq c)).trans (seq_four _ _ _ _).symm)

/-! ## The side conditions of the straight-line theorem -/

/-- The reference's signature scopes no buffer. -/
theorem scopedRefs_eq : (Finset.univ.filter fun b : Ref sig .tc => b.isScoped) = ∅ := by decide

/-- The reference's signature scopes no semaphore. -/
theorem scopedSems_eq : (Finset.univ.filter fun sm : SemLoc sig => sm.isScoped .tc) = ∅ := by decide

/-- What holds of every entry of two lists holds of every entry of their concatenation. -/
theorem forall_append {α : Type} {p : α → Prop} {l₁ l₂ : List α} (h₁ : l₁.Forall p) (h₂ : l₂.Forall p) :
    (l₁ ++ l₂).Forall p :=
  List.forall_iff_forall_mem.mpr fun x h =>
    (List.mem_append.mp h).elim (List.forall_iff_forall_mem.mp h₁ x) (List.forall_iff_forall_mem.mp h₂ x)

/-- Every operation of @main touches TensorCore buffers only. -/
theorem ops_all_sub :
    (ops_head ++ ops_p0b ++ (ops_part1 ++ ops_part2) : List (HloOp τ sig (Elt F))).Forall fun op => op.bufs ⊆ tcRefs τ sig :=
  forall_append (forall_append ops_head_sub ops_p0b_sub) (forall_append ops_part1_sub ops_part2_sub)

/-- No operation of the first stretch leaves a result undetermined (none is a buffer allocation). -/
theorem ops_head_fresh : ∀ op ∈ (ops_head : List (HloOp τ sig (Elt F))), op.fresh = ∅ := by
  intro _ h; (repeat (cases h with | head => rfl | tail _ h => ?_)); exact nomatch h

/-- No operation of the second stretch leaves a result undetermined. -/
theorem ops_p0b_fresh : ∀ op ∈ (ops_p0b : List (HloOp τ sig (Elt F))), op.fresh = ∅ := by
  intro _ h; (repeat (cases h with | head => rfl | tail _ h => ?_)); exact nomatch h

/-- No operation of the third stretch leaves a result undetermined. -/
theorem ops_part1_fresh : ∀ op ∈ (ops_part1 : List (HloOp τ sig (Elt F))), op.fresh = ∅ := by
  intro _ h; (repeat (cases h with | head => rfl | tail _ h => ?_)); exact nomatch h

/-- The one operation of the last stretch determines its result. -/
theorem ops_part2_fresh : ∀ op ∈ (ops_part2 : List (HloOp τ sig (Elt F))), op.fresh = ∅ := by
  intro _ h; (repeat (cases h with | head => rfl | tail _ h => ?_)); exact nomatch h

/-- What holds of every member of two lists holds of every member of their concatenation. -/
theorem mem_append_imp {α : Type} {p : α → Prop} {l₁ l₂ : List α} (h₁ : ∀ x ∈ l₁, p x) (h₂ : ∀ x ∈ l₂, p x) :
    ∀ x ∈ l₁ ++ l₂, p x :=
  fun x h => (List.mem_append.mp h).elim (h₁ x) (h₂ x)

/-- No operation of @main leaves a result undetermined. -/
theorem ops_all_fresh :
    ∀ op ∈ (ops_head ++ ops_p0b ++ (ops_part1 ++ ops_part2) : List (HloOp τ sig (Elt F))), op.fresh = ∅ :=
  mem_append_imp (mem_append_imp ops_head_fresh ops_p0b_fresh) (mem_append_imp ops_part1_fresh ops_part2_fresh)

/-! ## The run -/

/-- The contents two stretches end to end leave are those the second leaves from what the first leaves. -/
theorem after_two {Val : EltTy → Type} : ∀ (a b : List (HloOp τ sig Val)) (V : Valuation τ sig Val),
    after (a ++ b) V = after b (after a V)
  | [], _, _ => rfl
  | op :: a, b, V => by rw [List.cons_append, after_cons, after_cons, after_two a b]

/-- The contents four stretches end to end leave are those the stretches leave one after the other. -/
theorem after_four {Val : EltTy → Type} (a b c d : List (HloOp τ sig Val)) (V : Valuation τ sig Val) :
    after (a ++ b ++ (c ++ d)) V = after d (after c (after b (after a V))) := by
  rw [after_two (a ++ b), after_two c, after_two a]

/-- Every weakly fair execution of the reference's @main terminates, nothing faulting, with every buffer at the contents
    the four stretches of operations leave, one after the other, from the launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b)
        = after ops_part2 (after ops_part1 (after ops_p0b (after ops_head (launchContents m d)))) (Proc.devRef .tc b) := by
  refine (θ_run defs _ _).mono (fun _ h d b => ?_)
    (run_seq scopedRefs_eq scopedSems_eq defs main (fun _ => ops_head ++ ops_p0b ++ (ops_part1 ++ ops_part2))
      main_eq (fun _ => ops_all_sub) m ρ (fun _ => ops_all_fresh))
  exact (h d b).trans (congrFun (after_four ops_head ops_p0b ops_part1 ops_part2 (launchContents m d)) _)

end Cert.ReferenceIdeal.Run

end
-- ==== Proof.RTerm.lean ====
/-
  What the reference computes from the gathered feature array, as one composed term at the extended reals: three
  layers over the four-axis array (batch, query, neighbour, channel), each a contraction of the channel axis with a weight
  matrix, preceded (from the second on) by the per-channel normalisation over the three leading axes, scale, shift and
  rectification; then the maximum over the neighbour axis, and the result laid out batch × channel × query.
-/
import proofs.«128494_j5145370821372_1_alg».proof.ReferenceIdeal
import Idealize.ShloMosaic.PureOps.Ideal

noncomputable section

namespace Cert.ReferenceIdeal.RTerm

open Idealize.ShloMosaic Cert.ReferenceIdeal Cert.ReferenceIdeal.Facts₀ Cert.ReferenceIdeal.Facts

variable [Cert.ReferenceIdeal.Facts]

/-- The scalar 0, the scalar 524288, the scalar 524288 − 0 (the variance's divisor) and the stabiliser 1e-5 (as binary32). -/
abbrev zero0 : FVec Ideal S_ .f32 := constant (F := Ideal) S_ .f32 0x00000000#32
abbrev cnt0 : FVec Ideal S_ .f32 := constant (F := Ideal) S_ .f32 0x49000000#32
abbrev cntm : FVec Ideal S_ .f32 := subf cnt0 (sitofp (F := Ideal) .f32 (constantI S_ 32 0#32))
abbrev eps0 : FVec Ideal S_ .f32 := constant (F := Ideal) S_ .f32 0x3727C5AC#32

/-! ## 64 channels -/

/-- A per-channel vector, or a per-channel row with three unit axes, spread over every sample. -/
abbrev up64 (v : FVec Ideal S64 .f32) : FVec Ideal S1x1x1x64 .f32 := broadcastInDim S1x1x1x64 ![3] bcast_S64_S1x1x1x64_3 v
abbrev all64 (v : FVec Ideal S1x1x1x64 .f32) : FVec Ideal S16x1024x32x64 .f32 :=
  broadcastInDim S16x1024x32x64 ![0, 1, 2, 3] bcast_S1x1x1x64_S16x1024x32x64_0_1_2_3 v

/-- Per-channel mean over batch, query and neighbour, kept with unit axes. -/
def mean64 (Y : FVec Ideal S16x1024x32x64 .f32) : FVec Ideal S1x1x1x64 .f32 :=
  Host.divf (up64 (Host.reduceAdd Y zero0 reducesTo_S16x1024x32x64_S64_d0_1_2 h_S_)) (broadcastInDim S1x1x1x64 ![] bcast_S_S1x1x1x64 cnt0)

/-- The samples less their channel's mean. -/
def ctr64 (Y : FVec Ideal S16x1024x32x64 .f32) : FVec Ideal S16x1024x32x64 .f32 :=
  subf Y (all64 (Host.divf (up64 (Host.reduceAdd Y zero0 reducesTo_S16x1024x32x64_S64_d0_1_2 h_S_)) (broadcastInDim S1x1x1x64 ![] bcast_S_S1x1x1x64 cnt0)))

/-- Per-channel variance, kept with unit axes: the mean of the squared deviations where the divisor is positive (it is),
    a not-a-number pattern otherwise. -/
def var64 (Y : FVec Ideal S16x1024x32x64 .f32) : FVec Ideal S1x1x1x64 .f32 :=
  select (broadcastInDim S1x1x1x64 ![] bcast_S_S1x1x1x64 (cmpf .ogt cntm zero0))
    (Host.divf (up64 (Host.reduceAdd (mulf (ctr64 Y) (ctr64 Y)) zero0 reducesTo_S16x1024x32x64_S64_d0_1_2 h_S_))
      (broadcastInDim S1x1x1x64 ![] bcast_S_S1x1x1x64 cntm))
    (broadcastInDim S1x1x1x64 ![] bcast_S_S1x1x1x64 (id (constant (F := Ideal) S_ .f32 0x7FC00000#32)))

/-- Normalise, scale, shift, rectify. -/
def act64 (Y : FVec Ideal S16x1024x32x64 .f32) (g b : FVec Ideal S64 .f32) : FVec Ideal S16x1024x32x64 .f32 :=
  maximumf
    (addf (mulf (mulf (subf Y (all64 (mean64 Y)))
        (all64 (Host.rsqrt (addf (var64 Y) (broadcastInDim S1x1x1x64 ![] bcast_S_S1x1x1x64 eps0)))))
      (all64 (up64 g))) (all64 (up64 b)))
    (broadcastInDim S16x1024x32x64 ![] bcast_S_S16x1024x32x64 zero0)

/-! ## 128 channels -/

abbrev up128 (v : FVec Ideal S128 .f32) : FVec Ideal S1x1x1x128 .f32 := broadcastInDim S1x1x1x128 ![3] bcast_S128_S1x1x1x128_3 v
abbrev all128 (v : FVec Ideal S1x1x1x128 .f32) : FVec Ideal S16x1024x32x128 .f32 :=
  broadcastInDim S16x1024x32x128 ![0, 1, 2, 3] bcast_S1x1x1x128_S16x1024x32x128_0_1_2_3 v

def mean128 (Y : FVec Ideal S16x1024x32x128 .f32) : FVec Ideal S1x1x1x128 .f32 :=
  Host.divf (up128 (Host.reduceAdd Y zero0 reducesTo_S16x1024x32x128_S128_d0_1_2 h_S_)) (broadcastInDim S1x1x1x128 ![] bcast_S_S1x1x1x128 cnt0)

def ctr128 (Y : FVec Ideal S16x1024x32x128 .f32) : FVec Ideal S16x1024x32x128 .f32 :=
  subf Y (all128 (Host.divf (up128 (Host.reduceAdd Y zero0 reducesTo_S16x1024x32x128_S128_d0_1_2 h_S_)) (broadcastInDim S1x1x1x128 ![] bcast_S_S1x1x1x128 cnt0)))

def var128 (Y : FVec Ideal S16x1024x32x128 .f32) : FVec Ideal S1x1x1x128 .f32 :=
  select (broadcastInDim S1x1x1x128 ![] bcast_S_S1x1x1x128 (cmpf .ogt cntm zero0))
    (Host.divf (up128 (Host.reduceAdd (mulf (ctr128 Y) (ctr128 Y)) zero0 reducesTo_S16x1024x32x128_S128_d0_1_2 h_S_))
      (broadcastInDim S1x1x1x128 ![] bcast_S_S1x1x1x128 cntm))
    (broadcastInDim S1x1x1x128 ![] bcast_S_S1x1x1x128 (id (constant (F := Ideal) S_ .f32 0x7FC00000#32)))

def act128 (Y : FVec Ideal S16x1024x32x128 .f32) (g b : FVec Ideal S128 .f32) : FVec Ideal S16x1024x32x128 .f32 :=
  maximumf
    (addf (mulf (mulf (subf Y (all128 (mean128 Y)))
        (all128 (Host.rsqrt (addf (var128 Y) (broadcastInDim S1x1x1x128 ![] bcast_S_S1x1x1x128 eps0)))))
      (all128 (up128 g))) (all128 (up128 b)))
    (broadcastInDim S16x1024x32x128 ![] bcast_S_S16x1024x32x128 zero0)

/-! ## The layers -/

/-- Layer 0: the features' channels contracted with the first weights. -/
def Y0 (feat : FVec Ideal S16x1024x32x67 .f32) (W0 : FVec Ideal S64x67 .f32) : FVec Ideal S16x1024x32x64 .f32 :=
  Host.dotGeneral dot_S16x1024x32x67_S64x67_S16x1024x32x64_3_1_012_0_n_n none feat W0

/-- A 64-to-64 layer on a previous layer's output. -/
def layer64 (Y : FVec Ideal S16x1024x32x64 .f32) (g b : FVec Ideal S64 .f32) (W : FVec Ideal S64x64 .f32) : FVec Ideal S16x1024x32x64 .f32 :=
  Host.dotGeneral dot_S16x1024x32x64_S64x64_S16x1024x32x64_3_1_012_0_n_n none (act64 Y g b) W

/-- The 64-to-128 layer. -/
def layer128 (Y : FVec Ideal S16x1024x32x64 .f32) (g b : FVec Ideal S64 .f32) (W : FVec Ideal S128x64 .f32) : FVec Ideal S16x1024x32x128 .f32 :=
  Host.dotGeneral dot_S16x1024x32x64_S128x64_S16x1024x32x128_3_1_012_0_n_n none (act64 Y g b) W

/-- The maximum over the neighbour axis of the last layer's rectified output. -/
def pooled (Y : FVec Ideal S16x1024x32x128 .f32) (g b : FVec Ideal S128 .f32) : FVec Ideal S16x1024x128 .f32 :=
  Host.reduce (FloatOps.maximumf (F := Ideal) (φ := .f32)) (act128 Y g b) (constant (F := Ideal) S_ .f32 0xFF800000#32)
    reducesTo_S16x1024x32x128_S16x1024x128_d2 h_S_

/-- The program's second result from the feature array and the nine parameter arrays. -/
def out (feat : FVec Ideal S16x1024x32x67 .f32) (W0 : FVec Ideal S64x67 .f32) (g0 b0 : FVec Ideal S64 .f32)
    (W1 : FVec Ideal S64x64 .f32) (g1 b1 : FVec Ideal S64 .f32) (W2 : FVec Ideal S128x64 .f32) (g2 b2 : FVec Ideal S128 .f32) :
    FVec Ideal S16x128x1024 .f32 :=
  transpose S16x128x1024 [0, 2, 1] (pooled (layer128 (layer64 (Y0 feat W0) g0 b0 W1) g1 b1 W2) g2 b2)
    transposes_S16x1024x128_S16x128x1024_0_2_1

end Cert.ReferenceIdeal.RTerm

end
-- ==== Proof.RRead.lean ====
/- The reference's result buffer after the operations that follow the feature gathering, as the composed term of the
   feature array and the parameter arrays; and the argument arrays, which no operation writes, kept. -/
import proofs.«128494_j5145370821372_1_alg».proof.Proof.ROps
import proofs.«128494_j5145370821372_1_alg».proof.Proof.RTerm

set_option maxRecDepth 16384

noncomputable section

namespace Cert.ReferenceIdeal.Read

open Cert.ReferenceIdeal Cert.ReferenceIdeal.Gen Cert.ReferenceIdeal.Run Idealize.ShloMosaic Idealize.ShloMosaic.TcCoe Idealize.SL.Sem Idealize.ShloMosaic.StableHlo

/-! ## Buffers a stretch leaves alone

Each operation writes exactly one buffer. Listing, per stretch, the buffers its operations write, a buffer off the list
holds after the stretch (or after any part of it) what it held before. No argument array is on any of the four lists. -/

/-- An operation whose one written buffer is on a list writes inside that list. -/
theorem sub_of_mem {op : HloOp τ sig (Elt Ideal)} {y : Ref sig .tc} {W : List (Ref sig .tc)}
    (hw : op.writes = {Proc.devRef .tc y}) (h : y ∈ W) : op.writes ⊆ (W.map (Proc.devRef (τ := τ) .tc)).toFinset := by
  rw [hw, Finset.singleton_subset_iff, List.mem_toFinset]; exact List.mem_map_of_mem h

/-- A buffer off the list of a stretch's written buffers keeps its contents through any operations taken from the stretch. -/
theorem keep_of_part {ops part : List (HloOp τ sig (Elt Ideal))} {W : List (Ref sig .tc)}
    (hW : ops.Forall fun op => op.writes ⊆ (W.map (Proc.devRef (τ := τ) .tc)).toFinset)
    (hpart : ∀ op ∈ part, op ∈ ops) {r : Ref sig .tc} (hr : r ∉ W) (V : Valuation τ sig (Elt Ideal)) :
    after part V (Proc.devRef .tc r) = V (Proc.devRef .tc r) :=
  after_of_forall_not_mem part V fun op hop hb => by
    obtain ⟨y, hy, he⟩ := List.mem_map.mp (List.mem_toFinset.mp ((List.forall_iff_forall_mem.mp hW) op (hpart op hop) hb))
    exact hr (Proc.devRef_injective _ he ▸ hy)

/-- Running two stretches end to end is running the first, then the second from where the first ends. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The buffers the feature gathering writes, in order. -/
abbrev head_W : List (Ref sig .tc) := [main_v0, main_v1, main_v2, main_v3, main_v4, main_v5, main_cst, main_v6, main_cst_0, main_v7, main_v8, main_v9, main_v10, main_c, main_call0.v0.ref, main_call0.v1.ref, main_call0.v2.ref, main_call1.v0.ref, main_call1.v1_0.ref, main_call1.v1_1.ref, main_v13, main_call2.c.ref, main_call2.v0.ref, main_call2.v1.ref, main_call2.c_0.ref, main_call2.v2.ref, main_call2.v3.ref, main_call2.v4.ref, main_call2.v5.ref, main_call2.c_1.ref, main_call2.c_2.ref, main_call2.v6.ref, main_call2.v7.ref, main_call2.v8.ref, main_call2.v9.ref, main_call2.v10.ref, main_call2.v11.ref, main_call2.c_3.ref, main_call2.v12.ref, main_call2.v13.ref, main_call2.c_4.ref, main_call2.v14.ref, main_call2.v15.ref, main_c_1, main_v15, main_v16, main_v17, main_call3.v0.ref, main_call3.v1.ref, main_c_2, main_v19, main_v20, main_c_3, main_v21, main_v22, main_v23, main_v24, main_v25, main_v26, main_v27, main_v28, main_v29, main_c_4, main_v30, main_v31, main_c_5, main_v32, main_v33, main_v34, main_v35, main_v36, main_v37]

/-- Every operation of that stretch writes one buffer, and it is on the list. -/
theorem head_writes : (ops_head (F := Ideal)).Forall fun op => op.writes ⊆ (head_W.map (Proc.devRef (τ := τ) .tc)).toFinset :=
  ⟨sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide)⟩

/-- The buffers the first stretch after the gathering writes, in order. -/
abbrev p0b_W : List (Ref sig .tc) := [main_v38, main_cst_6, main_v39, main_v40, main_cst_7, main_v41, main_v42, main_c_8, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.v12.ref, main_call4.cst_3.ref, main_call4.v13.ref, main_call4.cst_4.ref, main_call4.call0.v0.ref, main_call4.call0.v1.ref, main_call4.call0.v2.ref, main_v44, main_v45, main_cst_9, main_v46, main_v47]

/-- Every operation of that stretch writes one buffer, and it is on the list. -/
theorem p0b_writes : (ops_p0b (F := Ideal)).Forall fun op => op.writes ⊆ (p0b_W.map (Proc.devRef (τ := τ) .tc)).toFinset :=
  ⟨sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide)⟩

/-- The buffers the second stretch writes, in order. -/
abbrev part1_W : List (Ref sig .tc) := [main_v48, main_v49, main_v50, main_v51, main_v52, main_v53, main_v54, main_v55, main_v56, main_call5.cst.ref, main_call5.v0.ref, main_call5.v1.ref, main_v58, main_cst_10, main_v59, main_v60, main_cst_11, main_v61, main_v62, main_c_12, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.v12.ref, main_call6.cst_3.ref, main_call6.v13.ref, main_call6.cst_4.ref, main_call6.call0.v0.ref, main_call6.call0.v1.ref, main_call6.call0.v2.ref, main_v64, main_v65, main_cst_13, main_v66, main_v67, main_v68, main_v69, main_v70, main_v71, main_v72, main_v73, main_v74, main_v75, main_v76, main_call7.cst.ref, main_call7.v0.ref, main_call7.v1.ref, main_v78, main_cst_14, main_v79, main_v80, main_cst_15, main_v81, main_v82, main_c_16, main_call8.cst.ref, main_call8.v0.ref, main_call8.v1.ref, main_call8.cst_0.ref, main_call8.v2.ref, main_call8.v3.ref, main_call8.v4.ref, main_call8.v5.ref, main_call8.v6.ref, main_call8.v7.ref, main_call8.cst_1.ref, main_call8.v8.ref, main_call8.cst_2.ref, main_call8.v9.ref, main_call8.v10.ref, main_call8.v11.ref, main_call8.v12.ref, main_call8.cst_3.ref, main_call8.v13.ref, main_call8.cst_4.ref, main_call8.call0.v0.ref, main_call8.call0.v1.ref, main_call8.call0.v2.ref, main_v84, main_v85, main_cst_17, main_v86, main_v87, main_v88, main_v89, main_v90, main_v91, main_v92, main_v93, main_v94, main_v95, main_v96, main_call9.cst.ref, main_call9.v0.ref, main_call9.v1.ref, main_cst_18, main_v98]

/-- Every operation of that stretch writes one buffer, and it is on the list. -/
theorem part1_writes : (ops_part1 (F := Ideal)).Forall fun op => op.writes ⊆ (part1_W.map (Proc.devRef (τ := τ) .tc)).toFinset :=
  ⟨sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide)⟩

/-- The one buffer the last stretch writes. -/
abbrev part2_W : List (Ref sig .tc) := [main_v99]

/-- Every operation of that stretch writes one buffer, and it is on the list. -/
theorem part2_writes : (ops_part2 (F := Ideal)).Forall fun op => op.writes ⊆ (part2_W.map (Proc.devRef (τ := τ) .tc)).toFinset :=
  sub_of_mem rfl (by decide)

/-! ## The stretches cut where a layer's contraction ends

The first stretch is its first operation (the first contraction) and the rest (the statistics of that contraction's
output); the second stretch is cut after the second contraction and after the third. Each piece reads the previous
contraction's output and parameter arrays only, so what it leaves is a short term of those. -/

/-- The first contraction. -/
def p0b_a : List (HloOp τ sig (Elt Ideal)) := ops_p0b.take 1
/-- Mean, variance, centring and stabilised variance of the first contraction's output. -/
def p0b_b : List (HloOp τ sig (Elt Ideal)) := ops_p0b.drop 1
/-- Normalisation, scale, shift, rectification, and the second contraction. -/
def p1a : List (HloOp τ sig (Elt Ideal)) := ops_part1.take 13
/-- The statistics of the second contraction's output, normalisation to rectification, and the third contraction. -/
def p1b : List (HloOp τ sig (Elt Ideal)) := (ops_part1.drop 13).take 48
/-- The statistics of the third contraction's output, normalisation to rectification, and the maximum over neighbours. -/
def p1c : List (HloOp τ sig (Elt Ideal)) := (ops_part1.drop 13).drop 48

theorem p0b_split : (ops_p0b (F := Ideal)) = p0b_a ++ p0b_b := (List.take_append_drop 1 _).symm
theorem part1_split : (ops_part1 (F := Ideal)) = p1a ++ (p1b ++ p1c) := by
  simp only [p1a, p1b, p1c, List.take_append_drop]

theorem keep_p0b_a {r : Ref sig .tc} (hr : r ∉ p0b_W) (V : Valuation τ sig (Elt Ideal)) : after p0b_a V (Proc.devRef .tc r) = V (Proc.devRef .tc r) :=
  keep_of_part p0b_writes (fun _ h => List.mem_of_mem_take h) hr V
theorem keep_p0b_b {r : Ref sig .tc} (hr : r ∉ p0b_W) (V : Valuation τ sig (Elt Ideal)) : after p0b_b V (Proc.devRef .tc r) = V (Proc.devRef .tc r) :=
  keep_of_part p0b_writes (fun _ h => List.mem_of_mem_drop h) hr V
theorem keep_p1a {r : Ref sig .tc} (hr : r ∉ part1_W) (V : Valuation τ sig (Elt Ideal)) : after p1a V (Proc.devRef .tc r) = V (Proc.devRef .tc r) :=
  keep_of_part part1_writes (fun _ h => List.mem_of_mem_take h) hr V
theorem keep_p1b {r : Ref sig .tc} (hr : r ∉ part1_W) (V : Valuation τ sig (Elt Ideal)) : after p1b V (Proc.devRef .tc r) = V (Proc.devRef .tc r) :=
  keep_of_part part1_writes (fun _ h => List.mem_of_mem_drop (List.mem_of_mem_take h)) hr V

/-! ## What each piece leaves -/

/-- The first contraction's output is the feature array contracted with the first weights. -/
theorem p0b_a_v38 (Z : Valuation τ sig (Elt Ideal)) :
    after p0b_a Z (Proc.devRef .tc main_v38) = RTerm.Y0 (Z (Proc.devRef .tc main_v37)) (Z (Proc.devRef .tc main_arg3)) := by
  simp only [p0b_a, ops_p0b, List.take_succ_cons, List.take_zero]
  after_results
  rfl

/-- The centred samples of the first contraction's output. -/
theorem p0b_b_v45 (A : Valuation τ sig (Elt Ideal)) :
    after p0b_b A (Proc.devRef .tc main_v45) = subf (A (Proc.devRef .tc main_v38)) (RTerm.all64 (RTerm.mean64 (A (Proc.devRef .tc main_v38)))) := by
  simp only [p0b_b, ops_p0b, List.drop_succ_cons, List.drop_zero]
  after_results_simp
  rfl

/-- The stabilised variance of the first contraction's output. -/
theorem p0b_b_v47 (A : Valuation τ sig (Elt Ideal)) :
    after p0b_b A (Proc.devRef .tc main_v47) = addf (RTerm.var64 (A (Proc.devRef .tc main_v38))) (broadcastInDim S1x1x1x64 ![] bcast_S_S1x1x1x64 RTerm.eps0) := by
  simp only [p0b_b, ops_p0b, List.drop_succ_cons, List.drop_zero]
  after_results_simp
  rfl

/-- From the centred samples and stabilised variance of an array `Y`, the second contraction's output is the 64-to-64 layer on `Y`. -/
theorem p1a_v58 (B : Valuation τ sig (Elt Ideal)) (Y : FVec Ideal S16x1024x32x64 .f32)
    (h45 : B (Proc.devRef .tc main_v45) = subf Y (RTerm.all64 (RTerm.mean64 Y)))
    (h47 : B (Proc.devRef .tc main_v47) = addf (RTerm.var64 Y) (broadcastInDim S1x1x1x64 ![] bcast_S_S1x1x1x64 RTerm.eps0)) :
    after p1a B (Proc.devRef .tc main_v58) = RTerm.layer64 Y (B (Proc.devRef .tc main_arg4)) (B (Proc.devRef .tc main_arg5)) (B (Proc.devRef .tc main_arg6)) := by
  simp only [p1a, ops_part1, List.take_succ_cons, List.take_zero]
  after_results_simp
  rw [h45, h47]
  rfl

/-- The third contraction's output is the 64-to-128 layer on the second contraction's output. -/
theorem p1b_v78 (C : Valuation τ sig (Elt Ideal)) :
    after p1b C (Proc.devRef .tc main_v78) = RTerm.layer128 (C (Proc.devRef .tc main_v58)) (C (Proc.devRef .tc main_arg7)) (C (Proc.devRef .tc main_arg8)) (C (Proc.devRef .tc main_arg9)) := by
  simp only [p1b, ops_part1, List.drop_succ_cons, List.drop_zero, List.take_succ_cons, List.take_zero]
  after_results_simp
  rfl

/-- The pooled array is the maximum over neighbours of the rectified normalisation of the third contraction's output. -/
theorem p1c_v98 (D : Valuation τ sig (Elt Ideal)) :
    after p1c D (Proc.devRef .tc main_v98) = RTerm.pooled (D (Proc.devRef .tc main_v78)) (D (Proc.devRef .tc main_arg10)) (D (Proc.devRef .tc main_arg11)) := by
  simp only [p1c, ops_part1, List.drop_succ_cons, List.drop_zero]
  after_results_simp
  rfl

/-- The result is the pooled array with its last two axes exchanged. -/
theorem part2_v99 (E : Valuation τ sig (Elt Ideal)) :
    after ops_part2 E (Proc.devRef .tc main_v99)
      = transpose S16x128x1024 [0, 2, 1] (E (Proc.devRef .tc main_v98)) transposes_S16x1024x128_S16x128x1024_0_2_1 := by
  after_results

/-- The contents after the three stretches that follow the feature gathering, from contents `Z`. -/
abbrev tail (Z : Valuation τ sig (Elt Ideal)) : Valuation τ sig (Elt Ideal) :=
  after ops_part2 (after ops_part1 (after ops_p0b Z))

/-- The result buffer is the composed term of the feature array and the nine parameter arrays as `Z` holds them. -/
theorem tail_result (Z : Valuation τ sig (Elt Ideal)) :
    tail Z (Proc.devRef .tc main_v99)
      = RTerm.out (Z (Proc.devRef .tc main_v37)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg9)) (Z (Proc.devRef .tc main_arg10)) (Z (Proc.devRef .tc main_arg11)) := by
  show after ops_part2 (after ops_part1 (after ops_p0b Z)) (Proc.devRef .tc main_v99) = _
  rw [p0b_split, part1_split, after_append, after_append, after_append]
  -- the contents at each cut, as unknowns with the facts the next piece needs
  obtain ⟨A, hA⟩ : ∃ A, A = after p0b_a Z := ⟨_, rfl⟩
  obtain ⟨B, hB⟩ : ∃ B, B = after p0b_b A := ⟨_, rfl⟩
  obtain ⟨C, hC⟩ : ∃ C, C = after p1a B := ⟨_, rfl⟩
  obtain ⟨D, hD⟩ : ∃ D, D = after p1b C := ⟨_, rfl⟩
  obtain ⟨E, hE⟩ : ∃ E, E = after p1c D := ⟨_, rfl⟩
  rw [← hA, ← hB, ← hC, ← hD, ← hE]
  have hA38 : A (Proc.devRef .tc main_v38) = RTerm.Y0 (Z (Proc.devRef .tc main_v37)) (Z (Proc.devRef .tc main_arg3)) := by rw [hA]; exact p0b_a_v38 Z
  have hAk : ∀ r : Ref sig .tc, r ∉ p0b_W → A (Proc.devRef .tc r) = Z (Proc.devRef .tc r) := fun r hr => by rw [hA]; exact keep_p0b_a hr Z
  have hBk : ∀ r : Ref sig .tc, r ∉ p0b_W → B (Proc.devRef .tc r) = Z (Proc.devRef .tc r) := fun r hr => by
    rw [hB, keep_p0b_b hr A]; exact hAk r hr
  have hC58 : C (Proc.devRef .tc main_v58) = RTerm.layer64 (RTerm.Y0 (Z (Proc.devRef .tc main_v37)) (Z (Proc.devRef .tc main_arg3))) (Z (Proc.devRef .tc main_arg4)) (Z (Proc.devRef .tc main_arg5)) (Z (Proc.devRef .tc main_arg6)) := by
    rw [hC, p1a_v58 B (A (Proc.devRef .tc main_v38)) (by rw [hB]; exact p0b_b_v45 A) (by rw [hB]; exact p0b_b_v47 A),
      hA38, hBk main_arg4 (by decide), hBk main_arg5 (by decide), hBk main_arg6 (by decide)]
  have hCk : ∀ r : Ref sig .tc, r ∉ p0b_W → r ∉ part1_W → C (Proc.devRef .tc r) = Z (Proc.devRef .tc r) := fun r hr hr' => by
    rw [hC, keep_p1a hr' B]; exact hBk r hr
  have hD78 : D (Proc.devRef .tc main_v78) = RTerm.layer128 (C (Proc.devRef .tc main_v58)) (Z (Proc.devRef .tc main_arg7)) (Z (Proc.devRef .tc main_arg8)) (Z (Proc.devRef .tc main_arg9)) := by
    rw [hD, p1b_v78 C, hCk main_arg7 (by decide) (by decide), hCk main_arg8 (by decide) (by decide), hCk main_arg9 (by decide) (by decide)]
  have hDk : ∀ r : Ref sig .tc, r ∉ p0b_W → r ∉ part1_W → D (Proc.devRef .tc r) = Z (Proc.devRef .tc r) := fun r hr hr' => by
    rw [hD, keep_p1b hr' C]; exact hCk r hr hr'
  have hE98 : E (Proc.devRef .tc main_v98) = RTerm.pooled (D (Proc.devRef .tc main_v78)) (Z (Proc.devRef .tc main_arg10)) (Z (Proc.devRef .tc main_arg11)) := by
    rw [hE, p1c_v98 D, hDk main_arg10 (by decide) (by decide), hDk main_arg11 (by decide) (by decide)]
  rw [part2_v99 E, hE98, hD78, hC58]
  rfl

/-- No operation after the feature gathering writes argument 0. -/
theorem tail_arg0 (Z : Valuation τ sig (Elt Ideal)) : tail Z (Proc.devRef .tc main_arg0) = Z (Proc.devRef .tc main_arg0) :=
  (after_of_writes_sub ops_part2 _ part2_writes (by decide)).trans
    ((after_of_writes_sub ops_part1 _ part1_writes (by decide)).trans (after_of_writes_sub ops_p0b Z p0b_writes (by decide)))

/-- No operation after the feature gathering writes argument 1. -/
theorem tail_arg1 (Z : Valuation τ sig (Elt Ideal)) : tail Z (Proc.devRef .tc main_arg1) = Z (Proc.devRef .tc main_arg1) :=
  (after_of_writes_sub ops_part2 _ part2_writes (by decide)).trans
    ((after_of_writes_sub ops_part1 _ part1_writes (by decide)).trans (after_of_writes_sub ops_p0b Z p0b_writes (by decide)))

/-- No operation after the feature gathering writes argument 2. -/
theorem tail_arg2 (Z : Valuation τ sig (Elt Ideal)) : tail Z (Proc.devRef .tc main_arg2) = Z (Proc.devRef .tc main_arg2) :=
  (after_of_writes_sub ops_part2 _ part2_writes (by decide)).trans
    ((after_of_writes_sub ops_part1 _ part1_writes (by decide)).trans (after_of_writes_sub ops_p0b Z p0b_writes (by decide)))

/-- No operation after the feature gathering writes argument 3. -/
theorem tail_arg3 (Z : Valuation τ sig (Elt Ideal)) : tail Z (Proc.devRef .tc main_arg3) = Z (Proc.devRef .tc main_arg3) :=
  (after_of_writes_sub ops_part2 _ part2_writes (by decide)).trans
    ((after_of_writes_sub ops_part1 _ part1_writes (by decide)).trans (after_of_writes_sub ops_p0b Z p0b_writes (by decide)))

/-- No operation after the feature gathering writes argument 4. -/
theorem tail_arg4 (Z : Valuation τ sig (Elt Ideal)) : tail Z (Proc.devRef .tc main_arg4) = Z (Proc.devRef .tc main_arg4) :=
  (after_of_writes_sub ops_part2 _ part2_writes (by decide)).trans
    ((after_of_writes_sub ops_part1 _ part1_writes (by decide)).trans (after_of_writes_sub ops_p0b Z p0b_writes (by decide)))

/-- No operation after the feature gathering writes argument 5. -/
theorem tail_arg5 (Z : Valuation τ sig (Elt Ideal)) : tail Z (Proc.devRef .tc main_arg5) = Z (Proc.devRef .tc main_arg5) :=
  (after_of_writes_sub ops_part2 _ part2_writes (by decide)).trans
    ((after_of_writes_sub ops_part1 _ part1_writes (by decide)).trans (after_of_writes_sub ops_p0b Z p0b_writes (by decide)))

/-- No operation after the feature gathering writes argument 6. -/
theorem tail_arg6 (Z : Valuation τ sig (Elt Ideal)) : tail Z (Proc.devRef .tc main_arg6) = Z (Proc.devRef .tc main_arg6) :=
  (after_of_writes_sub ops_part2 _ part2_writes (by decide)).trans
    ((after_of_writes_sub ops_part1 _ part1_writes (by decide)).trans (after_of_writes_sub ops_p0b Z p0b_writes (by decide)))

/-- No operation after the feature gathering writes argument 7. -/
theorem tail_arg7 (Z : Valuation τ sig (Elt Ideal)) : tail Z (Proc.devRef .tc main_arg7) = Z (Proc.devRef .tc main_arg7) :=
  (after_of_writes_sub ops_part2 _ part2_writes (by decide)).trans
    ((after_of_writes_sub ops_part1 _ part1_writes (by decide)).trans (after_of_writes_sub ops_p0b Z p0b_writes (by decide)))

/-- No operation after the feature gathering writes argument 8. -/
theorem tail_arg8 (Z : Valuation τ sig (Elt Ideal)) : tail Z (Proc.devRef .tc main_arg8) = Z (Proc.devRef .tc main_arg8) :=
  (after_of_writes_sub ops_part2 _ part2_writes (by decide)).trans
    ((after_of_writes_sub ops_part1 _ part1_writes (by decide)).trans (after_of_writes_sub ops_p0b Z p0b_writes (by decide)))

/-- No operation after the feature gathering writes argument 9. -/
theorem tail_arg9 (Z : Valuation τ sig (Elt Ideal)) : tail Z (Proc.devRef .tc main_arg9) = Z (Proc.devRef .tc main_arg9) :=
  (after_of_writes_sub ops_part2 _ part2_writes (by decide)).trans
    ((after_of_writes_sub ops_part1 _ part1_writes (by decide)).trans (after_of_writes_sub ops_p0b Z p0b_writes (by decide)))

/-- No operation after the feature gathering writes argument 10. -/
theorem tail_arg10 (Z : Valuation τ sig (Elt Ideal)) : tail Z (Proc.devRef .tc main_arg10) = Z (Proc.devRef .tc main_arg10) :=
  (after_of_writes_sub ops_part2 _ part2_writes (by decide)).trans
    ((after_of_writes_sub ops_part1 _ part1_writes (by decide)).trans (after_of_writes_sub ops_p0b Z p0b_writes (by decide)))

/-- No operation after the feature gathering writes argument 11. -/
theorem tail_arg11 (Z : Valuation τ sig (Elt Ideal)) : tail Z (Proc.devRef .tc main_arg11) = Z (Proc.devRef .tc main_arg11) :=
  (after_of_writes_sub ops_part2 _ part2_writes (by decide)).trans
    ((after_of_writes_sub ops_part1 _ part1_writes (by decide)).trans (after_of_writes_sub ops_p0b Z p0b_writes (by decide)))

/-- No operation of the feature gathering writes argument 0. -/
theorem head_arg0 (X : Valuation τ sig (Elt Ideal)) : after (ops_head (F := Ideal)) X (Proc.devRef .tc main_arg0) = X (Proc.devRef .tc main_arg0) :=
  after_of_writes_sub ops_head X head_writes (by decide)

/-- No operation of the feature gathering writes argument 1. -/
theorem head_arg1 (X : Valuation τ sig (Elt Ideal)) : after (ops_head (F := Ideal)) X (Proc.devRef .tc main_arg1) = X (Proc.devRef .tc main_arg1) :=
  after_of_writes_sub ops_head X head_writes (by decide)

/-- No operation of the feature gathering writes argument 2. -/
theorem head_arg2 (X : Valuation τ sig (Elt Ideal)) : after (ops_head (F := Ideal)) X (Proc.devRef .tc main_arg2) = X (Proc.devRef .tc main_arg2) :=
  after_of_writes_sub ops_head X head_writes (by decide)

/-- No operation of the feature gathering writes argument 3. -/
theorem head_arg3 (X : Valuation τ sig (Elt Ideal)) : after (ops_head (F := Ideal)) X (Proc.devRef .tc main_arg3) = X (Proc.devRef .tc main_arg3) :=
  after_of_writes_sub ops_head X head_writes (by decide)

/-- No operation of the feature gathering writes argument 4. -/
theorem head_arg4 (X : Valuation τ sig (Elt Ideal)) : after (ops_head (F := Ideal)) X (Proc.devRef .tc main_arg4) = X (Proc.devRef .tc main_arg4) :=
  after_of_writes_sub ops_head X head_writes (by decide)

/-- No operation of the feature gathering writes argument 5. -/
theorem head_arg5 (X : Valuation τ sig (Elt Ideal)) : after (ops_head (F := Ideal)) X (Proc.devRef .tc main_arg5) = X (Proc.devRef .tc main_arg5) :=
  after_of_writes_sub ops_head X head_writes (by decide)

/-- No operation of the feature gathering writes argument 6. -/
theorem head_arg6 (X : Valuation τ sig (Elt Ideal)) : after (ops_head (F := Ideal)) X (Proc.devRef .tc main_arg6) = X (Proc.devRef .tc main_arg6) :=
  after_of_writes_sub ops_head X head_writes (by decide)

/-- No operation of the feature gathering writes argument 7. -/
theorem head_arg7 (X : Valuation τ sig (Elt Ideal)) : after (ops_head (F := Ideal)) X (Proc.devRef .tc main_arg7) = X (Proc.devRef .tc main_arg7) :=
  after_of_writes_sub ops_head X head_writes (by decide)

/-- No operation of the feature gathering writes argument 8. -/
theorem head_arg8 (X : Valuation τ sig (Elt Ideal)) : after (ops_head (F := Ideal)) X (Proc.devRef .tc main_arg8) = X (Proc.devRef .tc main_arg8) :=
  after_of_writes_sub ops_head X head_writes (by decide)

/-- No operation of the feature gathering writes argument 9. -/
theorem head_arg9 (X : Valuation τ sig (Elt Ideal)) : after (ops_head (F := Ideal)) X (Proc.devRef .tc main_arg9) = X (Proc.devRef .tc main_arg9) :=
  after_of_writes_sub ops_head X head_writes (by decide)

/-- No operation of the feature gathering writes argument 10. -/
theorem head_arg10 (X : Valuation τ sig (Elt Ideal)) : after (ops_head (F := Ideal)) X (Proc.devRef .tc main_arg10) = X (Proc.devRef .tc main_arg10) :=
  after_of_writes_sub ops_head X head_writes (by decide)

/-- No operation of the feature gathering writes argument 11. -/
theorem head_arg11 (X : Valuation τ sig (Elt Ideal)) : after (ops_head (F := Ideal)) X (Proc.devRef .tc main_arg11) = X (Proc.devRef .tc main_arg11) :=
  after_of_writes_sub ops_head X head_writes (by decide)

end Cert.ReferenceIdeal.Read

end
-- ==== Proof.Head.lean ====
/- The two programs gather the feature array by the same operations (the ball query: squared distances, the in-radius
   test, a stable sort of the masked positions, the first 32, out-of-radius slots refilled with the first; then the two
   gathers, the recentring and the concatenation), applied to argument arrays that agree; so the two feature arrays are equal. -/
import proofs.«128494_j5145370821372_1_alg».proof.Proof.Gen.KernelIdeal.Frame
import proofs.«128494_j5145370821372_1_alg».proof.Proof.ROps
import Idealize.ShloMosaic.PureOps.Ideal

set_option maxRecDepth 16384

noncomputable section

namespace Cert.Head

open Idealize.ShloMosaic Idealize.ShloMosaic.TcCoe Idealize.SL.Sem Idealize.ShloMosaic.StableHlo

section Stages

variable {F : FTy → Type} [FloatOps F]

/-- One core's buffer contents, in the reference program and in the kernel program. -/
abbrev RV (F : FTy → Type) := Valuation Cert.ReferenceIdeal.τ Cert.ReferenceIdeal.sig (Elt F)
@[inherit_doc RV]
abbrev KV (F : FTy → Type) := Valuation Cert.KernelIdeal.τ Cert.KernelIdeal.sig (Elt F)

/-- Running a list of operations is running its first `n` and then the rest. -/
theorem after_take_drop {τ : Topo} {sig : RefSig} {Val : EltTy → Type} (n : Nat) (ops : List (HloOp τ sig Val))
    (V : Valuation τ sig Val) : after ops V = after (ops.drop n) (after (ops.take n) V) := by
  rw [← after_append, List.take_append_drop]

/-! The reference's gathering operations in six stretches, cut where the kernel program's lists are cut: the 17 that
    end at the masked positions, the 4 that sort them and keep the first 32, the 22 that read the masked positions at
    those 32, the 6 that refill the out-of-radius slots, the 22 that gather and recentre, and the concatenation. The
    kernel program's last list is cut the same way: its first 22, then the concatenation and two operations that
    write other buffers. -/

abbrev rPos : List (HloOp Cert.ReferenceIdeal.τ Cert.ReferenceIdeal.sig (Elt F)) := (Cert.ReferenceIdeal.Run.ops_head (F := F)).take 17
abbrev rPosRest : List (HloOp Cert.ReferenceIdeal.τ Cert.ReferenceIdeal.sig (Elt F)) := (Cert.ReferenceIdeal.Run.ops_head (F := F)).drop 17
abbrev rSort : List (HloOp Cert.ReferenceIdeal.τ Cert.ReferenceIdeal.sig (Elt F)) := (rPosRest (F := F)).take 4
abbrev rSortRest : List (HloOp Cert.ReferenceIdeal.τ Cert.ReferenceIdeal.sig (Elt F)) := (rPosRest (F := F)).drop 4
abbrev rTake : List (HloOp Cert.ReferenceIdeal.τ Cert.ReferenceIdeal.sig (Elt F)) := (rSortRest (F := F)).take 22
abbrev rTakeRest : List (HloOp Cert.ReferenceIdeal.τ Cert.ReferenceIdeal.sig (Elt F)) := (rSortRest (F := F)).drop 22
abbrev rFill : List (HloOp Cert.ReferenceIdeal.τ Cert.ReferenceIdeal.sig (Elt F)) := (rTakeRest (F := F)).take 6
abbrev rFillRest : List (HloOp Cert.ReferenceIdeal.τ Cert.ReferenceIdeal.sig (Elt F)) := (rTakeRest (F := F)).drop 6
abbrev rGather : List (HloOp Cert.ReferenceIdeal.τ Cert.ReferenceIdeal.sig (Elt F)) := (rFillRest (F := F)).take 22
abbrev rCat : List (HloOp Cert.ReferenceIdeal.τ Cert.ReferenceIdeal.sig (Elt F)) := (rFillRest (F := F)).drop 22
abbrev kGather : List (HloOp Cert.KernelIdeal.τ Cert.KernelIdeal.sig (Elt F)) := (Cert.KernelIdeal.Gen.hostOps0_7 (F := F)).take 22
abbrev kCat : List (HloOp Cert.KernelIdeal.τ Cert.KernelIdeal.sig (Elt F)) := (Cert.KernelIdeal.Gen.hostOps0_7 (F := F)).drop 22

/-- The reference's gathering operations run as the six stretches in turn. -/
theorem gather_in_stretches (X : RV F) :
    after (Cert.ReferenceIdeal.Run.ops_head (F := F)) X
      = after (rCat (F := F)) (after (rGather (F := F)) (after (rFill (F := F)) (after (rTake (F := F))
          (after (rSort (F := F)) (after (rPos (F := F)) X))))) :=
  (after_take_drop 17 _ X).trans <| (after_take_drop 4 _ _).trans <| (after_take_drop 22 _ _).trans <|
    (after_take_drop 6 _ _).trans <| after_take_drop 22 _ _

/-- Writes a stretch out as the literal list of its operations. -/
local macro "stretch_literal" : tactic =>
  `(tactic| simp only [rPos, rPosRest, rSort, rSortRest, rTake, rTakeRest, rFill, rFillRest, rGather, rCat, kGather, kCat,
      Cert.ReferenceIdeal.Run.ops_head, Cert.KernelIdeal.Gen.hostOps0_7,
      List.take_succ_cons, List.take_zero, List.drop_succ_cons, List.drop_zero])

set_option maxHeartbeats 1000000 in
/-- The masked positions (the position where the squared distance is under the radius squared, 4096 elsewhere) are the
    same function of the two coordinate arrays in both programs. -/
theorem masked_positions_agree (XK : KV F) (XR : RV F)
    (h0 : XR (Proc.devRef .tc Cert.ReferenceIdeal.main_arg0) = XK (Proc.devRef .tc Cert.KernelIdeal.main_arg0)) (h1 : XR (Proc.devRef .tc Cert.ReferenceIdeal.main_arg1) = XK (Proc.devRef .tc Cert.KernelIdeal.main_arg1)) :
    after (rPos (F := F)) XR (Proc.devRef .tc Cert.ReferenceIdeal.main_v11)
      = after Cert.KernelIdeal.Gen.hostOps0_1 (after Cert.KernelIdeal.Gen.hostOps0 XK) (Proc.devRef .tc Cert.KernelIdeal.main_v11) := by
  stretch_literal
  after_results_simp
  rw [h0, h1]

set_option maxHeartbeats 1000000 in
/-- The first 32 entries of the stably sorted masked positions are the same function of the masked positions. -/
theorem first32_agree (XK : KV F) (XR : RV F) (h : XR (Proc.devRef .tc Cert.ReferenceIdeal.main_v11) = XK (Proc.devRef .tc Cert.KernelIdeal.main_v11)) :
    after (rSort (F := F)) XR (Proc.devRef .tc Cert.ReferenceIdeal.main_v13)
      = after Cert.KernelIdeal.Gen.hostOps0_3 (after Cert.KernelIdeal.Gen.hostOps0_2 XK) (Proc.devRef .tc Cert.KernelIdeal.main_v13) := by
  stretch_literal
  after_results_simp
  rw [h]
  rfl

set_option maxHeartbeats 1000000 in
/-- The sort writes no masked position. -/
theorem masked_positions_kept (XK : KV F) (XR : RV F) (h : XR (Proc.devRef .tc Cert.ReferenceIdeal.main_v11) = XK (Proc.devRef .tc Cert.KernelIdeal.main_v11)) :
    after (rSort (F := F)) XR (Proc.devRef .tc Cert.ReferenceIdeal.main_v11)
      = after Cert.KernelIdeal.Gen.hostOps0_3 (after Cert.KernelIdeal.Gen.hostOps0_2 XK) (Proc.devRef .tc Cert.KernelIdeal.main_v11) := by
  stretch_literal
  after_results_simp
  exact h

set_option maxHeartbeats 1000000 in
/-- The masked positions read at the 32 sorted indices are the same function of the indices and the masked positions. -/
theorem taken_agree (XK : KV F) (XR : RV F) (h13 : XR (Proc.devRef .tc Cert.ReferenceIdeal.main_v13) = XK (Proc.devRef .tc Cert.KernelIdeal.main_v13))
    (h11 : XR (Proc.devRef .tc Cert.ReferenceIdeal.main_v11) = XK (Proc.devRef .tc Cert.KernelIdeal.main_v11)) :
    after (rTake (F := F)) XR (Proc.devRef .tc Cert.ReferenceIdeal.main_v14) = after Cert.KernelIdeal.Gen.hostOps0_4 XK (Proc.devRef .tc Cert.KernelIdeal.main_v14) := by
  stretch_literal
  after_results_simp
  rw [h13, h11]
  rfl

set_option maxHeartbeats 1000000 in
/-- Reading at the sorted indices writes none of them. -/
theorem first32_kept (XK : KV F) (XR : RV F) (h : XR (Proc.devRef .tc Cert.ReferenceIdeal.main_v13) = XK (Proc.devRef .tc Cert.KernelIdeal.main_v13)) :
    after (rTake (F := F)) XR (Proc.devRef .tc Cert.ReferenceIdeal.main_v13) = after Cert.KernelIdeal.Gen.hostOps0_4 XK (Proc.devRef .tc Cert.KernelIdeal.main_v13) := by
  stretch_literal
  after_results_simp
  exact h

set_option maxHeartbeats 1000000 in
/-- The 32 neighbour indices (a slot whose masked position is 4096 refilled with the first slot's index) are the same
    function of the read positions and the sorted indices. -/
theorem neighbours_agree (XK : KV F) (XR : RV F) (h14 : XR (Proc.devRef .tc Cert.ReferenceIdeal.main_v14) = XK (Proc.devRef .tc Cert.KernelIdeal.main_v14))
    (h13 : XR (Proc.devRef .tc Cert.ReferenceIdeal.main_v13) = XK (Proc.devRef .tc Cert.KernelIdeal.main_v13)) :
    after (rFill (F := F)) XR (Proc.devRef .tc Cert.ReferenceIdeal.main_v18)
      = after Cert.KernelIdeal.Gen.hostOps0_6 (after Cert.KernelIdeal.Gen.hostOps0_5 XK) (Proc.devRef .tc Cert.KernelIdeal.main_v18) := by
  stretch_literal
  after_results_simp
  rw [h14, h13]

set_option maxHeartbeats 1000000 in
/-- The neighbours' coordinates minus their centre's are the same function of the neighbour indices and the two
    coordinate arrays. -/
theorem recentred_agree (XK : KV F) (XR : RV F) (h18 : XR (Proc.devRef .tc Cert.ReferenceIdeal.main_v18) = XK (Proc.devRef .tc Cert.KernelIdeal.main_v18))
    (h0 : XR (Proc.devRef .tc Cert.ReferenceIdeal.main_arg0) = XK (Proc.devRef .tc Cert.KernelIdeal.main_arg0)) (h1 : XR (Proc.devRef .tc Cert.ReferenceIdeal.main_arg1) = XK (Proc.devRef .tc Cert.KernelIdeal.main_arg1)) :
    after (rGather (F := F)) XR (Proc.devRef .tc Cert.ReferenceIdeal.main_v28) = after (kGather (F := F)) XK (Proc.devRef .tc Cert.KernelIdeal.main_v28) := by
  stretch_literal
  after_results_simp
  rw [h18, h0, h1]
  rfl

set_option maxHeartbeats 1000000 in
/-- The neighbours' features are the same function of the neighbour indices and the feature array. -/
theorem gathered_agree (XK : KV F) (XR : RV F) (h18 : XR (Proc.devRef .tc Cert.ReferenceIdeal.main_v18) = XK (Proc.devRef .tc Cert.KernelIdeal.main_v18))
    (h2 : XR (Proc.devRef .tc Cert.ReferenceIdeal.main_arg2) = XK (Proc.devRef .tc Cert.KernelIdeal.main_arg2)) :
    after (rGather (F := F)) XR (Proc.devRef .tc Cert.ReferenceIdeal.main_v36) = after (kGather (F := F)) XK (Proc.devRef .tc Cert.KernelIdeal.main_v36) := by
  stretch_literal
  after_results_simp
  rw [h18, h2]
  rfl

set_option maxHeartbeats 1000000 in
/-- The feature array is the two along the last axis; the kernel program's two operations after the concatenation
    write other buffers. -/
theorem concatenated_agree (XK : KV F) (XR : RV F) (h28 : XR (Proc.devRef .tc Cert.ReferenceIdeal.main_v28) = XK (Proc.devRef .tc Cert.KernelIdeal.main_v28))
    (h36 : XR (Proc.devRef .tc Cert.ReferenceIdeal.main_v36) = XK (Proc.devRef .tc Cert.KernelIdeal.main_v36)) :
    after (rCat (F := F)) XR (Proc.devRef .tc Cert.ReferenceIdeal.main_v37) = after (kCat (F := F)) XK (Proc.devRef .tc Cert.KernelIdeal.main_v37) := by
  stretch_literal
  after_results
  rw [h28, h36]

/-! No operation before the gathers writes an argument array, in either program. -/

set_option maxHeartbeats 1000000 in
theorem ref_arg0_kept (X : RV F) :
    after (rFill (F := F)) (after (rTake (F := F)) (after (rSort (F := F)) (after (rPos (F := F)) X))) (Proc.devRef .tc Cert.ReferenceIdeal.main_arg0) = X (Proc.devRef .tc Cert.ReferenceIdeal.main_arg0) := by
  stretch_literal
  after_results_simp
set_option maxHeartbeats 1000000 in
theorem ker_arg0_kept (X : KV F) :
    after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 X)))))) (Proc.devRef .tc Cert.KernelIdeal.main_arg0) = X (Proc.devRef .tc Cert.KernelIdeal.main_arg0) := by
  after_results_simp
set_option maxHeartbeats 1000000 in
theorem ref_arg1_kept (X : RV F) :
    after (rFill (F := F)) (after (rTake (F := F)) (after (rSort (F := F)) (after (rPos (F := F)) X))) (Proc.devRef .tc Cert.ReferenceIdeal.main_arg1) = X (Proc.devRef .tc Cert.ReferenceIdeal.main_arg1) := by
  stretch_literal
  after_results_simp
set_option maxHeartbeats 1000000 in
theorem ker_arg1_kept (X : KV F) :
    after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 X)))))) (Proc.devRef .tc Cert.KernelIdeal.main_arg1) = X (Proc.devRef .tc Cert.KernelIdeal.main_arg1) := by
  after_results_simp
set_option maxHeartbeats 1000000 in
theorem ref_arg2_kept (X : RV F) :
    after (rFill (F := F)) (after (rTake (F := F)) (after (rSort (F := F)) (after (rPos (F := F)) X))) (Proc.devRef .tc Cert.ReferenceIdeal.main_arg2) = X (Proc.devRef .tc Cert.ReferenceIdeal.main_arg2) := by
  stretch_literal
  after_results_simp
set_option maxHeartbeats 1000000 in
theorem ker_arg2_kept (X : KV F) :
    after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 X)))))) (Proc.devRef .tc Cert.KernelIdeal.main_arg2) = X (Proc.devRef .tc Cert.KernelIdeal.main_arg2) := by
  after_results_simp

end Stages

/-- From launch memories that agree on the three point-cloud arguments, the reference's feature array after its gathering
    operations is the kernel program's when its first region is entered. -/
theorem feat_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    after (Cert.ReferenceIdeal.Run.ops_head (F := Ideal)) (launchContents m' c) (Proc.devRef .tc Cert.ReferenceIdeal.main_v37)
      = Cert.KernelIdeal.Gen.W8 (F := Ideal) m ρ c (Proc.devRef .tc Cert.KernelIdeal.main_v37) := by
  have e0 : (launchContents m' c : RV Ideal) (Proc.devRef .tc Cert.ReferenceIdeal.main_arg0) = Cert.KernelIdeal.Gen.W0 (F := Ideal) m ρ c (Proc.devRef .tc Cert.KernelIdeal.main_arg0) := h0
  have e1 : (launchContents m' c : RV Ideal) (Proc.devRef .tc Cert.ReferenceIdeal.main_arg1) = Cert.KernelIdeal.Gen.W0 (F := Ideal) m ρ c (Proc.devRef .tc Cert.KernelIdeal.main_arg1) := h1
  have e2 : (launchContents m' c : RV Ideal) (Proc.devRef .tc Cert.ReferenceIdeal.main_arg2) = Cert.KernelIdeal.Gen.W0 (F := Ideal) m ρ c (Proc.devRef .tc Cert.KernelIdeal.main_arg2) := h2
  have p11 := masked_positions_agree (F := Ideal) _ _ e0 e1
  have p13 := first32_agree (F := Ideal) _ _ p11
  have p14 := taken_agree (F := Ideal) _ _ p13 (masked_positions_kept (F := Ideal) _ _ p11)
  have p18 := neighbours_agree (F := Ideal) _ _ p14 (first32_kept (F := Ideal) _ _ p13)
  have a0 := (ref_arg0_kept (F := Ideal) _).trans (e0.trans (ker_arg0_kept (F := Ideal) _).symm)
  have a1 := (ref_arg1_kept (F := Ideal) _).trans (e1.trans (ker_arg1_kept (F := Ideal) _).symm)
  have a2 := (ref_arg2_kept (F := Ideal) _).trans (e2.trans (ker_arg2_kept (F := Ideal) _).symm)
  have p37 := concatenated_agree (F := Ideal) _ _ (recentred_agree (F := Ideal) _ _ p18 a0 a1)
    (gathered_agree (F := Ideal) _ _ p18 a2)
  exact (congrFun (gather_in_stretches (F := Ideal) (launchContents m' c)) _).trans
    (p37.trans (congrFun (after_take_drop 22 (Cert.KernelIdeal.Gen.hostOps0_7 (F := Ideal)) (Cert.KernelIdeal.Gen.W7 (F := Ideal) m ρ c)) _).symm)

end Cert.Head

end
-- ==== Proof.BridgeMM.lean ====
/- The channel contraction is the same sum on both sides: the four-axis contraction at sample (b, m, k) is the sample-major
   product at row `tok b m k`, the weights read transposed. -/
import proofs.«128494_j5145370821372_1_alg».proof.Proof.Spec
import proofs.«128494_j5145370821372_1_alg».proof.Proof.KTerm
import proofs.«128494_j5145370821372_1_alg».proof.Proof.RTerm
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx Cert.SA
open Cert.KernelIdeal (KTerm.y0 KTerm.mean64 KTerm.var64 KTerm.row64 KTerm.mean128 KTerm.var128 KTerm.row128 KTerm.layer64 KTerm.layer128 KTerm.pooled KTerm.out)
open Cert.ReferenceIdeal (RTerm.Y0 RTerm.mean64 RTerm.var64 RTerm.act64 RTerm.mean128 RTerm.var128 RTerm.act128 RTerm.layer64 RTerm.layer128 RTerm.pooled RTerm.out)
open scoped BigOperators

variable [Cert.KernelIdeal.Facts] [Cert.ReferenceIdeal.Facts]

/-- A contraction of the last axis of a four-axis array with the second axis of a matrix, the three leading axes kept and
    the matrix's first axis appended: at (b, m, k, o) it is the sum over the contracted coordinate c of the array's entry
    (b, m, k, c) times the matrix's entry (o, c). The contraction's index set has one axis, so the sum over it is the sum
    over that axis's coordinate; on each operand the kept axes read the result's coordinates and the contracted axis
    reads c. -/
theorem dotLast_apply {A B C K O : Nat} {φ₁ φ₂ : FTy}
    (w : DotDims.WF ⟨4, ![A, B, C, K]⟩ ⟨2, ![O, K]⟩ ⟨4, ![A, B, C, O]⟩ [3] [1] [0, 1, 2] [0] [] [])
    (prec : Option ContractPrecision) (H : FVec Ideal ⟨4, ![A, B, C, K]⟩ φ₁) (W : FVec Ideal ⟨2, ![O, K]⟩ φ₂)
    (b : Fin A) (m : Fin B) (k : Fin C) (o : Fin O) :
    Host.dotGeneral (⟨[3], [1], [0, 1, 2], [0], [], [], w⟩ : DotDims _ _ _) prec H W (ix4 b m k o)
      = ∑ c : Fin K, H (ix4 b m k c) * W (ix2 o c) := by
  show FloatOps.dotGeneral _ prec _ H W (ix4 b m k o) = _
  rw [Ideal.dotGeneral_apply,
    ← Equiv.sum_comp (contrEquiv1 (⟨[3], [1], [0, 1, 2], [0], [], [], w⟩ : DotDims _ _ _) K rfl rfl).symm]
  refine Finset.sum_congr rfl fun c _ => ?_
  have hc := contrEquiv1_symm_val
    (⟨[3], [1], [0, 1, 2], [0], [], [], w⟩ : DotDims ⟨4, ![A, B, C, K]⟩ ⟨2, ![O, K]⟩ ⟨4, ![A, B, C, O]⟩) K rfl rfl c
  have hl : (⟨[3], [1], [0, 1, 2], [0], [], [], w⟩ : DotDims ⟨4, ![A, B, C, K]⟩ ⟨2, ![O, K]⟩ ⟨4, ![A, B, C, O]⟩).lhsIdx (ix4 b m k o)
      ((contrEquiv1 _ K rfl rfl).symm c) = ix4 b m k c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact hc
  have hr : (⟨[3], [1], [0, 1, 2], [0], [], [], w⟩ : DotDims ⟨4, ![A, B, C, K]⟩ ⟨2, ![O, K]⟩ ⟨4, ![A, B, C, O]⟩).rhsIdx (ix4 b m k o)
      ((contrEquiv1 _ K rfl rfl).symm c) = ix2 o c := by
    funext ax; apply Fin.ext
    match ax with
    | ⟨0, _⟩ => simp [DotDims.rhsIdx]; rfl
    | ⟨1, _⟩ => simp [DotDims.rhsIdx]; exact hc
  rw [hl, hr]

/-- The feature array flattened to one row per sample, read at (tok b m k, c), is the feature array at (b, m, k, c): the
    two indices have the same row-major position ((b · 1024 + m) · 32 + k) · 67 + c. -/
theorem x0_apply (feat : FVec Ideal ⟨4, ![16, 1024, 32, 67]⟩ .f32) (b : Fin 16) (m : Fin 1024) (k : Fin 32) (c : Fin 67) :
    Cert.KernelIdeal.KTerm.x0 feat (ix2 (tok b m k) c) = feat (ix4 b m k c) := by
  unfold Cert.KernelIdeal.KTerm.x0
  refine shapeCast_apply feat _ _ _ ?_
  rw [Shape.rowMajor_val_four, Shape.rowMajor_val_two]
  rfl

/-- The first weight matrix transposed (64 × 67 to 67 × 64), read at (c, o). -/
theorem wT67_apply (W : FVec Ideal ⟨2, ![64, 67]⟩ .f32) (c : Fin 67) (o : Fin 64) :
    transpose Cert.KernelIdeal.S67x64 [1, 0] W Cert.KernelIdeal.Facts₀.transposes_S64x67_S67x64_1_0 (ix2 c o) = W (ix2 o c) :=
  transpose_ix2_apply W _ c o

/-- Layer 0: the reference's contraction of the feature array and the kernel's product of the flattened feature array
    hold the same entries. -/
theorem y0_rel (feat : FVec Ideal ⟨4, ![16, 1024, 32, 67]⟩ .f32) (W0 : FVec Ideal ⟨2, ![64, 67]⟩ .f32) :
    Rel4 (RTerm.Y0 feat W0) (KTerm.y0 feat W0) := by
  intro b m k o
  have hR : RTerm.Y0 feat W0 (ix4 b m k o) = ∑ c : Fin 67, feat (ix4 b m k c) * W0 (ix2 o c) :=
    dotLast_apply _ none feat W0 b m k o
  have hK : KTerm.y0 feat W0 (ix2 (tok b m k) o)
      = ∑ c : Fin 67, Cert.KernelIdeal.KTerm.x0 feat (ix2 (tok b m k) c)
          * transpose Cert.KernelIdeal.S67x64 [1, 0] W0 Cert.KernelIdeal.Facts₀.transposes_S64x67_S67x64_1_0 (ix2 c o) := rfl
  rw [hR, hK]
  refine Finset.sum_congr rfl fun c _ => ?_
  rw [x0_apply, wT67_apply]

/-- A contraction of the channel axis (64 in, 64 out) of a four-axis array `H`, read at sample (b, m, k) and channel o:
    the sum over the input channels of `H` times the weight row `o`. -/
theorem dot64_apply (H : FVec Ideal ⟨4, ![16, 1024, 32, 64]⟩ .f32) (W : FVec Ideal ⟨2, ![64, 64]⟩ .f32)
    (b : Fin 16) (m : Fin 1024) (k : Fin 32) (o : Fin 64) :
    Host.dotGeneral Cert.ReferenceIdeal.dot_S16x1024x32x64_S64x64_S16x1024x32x64_3_1_012_0_n_n none H W (ix4 b m k o)
      = ∑ c : Fin 64, H (ix4 b m k c) * W (ix2 o c) :=
  dotLast_apply _ none H W b m k o

/-- The same with 128 output channels. -/
theorem dot128_apply (H : FVec Ideal ⟨4, ![16, 1024, 32, 64]⟩ .f32) (W : FVec Ideal ⟨2, ![128, 64]⟩ .f32)
    (b : Fin 16) (m : Fin 1024) (k : Fin 32) (o : Fin 128) :
    Host.dotGeneral Cert.ReferenceIdeal.dot_S16x1024x32x64_S128x64_S16x1024x32x128_3_1_012_0_n_n none H W (ix4 b m k o)
      = ∑ c : Fin 64, H (ix4 b m k c) * W (ix2 o c) :=
  dotLast_apply _ none H W b m k o

/-- A weight matrix transposed (64 × 64), read at (c, o). -/
theorem wT64_apply (W : FVec Ideal ⟨2, ![64, 64]⟩ .f32) (c o : Fin 64) :
    transpose Cert.KernelIdeal.S64x64 [1, 0] W Cert.KernelIdeal.Facts₀.transposes_S64x64_S64x64_1_0 (ix2 c o) = W (ix2 o c) :=
  transpose_ix2_apply W _ c o

/-- A weight matrix transposed (128 × 64 to 64 × 128), read at (c, o). -/
theorem wT128_apply (W : FVec Ideal ⟨2, ![128, 64]⟩ .f32) (c : Fin 64) (o : Fin 128) :
    transpose Cert.KernelIdeal.S64x128 [1, 0] W Cert.KernelIdeal.Facts₀.transposes_S128x64_S64x128_1_0 (ix2 c o) = W (ix2 o c) :=
  transpose_ix2_apply W _ c o

end Cert.Bridge

end
-- ==== Proof.BridgeStats.lean ====
/- The per-channel mean and variance are the same numbers on both sides: a sum over the 524288 rows of the sample-major
   array is the sum over (batch, query, neighbour) of the four-axis array, the samples being the same set. -/
import proofs.«128494_j5145370821372_1_alg».proof.Proof.Spec
import proofs.«128494_j5145370821372_1_alg».proof.Proof.KTerm
import proofs.«128494_j5145370821372_1_alg».proof.Proof.RTerm
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.Bridge

open Idealize.ShloMosaic Idealize.ShloMosaic.ValueIdx Cert.SA
open Cert.KernelIdeal (KTerm.y0 KTerm.mean64 KTerm.var64 KTerm.row64 KTerm.mean128 KTerm.var128 KTerm.row128 KTerm.layer64 KTerm.layer128 KTerm.pooled KTerm.out)
open Cert.ReferenceIdeal (RTerm.Y0 RTerm.mean64 RTerm.var64 RTerm.act64 RTerm.mean128 RTerm.var128 RTerm.act128 RTerm.layer64 RTerm.layer128 RTerm.pooled RTerm.out)
open scoped BigOperators

variable [Cert.KernelIdeal.Facts] [Cert.ReferenceIdeal.Facts]

/-! ## Sums over the samples, for any channel count -/

/-- The samples (b, m, k) and their row-major positions are in bijection. -/
def tokEquiv : Fin 16 × Fin 1024 × Fin 32 ≃ Fin 524288 where
  toFun p := tok p.1 p.2.1 p.2.2
  invFun t := (⟨t.val / 32768, by have := t.isLt; omega⟩, ⟨t.val / 32 % 1024, by omega⟩, ⟨t.val % 32, by omega⟩)
  left_inv p := by
    obtain ⟨b, m, k⟩ := p
    have hb := b.isLt; have hm := m.isLt; have hk := k.isLt
    refine Prod.ext (Fin.ext ?_) (Prod.ext (Fin.ext ?_) (Fin.ext ?_))
    · show ((b.val * 1024 + m.val) * 32 + k.val) / 32768 = b.val
      omega
    · show ((b.val * 1024 + m.val) * 32 + k.val) / 32 % 1024 = m.val
      omega
    · show ((b.val * 1024 + m.val) * 32 + k.val) % 32 = k.val
      omega
  right_inv t := by
    refine Fin.ext ?_
    show (t.val / 32768 * 1024 + t.val / 32 % 1024) * 32 + t.val % 32 = t.val
    omega

/-- A sum over all sample positions is the triple sum over batch, query and neighbour. -/
theorem sum_tok (f : Fin 524288 → EReal) :
    ∑ t : Fin 524288, f t = ∑ p : Fin 16 × Fin 1024 × Fin 32, f (tok p.1 p.2.1 p.2.2) :=
  (Equiv.sum_comp tokEquiv f).symm

/-- Dropping the three leading axes of a four-axis index leaves channel c exactly when its last coordinate is c. -/
theorem drop4_eq_iff {C : Nat} (hR : (⟨4, ![16, 1024, 32, C]⟩ : Shape).ReducesTo [0, 1, 2] ⟨1, ![C]⟩)
    (i : (⟨4, ![16, 1024, 32, C]⟩ : Shape).Idx) (c : Fin C) : hR.drop i = ix1 c ↔ (i 3).val = c.val := by
  constructor
  · intro e
    have e0 : (hR.drop i 0).val = (ix1 c (0 : Fin 1)).val := congrArg Fin.val (congrFun e 0)
    rw [Shape.ReducesTo.drop_apply_val_of_eq hR i 0 3 Nat.zero_lt_one rfl] at e0
    exact e0
  · intro e
    funext b
    have hb : b = 0 := Subsingleton.elim _ _
    subst hb
    refine Fin.ext ?_
    rw [Shape.ReducesTo.drop_apply_val_of_eq hR i 0 3 Nat.zero_lt_one rfl]
    exact e

/-- Dropping the leading axis of a two-axis index leaves channel c exactly when its last coordinate is c. -/
theorem drop2_eq_iff {C : Nat} (hK : (⟨2, ![524288, C]⟩ : Shape).ReducesTo [0] ⟨1, ![C]⟩)
    (i : (⟨2, ![524288, C]⟩ : Shape).Idx) (c : Fin C) : hK.drop i = ix1 c ↔ (i 1).val = c.val := by
  constructor
  · intro e
    have e0 : (hK.drop i 0).val = (ix1 c (0 : Fin 1)).val := congrArg Fin.val (congrFun e 0)
    rw [Shape.ReducesTo.drop_apply_val_of_eq hK i 0 1 Nat.zero_lt_one rfl] at e0
    exact e0
  · intro e
    funext b
    have hb : b = 0 := Subsingleton.elim _ _
    subst hb
    refine Fin.ext ?_
    rw [Shape.ReducesTo.drop_apply_val_of_eq hK i 0 1 Nat.zero_lt_one rfl]
    exact e

/-- The entries of a four-axis array that drop to channel c, summed, are the triple sum over batch, query and neighbour at c. -/
theorem sum_filter_drop4 {C : Nat} (hR : (⟨4, ![16, 1024, 32, C]⟩ : Shape).ReducesTo [0, 1, 2] ⟨1, ![C]⟩)
    (X : (⟨4, ![16, 1024, 32, C]⟩ : Shape).Idx → EReal) (c : Fin C) :
    ∑ i ∈ Finset.univ.filter (fun i => hR.drop i = ix1 c), X i
      = ∑ p : Fin 16 × Fin 1024 × Fin 32, X (ix4 p.1 p.2.1 p.2.2 c) := by
  refine Finset.sum_nbij' (s := Finset.univ.filter (fun i => hR.drop i = ix1 c)) (t := Finset.univ)
    (fun i => ((⟨(i 0).val, (i 0).isLt⟩ : Fin 16), (⟨(i 1).val, (i 1).isLt⟩ : Fin 1024), (⟨(i 2).val, (i 2).isLt⟩ : Fin 32)))
    (fun p => ix4 p.1 p.2.1 p.2.2 c) ?_ ?_ ?_ ?_ ?_
  · intro i _; exact Finset.mem_univ _
  · intro p _
    rw [Finset.mem_filter]
    exact ⟨Finset.mem_univ _, (drop4_eq_iff hR _ c).mpr rfl⟩
  · intro i hi
    rw [Finset.mem_filter] at hi
    have h3 : (i 3).val = c.val := (drop4_eq_iff hR i c).mp hi.2
    funext a
    match a with
    | ⟨0, _⟩ => rfl
    | ⟨1, _⟩ => rfl
    | ⟨2, _⟩ => rfl
    | ⟨3, _⟩ => exact Fin.ext h3.symm
  · intro p _; rfl
  · intro i hi
    rw [Finset.mem_filter] at hi
    have h3 : (i 3).val = c.val := (drop4_eq_iff hR i c).mp hi.2
    refine congrArg X ?_
    funext a
    match a with
    | ⟨0, _⟩ => rfl
    | ⟨1, _⟩ => rfl
    | ⟨2, _⟩ => rfl
    | ⟨3, _⟩ => exact Fin.ext h3

/-- The entries of a two-axis array that drop to channel c, summed, are the sum down column c. -/
theorem sum_filter_drop2 {C : Nat} (hK : (⟨2, ![524288, C]⟩ : Shape).ReducesTo [0] ⟨1, ![C]⟩)
    (x : (⟨2, ![524288, C]⟩ : Shape).Idx → EReal) (c : Fin C) :
    ∑ i ∈ Finset.univ.filter (fun i => hK.drop i = ix1 c), x i = ∑ t : Fin 524288, x (ix2 t c) := by
  refine Finset.sum_nbij' (s := Finset.univ.filter (fun i => hK.drop i = ix1 c)) (t := Finset.univ)
    (fun i => (⟨(i 0).val, (i 0).isLt⟩ : Fin 524288))
    (fun t => ix2 t c) ?_ ?_ ?_ ?_ ?_
  · intro i _; exact Finset.mem_univ _
  · intro t _
    rw [Finset.mem_filter]
    exact ⟨Finset.mem_univ _, (drop2_eq_iff hK _ c).mpr rfl⟩
  · intro i hi
    rw [Finset.mem_filter] at hi
    have h1 : (i 1).val = c.val := (drop2_eq_iff hK i c).mp hi.2
    funext a
    match a with
    | ⟨0, _⟩ => rfl
    | ⟨1, _⟩ => exact Fin.ext h1.symm
  · intro t _; rfl
  · intro i hi
    rw [Finset.mem_filter] at hi
    have h1 : (i 1).val = c.val := (drop2_eq_iff hK i c).mp hi.2
    refine congrArg x ?_
    funext a
    match a with
    | ⟨0, _⟩ => rfl
    | ⟨1, _⟩ => exact Fin.ext h1

/-- When the four-axis and the sample-major arrays hold the same entries, the host's sums over the samples agree channel by channel. -/
theorem reduce_rel {C : Nat} (hR : (⟨4, ![16, 1024, 32, C]⟩ : Shape).ReducesTo [0, 1, 2] ⟨1, ![C]⟩)
    (hK : (⟨2, ![524288, C]⟩ : Shape).ReducesTo [0] ⟨1, ![C]⟩)
    (X : (⟨4, ![16, 1024, 32, C]⟩ : Shape).Idx → EReal) (x : (⟨2, ![524288, C]⟩ : Shape).Idx → EReal)
    (hx : ∀ (b : Fin 16) (m : Fin 1024) (k : Fin 32) (c : Fin C), X (ix4 b m k c) = x (ix2 (tok b m k) c))
    (init : EReal) (c : Fin C) :
    Ideal.hostReduceAdd hR X init (ix1 c) = Ideal.hostReduceAdd hK x init (ix1 c) := by
  unfold Ideal.hostReduceAdd
  rw [sum_filter_drop4 hR X c, sum_filter_drop2 hK x c, sum_tok (fun t => x (ix2 t c))]
  exact congrArg (init + ·) (Finset.sum_congr rfl fun p _ => hx p.1 p.2.1 p.2.2 c)

/-! ## Broadcasts read at an index, for any channel count -/

/-- A per-channel vector given three leading unit axes reads, at channel c, the vector at c. -/
theorem up_apply {α : Type} {C : Nat} (h : (⟨1, ![C]⟩ : Shape).BroadcastsInDim ⟨4, ![1, 1, 1, C]⟩ ![3])
    (v : (⟨1, ![C]⟩ : Shape).Idx → α) (u0 u1 u2 : Fin 1) (c : Fin C) :
    broadcastInDim ⟨4, ![1, 1, 1, C]⟩ ![3] h v (ix4 u0 u1 u2 c) = v (ix1 c) := by
  refine broadcastInDim_apply _ h v _ (ix1 c) ?_
  intro a
  have ha : a = 0 := Subsingleton.elim _ _
  subst ha
  have hc := c.isLt
  split_ifs with h1
  · have h1' : C = 1 := h1
    show c.val = 0
    omega
  · rfl

/-- A per-channel row with three unit axes spread over every sample reads, at (b, m, k, c), the row at c. -/
theorem all_apply {α : Type} {C : Nat} (h : (⟨4, ![1, 1, 1, C]⟩ : Shape).BroadcastsInDim ⟨4, ![16, 1024, 32, C]⟩ ![0, 1, 2, 3])
    (v : (⟨4, ![1, 1, 1, C]⟩ : Shape).Idx → α) (b : Fin 16) (m : Fin 1024) (k : Fin 32) (c : Fin C) :
    broadcastInDim ⟨4, ![16, 1024, 32, C]⟩ ![0, 1, 2, 3] h v (ix4 b m k c) = v (ix4 0 0 0 c) := by
  refine broadcastInDim_apply _ h v _ (ix4 0 0 0 c) ?_
  intro a
  have hc := c.isLt
  match a with
  | ⟨0, _⟩ => rfl
  | ⟨1, _⟩ => rfl
  | ⟨2, _⟩ => rfl
  | ⟨3, _⟩ =>
    split_ifs with h1
    · have h1' : C = 1 := h1
      show c.val = 0
      omega
    · rfl

/-- A per-channel vector as a one-row matrix reads, at (0, c), the vector at c. -/
theorem asRow_apply {α : Type} {C : Nat} (h : (⟨1, ![C]⟩ : Shape).BroadcastsInDim ⟨2, ![1, C]⟩ ![1])
    (v : (⟨1, ![C]⟩ : Shape).Idx → α) (u : Fin 1) (c : Fin C) :
    broadcastInDim ⟨2, ![1, C]⟩ ![1] h v (ix2 u c) = v (ix1 c) := by
  refine broadcastInDim_apply _ h v _ (ix1 c) ?_
  intro a
  have ha : a = 0 := Subsingleton.elim _ _
  subst ha
  have hc := c.isLt
  split_ifs with h1
  · have h1' : C = 1 := h1
    show c.val = 0
    omega
  · rfl

/-- A one-row matrix copied down every sample reads, at (t, c), the row at c. -/
theorem everyRow_apply {α : Type} {C : Nat} (h : (⟨2, ![1, C]⟩ : Shape).BroadcastsInDim ⟨2, ![524288, C]⟩ ![0, 1])
    (v : (⟨2, ![1, C]⟩ : Shape).Idx → α) (t : Fin 524288) (c : Fin C) :
    broadcastInDim ⟨2, ![524288, C]⟩ ![0, 1] h v (ix2 t c) = v (ix2 0 c) := by
  refine broadcastInDim_apply _ h v _ (ix2 0 c) ?_
  intro a
  have hc := c.isLt
  match a with
  | ⟨0, _⟩ => rfl
  | ⟨1, _⟩ =>
    split_ifs with h1
    · have h1' : C = 1 := h1
      show c.val = 0
      omega
    · rfl

/-! ## 64 channels -/

/-- The reference's mean at channel c: the host's sum over the three leading axes, divided by the count. -/
theorem rmean64_apply (Y : FVec Ideal ⟨4, ![16, 1024, 32, 64]⟩ .f32) (c : Fin 64) :
    RTerm.mean64 Y (ix4 0 0 0 c)
      = Ideal.div (Ideal.hostReduceAdd ReferenceIdeal.Facts₀.reducesTo_S16x1024x32x64_S64_d0_1_2 Y (Ideal.ofBits .f32 0x00000000#32) (ix1 c))
          (Ideal.ofBits .f32 0x49000000#32) := by
  unfold RTerm.mean64 ReferenceIdeal.RTerm.up64
  rw [hostDivf_apply, up_apply, broadcastInDim_scalar_apply, hostReduceAdd_apply]
  rfl

/-- The kernel's mean row at channel c: the host's sum down the column, divided by the count. -/
theorem kmean64_apply (y : FVec Ideal ⟨2, ![524288, 64]⟩ .f32) (c : Fin 64) :
    KTerm.row64 (KTerm.mean64 y) (ix2 0 c)
      = Ideal.div (Ideal.hostReduceAdd KernelIdeal.Facts₀.reducesTo_S524288x64_S64_d0 y (Ideal.ofBits .f32 0x00000000#32) (ix1 c))
          (Ideal.ofBits .f32 0x49000000#32) := by
  unfold KTerm.row64 KTerm.mean64
  rw [shapeCast_a_1a_apply, hostDivf_apply, broadcastInDim_scalar_apply, hostReduceAdd_apply]
  rfl

/-- 64 channels: the reference's kept-axes mean at channel c is the kernel's mean row at c. -/
theorem mean64_rel (Y : FVec Ideal ⟨4, ![16, 1024, 32, 64]⟩ .f32) (y : FVec Ideal ⟨2, ![524288, 64]⟩ .f32) (h : Rel4 Y y) (c : Fin 64) :
    RTerm.mean64 Y (ix4 0 0 0 c) = KTerm.row64 (KTerm.mean64 y) (ix2 0 c) := by
  rw [rmean64_apply, kmean64_apply]
  exact congrArg (fun z => Ideal.div z (Ideal.ofBits .f32 0x49000000#32)) (reduce_rel _ _ Y y h _ c)

/-- The reference's deviation at (b, m, k, c): the entry less the mean at c. -/
theorem rctr64_apply (Y : FVec Ideal ⟨4, ![16, 1024, 32, 64]⟩ .f32) (b : Fin 16) (m : Fin 1024) (k : Fin 32) (c : Fin 64) :
    ReferenceIdeal.RTerm.ctr64 Y (ix4 b m k c) = Y (ix4 b m k c) - RTerm.mean64 Y (ix4 0 0 0 c) := by
  unfold ReferenceIdeal.RTerm.ctr64 ReferenceIdeal.RTerm.all64
  rw [subf_apply, all_apply]
  rfl

/-- The kernel's deviation at (t, c): the entry less the mean row at c. -/
theorem kctr64_apply (y : FVec Ideal ⟨2, ![524288, 64]⟩ .f32) (t : Fin 524288) (c : Fin 64) :
    KernelIdeal.KTerm.ctr64 y (ix2 t c) = y (ix2 t c) - KTerm.row64 (KTerm.mean64 y) (ix2 0 c) := by
  rw [kmean64_apply]
  unfold KernelIdeal.KTerm.ctr64
  rw [subf_apply, everyRow_apply, hostDivf_apply, asRow_apply, broadcastInDim_scalar_apply, hostReduceAdd_apply]
  rfl

/-- The squared deviations are the same entries on both sides. -/
theorem sq64_rel (Y : FVec Ideal ⟨4, ![16, 1024, 32, 64]⟩ .f32) (y : FVec Ideal ⟨2, ![524288, 64]⟩ .f32) (h : Rel4 Y y)
    (b : Fin 16) (m : Fin 1024) (k : Fin 32) (c : Fin 64) :
    mulf (ReferenceIdeal.RTerm.ctr64 Y) (ReferenceIdeal.RTerm.ctr64 Y) (ix4 b m k c)
      = mulf (KernelIdeal.KTerm.ctr64 y) (KernelIdeal.KTerm.ctr64 y) (ix2 (tok b m k) c) := by
  rw [mulf_apply, mulf_apply, rctr64_apply, kctr64_apply, mean64_rel Y y h c, h b m k c]

/-- 64 channels: the variances likewise. -/
theorem var64_rel (Y : FVec Ideal ⟨4, ![16, 1024, 32, 64]⟩ .f32) (y : FVec Ideal ⟨2, ![524288, 64]⟩ .f32) (h : Rel4 Y y) (c : Fin 64) :
    RTerm.var64 Y (ix4 0 0 0 c) = KTerm.row64 (KTerm.var64 y) (ix2 0 c) := by
  unfold RTerm.var64 KTerm.row64 KTerm.var64 ReferenceIdeal.RTerm.up64
  rw [shapeCast_a_1a_apply, select_apply, select_apply, hostDivf_apply, hostDivf_apply, up_apply,
    hostReduceAdd_apply, hostReduceAdd_apply, reduce_rel _ KernelIdeal.Facts₀.reducesTo_S524288x64_S64_d0 _ _ (sq64_rel Y y h) _ c]
  simp only [broadcastInDim_scalar_apply]
  rfl

/-! ## 128 channels -/

/-- The reference's mean at channel c: the host's sum over the three leading axes, divided by the count. -/
theorem rmean128_apply (Y : FVec Ideal ⟨4, ![16, 1024, 32, 128]⟩ .f32) (c : Fin 128) :
    RTerm.mean128 Y (ix4 0 0 0 c)
      = Ideal.div (Ideal.hostReduceAdd ReferenceIdeal.Facts₀.reducesTo_S16x1024x32x128_S128_d0_1_2 Y (Ideal.ofBits .f32 0x00000000#32) (ix1 c))
          (Ideal.ofBits .f32 0x49000000#32) := by
  unfold RTerm.mean128 ReferenceIdeal.RTerm.up128
  rw [hostDivf_apply, up_apply, broadcastInDim_scalar_apply, hostReduceAdd_apply]
  rfl

/-- The kernel's mean row at channel c: the host's sum down the column, divided by the count. -/
theorem kmean128_apply (y : FVec Ideal ⟨2, ![524288, 128]⟩ .f32) (c : Fin 128) :
    KTerm.row128 (KTerm.mean128 y) (ix2 0 c)
      = Ideal.div (Ideal.hostReduceAdd KernelIdeal.Facts₀.reducesTo_S524288x128_S128_d0 y (Ideal.ofBits .f32 0x00000000#32) (ix1 c))
          (Ideal.ofBits .f32 0x49000000#32) := by
  unfold KTerm.row128 KTerm.mean128
  rw [shapeCast_a_1a_apply, hostDivf_apply, broadcastInDim_scalar_apply, hostReduceAdd_apply]
  rfl

/-- 128 channels: the means. -/
theorem mean128_rel (Y : FVec Ideal ⟨4, ![16, 1024, 32, 128]⟩ .f32) (y : FVec Ideal ⟨2, ![524288, 128]⟩ .f32) (h : Rel4 Y y) (c : Fin 128) :
    RTerm.mean128 Y (ix4 0 0 0 c) = KTerm.row128 (KTerm.mean128 y) (ix2 0 c) := by
  rw [rmean128_apply, kmean128_apply]
  exact congrArg (fun z => Ideal.div z (Ideal.ofBits .f32 0x49000000#32)) (reduce_rel _ _ Y y h _ c)

/-- The reference's deviation at (b, m, k, c): the entry less the mean at c. -/
theorem rctr128_apply (Y : FVec Ideal ⟨4, ![16, 1024, 32, 128]⟩ .f32) (b : Fin 16) (m : Fin 1024) (k : Fin 32) (c : Fin 128) :
    ReferenceIdeal.RTerm.ctr128 Y (ix4 b m k c) = Y (ix4 b m k c) - RTerm.mean128 Y (ix4 0 0 0 c) := by
  unfold ReferenceIdeal.RTerm.ctr128 ReferenceIdeal.RTerm.all128
  rw [subf_apply, all_apply]
  rfl

/-- The kernel's deviation at (t, c): the entry less the mean row at c. -/
theorem kctr128_apply (y : FVec Ideal ⟨2, ![524288, 128]⟩ .f32) (t : Fin 524288) (c : Fin 128) :
    KernelIdeal.KTerm.ctr128 y (ix2 t c) = y (ix2 t c) - KTerm.row128 (KTerm.mean128 y) (ix2 0 c) := by
  rw [kmean128_apply]
  unfold KernelIdeal.KTerm.ctr128
  rw [subf_apply, everyRow_apply, hostDivf_apply, asRow_apply, broadcastInDim_scalar_apply, hostReduceAdd_apply]
  rfl

/-- The squared deviations are the same entries on both sides. -/
theorem sq128_rel (Y : FVec Ideal ⟨4, ![16, 1024, 32, 128]⟩ .f32) (y : FVec Ideal ⟨2, ![524288, 128]⟩ .f32) (h : Rel4 Y y)
    (b : Fin 16) (m : Fin 1024) (k : Fin 32) (c : Fin 128) :
    mulf (ReferenceIdeal.RTerm.ctr128 Y) (ReferenceIdeal.RTerm.ctr128 Y) (ix4 b m k c)
      = mulf (KernelIdeal.KTerm.ctr128 y) (KernelIdeal.KTerm.ctr128 y) (ix2 (tok b m k) c) := by
  rw [mulf_apply, mulf_apply, rctr128_apply, kctr128_apply, mean128_rel Y y h c, h b m k c]

/-- 128 channels: the variances. -/
theorem var128_rel (Y : FVec Ideal ⟨4, ![16, 1024, 32, 128]⟩ .f32) (y : FVec Ideal ⟨2, ![524288, 128]⟩ .f32) (h : Rel4 Y y) (c : Fin 128) :
    RTerm.var128 Y (ix4 0 0 0 c) = KTerm.row128 (KTerm.var128 y) (ix2 0 c) := by
  unfold RTerm.var128 KTerm.row128 KTerm.var128 ReferenceIdeal.RTerm.up128
  rw [shapeCast_a_1a_apply, select_apply, select_apply, hostDivf_apply, hostDivf_apply, up_apply,
    hostReduceAdd_apply, hostReduceAdd_apply, reduce_rel _ KernelIdeal.Facts₀.reducesTo_S524288x128_S128_d0 _ _ (sq128_rel Y y h) _ c]
  simp only [broadcastInDim_scalar_apply]
  rfl

end Cert.Bridge

end
-- ==== Proof.BridgeAct.lean ====
/- Normalisation, scale, shift and rectification act entry by entry with per-channel numbers that agree on both sides,
   so the rectified arrays hold the same entries; contracting the channels then gives the next layer on both sides. -/
import proofs.«128494_j5145370821372_1_alg».proof.Proof.Spec
import proofs.«128494_j5145370821372_1_alg».proof.Proof.KTerm
import proofs.«128494_j5145370821372_1_alg».proof.Proof.RTerm
import proofs.«128494_j5145370821372_1_alg».proof.Proof.BridgeMM
import proofs.«128494_j5145370821372_1_alg».proof.Proof.BridgeStats
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx Cert.SA
open Cert.KernelIdeal (KTerm.y0 KTerm.mean64 KTerm.var64 KTerm.row64 KTerm.mean128 KTerm.var128 KTerm.row128 KTerm.layer64 KTerm.layer128 KTerm.pooled KTerm.out)
open Cert.ReferenceIdeal (RTerm.Y0 RTerm.mean64 RTerm.var64 RTerm.act64 RTerm.mean128 RTerm.var128 RTerm.act128 RTerm.layer64 RTerm.layer128 RTerm.pooled RTerm.out)
open scoped BigOperators

variable [Cert.KernelIdeal.Facts] [Cert.ReferenceIdeal.Facts]

/-- A row with three unit axes spread over every sample reads, at (bb, mm, kk, c), the row's entry at channel c. -/
theorem spread64_apply (hb : (⟨4, ![1, 1, 1, 64]⟩ : Shape).BroadcastsInDim ⟨4, ![16, 1024, 32, 64]⟩ ![0, 1, 2, 3])
    (v : FVec Ideal ⟨4, ![1, 1, 1, 64]⟩ .f32) (bb : Fin 16) (mm : Fin 1024) (kk : Fin 32) (c : Fin 64) :
    broadcastInDim ⟨4, ![16, 1024, 32, 64]⟩ ![0, 1, 2, 3] hb v (ix4 bb mm kk c) = v (ix4 0 0 0 c) :=
  broadcastInDim_apply _ hb v _ (ix4 0 0 0 c) (by intro a; fin_cases a <;> rfl)

/-- A length-64 vector given three leading unit axes reads, at (0, 0, 0, c), the vector's entry c. -/
theorem lift64_apply (hb : (⟨1, ![64]⟩ : Shape).BroadcastsInDim ⟨4, ![1, 1, 1, 64]⟩ ![3])
    (v : FVec Ideal ⟨1, ![64]⟩ .f32) (c : Fin 64) :
    broadcastInDim ⟨4, ![1, 1, 1, 64]⟩ ![3] hb v (ix4 0 0 0 c) = v (ix1 c) :=
  broadcastInDim_apply _ hb v _ (ix1 c) (by intro a; fin_cases a; rfl)

/-- The reference's spreading of a kept-axes row over every sample, read at (bb, mm, kk, c). -/
theorem all64_apply (v : FVec Ideal ⟨4, ![1, 1, 1, 64]⟩ .f32) (bb : Fin 16) (mm : Fin 1024) (kk : Fin 32) (c : Fin 64) :
    Cert.ReferenceIdeal.RTerm.all64 v (ix4 bb mm kk c) = v (ix4 0 0 0 c) :=
  spread64_apply _ v bb mm kk c

/-- The reference's lifting of a per-channel vector to a kept-axes row, read at (0, 0, 0, c). -/
theorem up64_apply (v : FVec Ideal ⟨1, ![64]⟩ .f32) (c : Fin 64) :
    Cert.ReferenceIdeal.RTerm.up64 v (ix4 0 0 0 c) = v (ix1 c) :=
  lift64_apply _ v c

/-- The reference's rectified entry written with its own statistics: the normalised, scaled, shifted entry against 0. -/
theorem act64_apply (Y : FVec Ideal ⟨4, ![16, 1024, 32, 64]⟩ .f32) (g b : FVec Ideal ⟨1, ![64]⟩ .f32)
    (bb : Fin 16) (mm : Fin 1024) (kk : Fin 32) (c : Fin 64) :
    RTerm.act64 Y g b (ix4 bb mm kk c)
      = bnr (Y (ix4 bb mm kk c)) (RTerm.mean64 Y (ix4 0 0 0 c)) (RTerm.var64 Y (ix4 0 0 0 c)) (g (ix1 c)) (b (ix1 c)) := by
  unfold RTerm.act64 bnr
  rw [maximumf_apply, addf_apply, mulf_apply, mulf_apply, subf_apply,
    all64_apply, all64_apply, all64_apply, all64_apply, up64_apply, up64_apply]
  have hz : broadcastInDim Cert.ReferenceIdeal.S16x1024x32x64 ![] Cert.ReferenceIdeal.Facts₀.bcast_S_S16x1024x32x64
      Cert.ReferenceIdeal.RTerm.zero0 (ix4 bb mm kk c) = 0 := Ideal.ofBits_zero_f32
  rw [hz]
  rfl

/-- A row with three unit axes spread over every sample reads, at (bb, mm, kk, c), the row's entry at channel c. -/
theorem spread128_apply (hb : (⟨4, ![1, 1, 1, 128]⟩ : Shape).BroadcastsInDim ⟨4, ![16, 1024, 32, 128]⟩ ![0, 1, 2, 3])
    (v : FVec Ideal ⟨4, ![1, 1, 1, 128]⟩ .f32) (bb : Fin 16) (mm : Fin 1024) (kk : Fin 32) (c : Fin 128) :
    broadcastInDim ⟨4, ![16, 1024, 32, 128]⟩ ![0, 1, 2, 3] hb v (ix4 bb mm kk c) = v (ix4 0 0 0 c) :=
  broadcastInDim_apply _ hb v _ (ix4 0 0 0 c) (by intro a; fin_cases a <;> rfl)

/-- A length-128 vector given three leading unit axes reads, at (0, 0, 0, c), the vector's entry c. -/
theorem lift128_apply (hb : (⟨1, ![128]⟩ : Shape).BroadcastsInDim ⟨4, ![1, 1, 1, 128]⟩ ![3])
    (v : FVec Ideal ⟨1, ![128]⟩ .f32) (c : Fin 128) :
    broadcastInDim ⟨4, ![1, 1, 1, 128]⟩ ![3] hb v (ix4 0 0 0 c) = v (ix1 c) :=
  broadcastInDim_apply _ hb v _ (ix1 c) (by intro a; fin_cases a; rfl)

/-- The reference's spreading of a kept-axes row over every sample, read at (bb, mm, kk, c). -/
theorem all128_apply (v : FVec Ideal ⟨4, ![1, 1, 1, 128]⟩ .f32) (bb : Fin 16) (mm : Fin 1024) (kk : Fin 32) (c : Fin 128) :
    Cert.ReferenceIdeal.RTerm.all128 v (ix4 bb mm kk c) = v (ix4 0 0 0 c) :=
  spread128_apply _ v bb mm kk c

/-- The reference's lifting of a per-channel vector to a kept-axes row, read at (0, 0, 0, c). -/
theorem up128_apply (v : FVec Ideal ⟨1, ![128]⟩ .f32) (c : Fin 128) :
    Cert.ReferenceIdeal.RTerm.up128 v (ix4 0 0 0 c) = v (ix1 c) :=
  lift128_apply _ v c

/-- The reference's rectified entry written with its own statistics: the normalised, scaled, shifted entry against 0. -/
theorem act128_apply (Y : FVec Ideal ⟨4, ![16, 1024, 32, 128]⟩ .f32) (g b : FVec Ideal ⟨1, ![128]⟩ .f32)
    (bb : Fin 16) (mm : Fin 1024) (kk : Fin 32) (c : Fin 128) :
    RTerm.act128 Y g b (ix4 bb mm kk c)
      = bnr (Y (ix4 bb mm kk c)) (RTerm.mean128 Y (ix4 0 0 0 c)) (RTerm.var128 Y (ix4 0 0 0 c)) (g (ix1 c)) (b (ix1 c)) := by
  unfold RTerm.act128 bnr
  rw [maximumf_apply, addf_apply, mulf_apply, mulf_apply, subf_apply,
    all128_apply, all128_apply, all128_apply, all128_apply, up128_apply, up128_apply]
  have hz : broadcastInDim Cert.ReferenceIdeal.S16x1024x32x128 ![] Cert.ReferenceIdeal.Facts₀.bcast_S_S16x1024x32x128
      Cert.ReferenceIdeal.RTerm.zero0 (ix4 bb mm kk c) = 0 := Ideal.ofBits_zero_f32
  rw [hz]
  rfl

/-- 64 channels: the reference's rectified entry at sample (bb, mm, kk) is the specification's at row `tok bb mm kk`. -/
theorem act64_rel (Y : FVec Ideal ⟨4, ![16, 1024, 32, 64]⟩ .f32) (y : FVec Ideal ⟨2, ![524288, 64]⟩ .f32) (h : Rel4 Y y)
    (g b : FVec Ideal ⟨1, ![64]⟩ .f32) (bb : Fin 16) (mm : Fin 1024) (kk : Fin 32) (c : Fin 64) :
    RTerm.act64 Y g b (ix4 bb mm kk c)
      = bnAt y (KTerm.row64 (KTerm.mean64 y)) (KTerm.row64 (KTerm.var64 y)) (KTerm.row64 g) (KTerm.row64 b) (tok bb mm kk) c := by
  have hg : KTerm.row64 g (ix2 0 c) = g (ix1 c) := shapeCast_a_1a_apply g _ 0 c
  have hb' : KTerm.row64 b (ix2 0 c) = b (ix1 c) := shapeCast_a_1a_apply b _ 0 c
  rw [act64_apply, bnAt, h bb mm kk c, mean64_rel Y y h c, var64_rel Y y h c, hg, hb']

/-- 128 channels likewise. -/
theorem act128_rel (Y : FVec Ideal ⟨4, ![16, 1024, 32, 128]⟩ .f32) (y : FVec Ideal ⟨2, ![524288, 128]⟩ .f32) (h : Rel4 Y y)
    (g b : FVec Ideal ⟨1, ![128]⟩ .f32) (bb : Fin 16) (mm : Fin 1024) (kk : Fin 32) (c : Fin 128) :
    RTerm.act128 Y g b (ix4 bb mm kk c)
      = bnAt y (KTerm.row128 (KTerm.mean128 y)) (KTerm.row128 (KTerm.var128 y)) (KTerm.row128 g) (KTerm.row128 b) (tok bb mm kk) c := by
  have hg : KTerm.row128 g (ix2 0 c) = g (ix1 c) := shapeCast_a_1a_apply g _ 0 c
  have hb' : KTerm.row128 b (ix2 0 c) = b (ix1 c) := shapeCast_a_1a_apply b _ 0 c
  rw [act128_apply, bnAt, h bb mm kk c, mean128_rel Y y h c, var128_rel Y y h c, hg, hb']

/-- A 64-to-64 layer keeps the two sides' arrays in agreement. -/
theorem layer64_rel (Y : FVec Ideal ⟨4, ![16, 1024, 32, 64]⟩ .f32) (y : FVec Ideal ⟨2, ![524288, 64]⟩ .f32) (h : Rel4 Y y)
    (g b : FVec Ideal ⟨1, ![64]⟩ .f32) (W : FVec Ideal ⟨2, ![64, 64]⟩ .f32) :
    Rel4 (RTerm.layer64 Y g b W) (KTerm.layer64 y g b W) := by
  intro bb mm kk o
  unfold RTerm.layer64 KTerm.layer64
  rw [dot64_apply]
  show _ = bnmmAt y (KTerm.row64 (KTerm.mean64 y)) (KTerm.row64 (KTerm.var64 y)) (KTerm.row64 g) (KTerm.row64 b)
    (transpose Cert.KernelIdeal.S64x64 [1, 0] W Cert.KernelIdeal.Facts₀.transposes_S64x64_S64x64_1_0) (tok bb mm kk) o
  unfold bnmmAt
  refine Finset.sum_congr rfl fun c _ => ?_
  rw [act64_rel Y y h g b bb mm kk c, wT64_apply]

/-- The 64-to-128 layer likewise. -/
theorem layer128_rel (Y : FVec Ideal ⟨4, ![16, 1024, 32, 64]⟩ .f32) (y : FVec Ideal ⟨2, ![524288, 64]⟩ .f32) (h : Rel4 Y y)
    (g b : FVec Ideal ⟨1, ![64]⟩ .f32) (W : FVec Ideal ⟨2, ![128, 64]⟩ .f32) :
    Rel4 (RTerm.layer128 Y g b W) (KTerm.layer128 y g b W) := by
  intro bb mm kk o
  unfold RTerm.layer128 KTerm.layer128
  rw [dot128_apply]
  show _ = bnmmAt y (KTerm.row64 (KTerm.mean64 y)) (KTerm.row64 (KTerm.var64 y)) (KTerm.row64 g) (KTerm.row64 b)
    (transpose Cert.KernelIdeal.S64x128 [1, 0] W Cert.KernelIdeal.Facts₀.transposes_S128x64_S64x128_1_0) (tok bb mm kk) o
  unfold bnmmAt
  refine Finset.sum_congr rfl fun c _ => ?_
  rw [act64_rel Y y h g b bb mm kk c, wT128_apply]

end Cert.Bridge

end
-- ==== Proof.BridgePool.lean ====
/- The maximum over a query's 32 neighbours is the same on both sides (the reference folds them in order from −∞, the
   kernel takes the maximum of the set from −∞), and the two layouts of the result hold it at the same places; so the two
   programs' results are one function of the feature array and the parameters. -/
import proofs.«128494_j5145370821372_1_alg».proof.Proof.Spec
import proofs.«128494_j5145370821372_1_alg».proof.Proof.KTerm
import proofs.«128494_j5145370821372_1_alg».proof.Proof.RTerm
import proofs.«128494_j5145370821372_1_alg».proof.Proof.BridgeAct
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx Cert.SA
open Cert.KernelIdeal (KTerm.y0 KTerm.mean64 KTerm.var64 KTerm.row64 KTerm.mean128 KTerm.var128 KTerm.row128 KTerm.layer64 KTerm.layer128 KTerm.pooled KTerm.out)
open Cert.ReferenceIdeal (RTerm.Y0 RTerm.mean64 RTerm.var64 RTerm.act64 RTerm.mean128 RTerm.var128 RTerm.act128 RTerm.layer64 RTerm.layer128 RTerm.pooled RTerm.out)
open scoped BigOperators

variable [Cert.KernelIdeal.Facts] [Cert.ReferenceIdeal.Facts]

/-- Removing the neighbour axis from batch × query × neighbour × channel leaves batch × query × channel. -/
private theorem reduces_neighbours :
    (⟨4, ![16, 1024, 32, 128]⟩ : Shape).Reduces [2] (⟨3, ![16, 1024, 128]⟩ : Shape) := by decide

/-- The position (bb, mm, c) with neighbour k put back on the third axis is (bb, mm, k, c). -/
private theorem lift_neighbour (hR : (⟨4, ![16, 1024, 32, 128]⟩ : Shape).Reduces [2] (⟨3, ![16, 1024, 128]⟩ : Shape))
    (bb : Fin 16) (mm : Fin 1024) (c : Fin 128) (k : Fin 32) :
    hR.lift (ix3 bb mm c) k = ix4 bb mm k c := by
  funext a; apply Fin.ext
  fin_cases a <;> rfl

/-- The pooled arrays agree: the reference's at (b, m, c) is the kernel's at row `qry b m`, column c. -/
theorem pooled_rel (Y : FVec Ideal ⟨4, ![16, 1024, 32, 128]⟩ .f32) (y : FVec Ideal ⟨2, ![524288, 128]⟩ .f32) (h : Rel4 Y y)
    (g b : FVec Ideal ⟨1, ![128]⟩ .f32) (bb : Fin 16) (mm : Fin 1024) (c : Fin 128) :
    RTerm.pooled Y g b (ix3 bb mm c) = KTerm.pooled y g b (ix2 (qry bb mm) c) := by
  have hR := reduces_neighbours
  -- the reference's entry is the maximum, from −∞, over the 32 positions (bb, mm, k, c)
  refine (Host.reduce_eq_fold_single (FloatOps.maximumf (F := Ideal) (φ := .f32)) (RTerm.act128 Y g b) _
    Cert.ReferenceIdeal.Facts₀.reducesTo_S16x1024x32x128_S16x1024x128_d2 hR Cert.ReferenceIdeal.Facts₀.h_S_ (ix3 bb mm c)).trans ?_
  -- each of those entries is the specification's rectified entry of sample k of query (bb, mm)
  have hf : (RTerm.act128 Y g b ∘ hR.lift (ix3 bb mm c))
      = fun k : Fin 32 => bnAt y (KTerm.row128 (KTerm.mean128 y)) (KTerm.row128 (KTerm.var128 y)) (KTerm.row128 g) (KTerm.row128 b)
          (smp (qry bb mm) k) c :=
    funext fun k => (congrArg (RTerm.act128 Y g b) (lift_neighbour hR bb mm c k)).trans (act128_rel Y y h g b bb mm k c)
  exact congrArg (fun f => Finset.fold max (Ideal.ofBits .f32 0xFF800000#32) f (Finset.univ : Finset (Fin 32))) hf

/-- THE BRIDGE: from one feature array and the same parameters the two programs' second results are equal. -/
theorem out_eq (feat : FVec Ideal ⟨4, ![16, 1024, 32, 67]⟩ .f32) (W0 : FVec Ideal ⟨2, ![64, 67]⟩ .f32) (g0 b0 : FVec Ideal ⟨1, ![64]⟩ .f32)
    (W1 : FVec Ideal ⟨2, ![64, 64]⟩ .f32) (g1 b1 : FVec Ideal ⟨1, ![64]⟩ .f32) (W2 : FVec Ideal ⟨2, ![128, 64]⟩ .f32) (g2 b2 : FVec Ideal ⟨1, ![128]⟩ .f32) :
    RTerm.out feat W0 g0 b0 W1 g1 b1 W2 g2 b2 = KTerm.out feat W0 g0 b0 W1 g1 b1 W2 g2 b2 := by
  have hrel := layer128_rel _ _ (layer64_rel _ _ (y0_rel feat W0) g0 b0 W1) g1 b1 W2
  have hP : RTerm.pooled (RTerm.layer128 (RTerm.layer64 (RTerm.Y0 feat W0) g0 b0 W1) g1 b1 W2) g2 b2
      = shapeCast Cert.KernelIdeal.S16x1024x128
          (KTerm.pooled (KTerm.layer128 (KTerm.layer64 (KTerm.y0 feat W0) g0 b0 W1) g1 b1 W2) g2 b2)
          Cert.KernelIdeal.Facts₀.shapeCasts_S16384x128_S16x1024x128 := by
    -- position (bb, mm, c) of the three-axis array is position (bb · 1024 + mm, c) of the two-axis one: the same row-major place
    funext j
    obtain ⟨bb, mm, c, rfl⟩ : ∃ (bb : Fin 16) (mm : Fin 1024) (c : Fin 128), j = ix3 bb mm c := ⟨j 0, j 1, j 2, eq_ix3 j⟩
    refine (pooled_rel _ _ hrel g2 b2 bb mm c).trans (Eq.symm ?_)
    refine shapeCast_apply _ _ _ _ ?_
    rw [Shape.rowMajor_val_three, Shape.rowMajor_val_two]
    rfl
  -- the same exchange of the last two axes applied to equal arrays
  exact congrArg (fun a => transpose Cert.KernelIdeal.S16x128x1024 [0, 2, 1] a
    Cert.KernelIdeal.Facts₀.transposes_S16x1024x128_S16x128x1024_0_2_1) hP

end Cert.Bridge

end
-- ==== Proof.lean ====
/-
  The certificate. Both programs gather, for each of 16 × 1024 query points, the first 32 cloud points within the radius
  (out-of-radius slots refilled with the first), recentre their coordinates on the query and append their 64 features;
  three per-sample linear layers follow, each after the first preceded by a per-channel normalisation over all 524288
  samples, a scale, a shift and a rectification; the 32 samples of a query are then pooled by their maximum and the result
  is laid out batch × channel × query. The kernel's program keeps the samples as the rows of a two-axis array and computes
  the layers block by block on the TensorCore, the statistics on the host in between; the reference keeps the four axes
  (batch, query, neighbour, channel). At the extended reals the two are the same function: a sum over the rows of the
  sample-major array is the sum over (batch, query, neighbour), the rows being the samples in row-major order, and sums and
  maxima do not depend on the order; no operation is rewritten by the idealization, and no law used needs finiteness.
  * the three frames: the two generated frame theorems; the reference's run with the results dropped;
  * `preserves`: the idealization rewrote nothing;
  * `algebraic`: the kernel program's run read at its result buffer, that buffer as the composed term of the gathered
    feature array and the parameters; the reference's run likewise; the two feature arrays equal (the same operations on
    agreeing arguments); the two composed terms equal (the bridge).
-/
import proofs.«128494_j5145370821372_1_alg».proof.Defs
import proofs.«128494_j5145370821372_1_alg».proof.Proof.Gen.Kernel
import proofs.«128494_j5145370821372_1_alg».proof.Proof.Gen.Kernel.Frame
import proofs.«128494_j5145370821372_1_alg».proof.Proof.Gen.KernelIdeal
import proofs.«128494_j5145370821372_1_alg».proof.Proof.Gen.KernelIdeal.Frame
import proofs.«128494_j5145370821372_1_alg».proof.Proof.Gen.ReferenceIdeal
import proofs.«128494_j5145370821372_1_alg».proof.Proof.Gen.Pre_finite_inputs
import proofs.«128494_j5145370821372_1_alg».proof.Proof.KRun
import proofs.«128494_j5145370821372_1_alg».proof.Proof.KHost
import proofs.«128494_j5145370821372_1_alg».proof.Proof.KReg0
import proofs.«128494_j5145370821372_1_alg».proof.Proof.KReg1
import proofs.«128494_j5145370821372_1_alg».proof.Proof.KReg2
import proofs.«128494_j5145370821372_1_alg».proof.Proof.KReg3
import proofs.«128494_j5145370821372_1_alg».proof.Proof.RRun
import proofs.«128494_j5145370821372_1_alg».proof.Proof.RRead
import proofs.«128494_j5145370821372_1_alg».proof.Proof.Head
import proofs.«128494_j5145370821372_1_alg».proof.Proof.BridgePool
import Idealize.ShloMosaic.Adequacy
import Idealize.ShloMosaic.Init

set_option maxRecDepth 16384

noncomputable section

namespace Cert.Proof

open Idealize.ShloMosaic Idealize.SL.Sem Idealize.ShloMosaic.StableHlo

/-- The word-level program terminates, nothing faulting, its arguments unchanged. -/
theorem frame_kernel : Cert.frame_Kernel := fun m ρ _ => Cert.Kernel.Gen.frame m ρ

/-- The idealized program likewise. -/
theorem frame_kernelIdeal : Cert.frame_KernelIdeal := fun m ρ _ => Cert.KernelIdeal.Gen.frame m ρ

/-- The reference terminates with every buffer at the fold of its operations; no operation writes an argument. -/
theorem frame_referenceIdeal : Cert.frame_ReferenceIdeal := fun m ρ _ =>
  (θ_run Cert.ReferenceIdeal.defs _ _).mono (fun r h c =>
    ⟨(h c Cert.ReferenceIdeal.main_arg0).trans ((Cert.ReferenceIdeal.Read.tail_arg0 _).trans (Cert.ReferenceIdeal.Read.head_arg0 _)),
     (h c Cert.ReferenceIdeal.main_arg1).trans ((Cert.ReferenceIdeal.Read.tail_arg1 _).trans (Cert.ReferenceIdeal.Read.head_arg1 _)),
     (h c Cert.ReferenceIdeal.main_arg2).trans ((Cert.ReferenceIdeal.Read.tail_arg2 _).trans (Cert.ReferenceIdeal.Read.head_arg2 _)),
     (h c Cert.ReferenceIdeal.main_arg3).trans ((Cert.ReferenceIdeal.Read.tail_arg3 _).trans (Cert.ReferenceIdeal.Read.head_arg3 _)),
     (h c Cert.ReferenceIdeal.main_arg4).trans ((Cert.ReferenceIdeal.Read.tail_arg4 _).trans (Cert.ReferenceIdeal.Read.head_arg4 _)),
     (h c Cert.ReferenceIdeal.main_arg5).trans ((Cert.ReferenceIdeal.Read.tail_arg5 _).trans (Cert.ReferenceIdeal.Read.head_arg5 _)),
     (h c Cert.ReferenceIdeal.main_arg6).trans ((Cert.ReferenceIdeal.Read.tail_arg6 _).trans (Cert.ReferenceIdeal.Read.head_arg6 _)),
     (h c Cert.ReferenceIdeal.main_arg7).trans ((Cert.ReferenceIdeal.Read.tail_arg7 _).trans (Cert.ReferenceIdeal.Read.head_arg7 _)),
     (h c Cert.ReferenceIdeal.main_arg8).trans ((Cert.ReferenceIdeal.Read.tail_arg8 _).trans (Cert.ReferenceIdeal.Read.head_arg8 _)),
     (h c Cert.ReferenceIdeal.main_arg9).trans ((Cert.ReferenceIdeal.Read.tail_arg9 _).trans (Cert.ReferenceIdeal.Read.head_arg9 _)),
     (h c Cert.ReferenceIdeal.main_arg10).trans ((Cert.ReferenceIdeal.Read.tail_arg10 _).trans (Cert.ReferenceIdeal.Read.head_arg10 _)),
     (h c Cert.ReferenceIdeal.main_arg11).trans ((Cert.ReferenceIdeal.Read.tail_arg11 _).trans (Cert.ReferenceIdeal.Read.head_arg11 _))⟩)
    (Cert.ReferenceIdeal.Run.run (F := Ideal) m ρ)

/-- The idealization rewrote no operation. -/
theorem preserves : Cert.preserves_Kernel_KernelIdeal := trivial

/-- From memories agreeing on the twelve arguments both idealized programs run to the same results: the query points
    themselves, and the pooled features, one composed function of the gathered feature array and the nine parameter arrays. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg1),
    fun c => Cert.KernelIdeal.KTerm.out (Cert.KernelIdeal.Gen.W8 (F := Ideal) m ρ c (Proc.devRef .tc Cert.KernelIdeal.main_v37))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.GenRead.run_read (F := Ideal) m ρ)
    obtain ⟨hv, h0, h1, h2, h3, h4, h5, h6, h7, h8, h9, h10, h11⟩ := h c
    exact ⟨h1, hv.trans (Cert.KernelIdeal.Host.result_eq m ρ Cert.KernelIdeal.Reg0.final Cert.KernelIdeal.Reg1.final Cert.KernelIdeal.Reg2.final Cert.KernelIdeal.Reg3.final c), h0, h1, h2, h3, h4, h5, h6, h7, h8, h9, h10, h11⟩
  · refine (θ_run Cert.ReferenceIdeal.defs _ _).mono (fun r h c => ?_) (Cert.ReferenceIdeal.Run.run (F := Ideal) m' ρ')
    have hfeat := Cert.Head.feat_agree m ρ m' c (hagree c).1 (hagree c).2.1 (hagree c).2.2.1
    have e3 := (Cert.ReferenceIdeal.Read.head_arg3 (launchContents m' c)).trans (hagree c).2.2.2.1
    have e4 := (Cert.ReferenceIdeal.Read.head_arg4 (launchContents m' c)).trans (hagree c).2.2.2.2.1
    have e5 := (Cert.ReferenceIdeal.Read.head_arg5 (launchContents m' c)).trans (hagree c).2.2.2.2.2.1
    have e6 := (Cert.ReferenceIdeal.Read.head_arg6 (launchContents m' c)).trans (hagree c).2.2.2.2.2.2.1
    have e7 := (Cert.ReferenceIdeal.Read.head_arg7 (launchContents m' c)).trans (hagree c).2.2.2.2.2.2.2.1
    have e8 := (Cert.ReferenceIdeal.Read.head_arg8 (launchContents m' c)).trans (hagree c).2.2.2.2.2.2.2.2.1
    have e9 := (Cert.ReferenceIdeal.Read.head_arg9 (launchContents m' c)).trans (hagree c).2.2.2.2.2.2.2.2.2.1
    have e10 := (Cert.ReferenceIdeal.Read.head_arg10 (launchContents m' c)).trans (hagree c).2.2.2.2.2.2.2.2.2.2.1
    have e11 := (Cert.ReferenceIdeal.Read.head_arg11 (launchContents m' c)).trans (hagree c).2.2.2.2.2.2.2.2.2.2.2
    refine ⟨?_, ?_, (h c Cert.ReferenceIdeal.main_arg0).trans ((Cert.ReferenceIdeal.Read.tail_arg0 _).trans (Cert.ReferenceIdeal.Read.head_arg0 _)),
      (h c Cert.ReferenceIdeal.main_arg1).trans ((Cert.ReferenceIdeal.Read.tail_arg1 _).trans (Cert.ReferenceIdeal.Read.head_arg1 _)),
      (h c Cert.ReferenceIdeal.main_arg2).trans ((Cert.ReferenceIdeal.Read.tail_arg2 _).trans (Cert.ReferenceIdeal.Read.head_arg2 _)),
      (h c Cert.ReferenceIdeal.main_arg3).trans ((Cert.ReferenceIdeal.Read.tail_arg3 _).trans (Cert.ReferenceIdeal.Read.head_arg3 _)),
      (h c Cert.ReferenceIdeal.main_arg4).trans ((Cert.ReferenceIdeal.Read.tail_arg4 _).trans (Cert.ReferenceIdeal.Read.head_arg4 _)),
      (h c Cert.ReferenceIdeal.main_arg5).trans ((Cert.ReferenceIdeal.Read.tail_arg5 _).trans (Cert.ReferenceIdeal.Read.head_arg5 _)),
      (h c Cert.ReferenceIdeal.main_arg6).trans ((Cert.ReferenceIdeal.Read.tail_arg6 _).trans (Cert.ReferenceIdeal.Read.head_arg6 _)),
      (h c Cert.ReferenceIdeal.main_arg7).trans ((Cert.ReferenceIdeal.Read.tail_arg7 _).trans (Cert.ReferenceIdeal.Read.head_arg7 _)),
      (h c Cert.ReferenceIdeal.main_arg8).trans ((Cert.ReferenceIdeal.Read.tail_arg8 _).trans (Cert.ReferenceIdeal.Read.head_arg8 _)),
      (h c Cert.ReferenceIdeal.main_arg9).trans ((Cert.ReferenceIdeal.Read.tail_arg9 _).trans (Cert.ReferenceIdeal.Read.head_arg9 _)),
      (h c Cert.ReferenceIdeal.main_arg10).trans ((Cert.ReferenceIdeal.Read.tail_arg10 _).trans (Cert.ReferenceIdeal.Read.head_arg10 _)),
      (h c Cert.ReferenceIdeal.main_arg11).trans ((Cert.ReferenceIdeal.Read.tail_arg11 _).trans (Cert.ReferenceIdeal.Read.head_arg11 _))⟩
    · exact (h c Cert.ReferenceIdeal.main_arg1).trans ((Cert.ReferenceIdeal.Read.tail_arg1 _).trans ((Cert.ReferenceIdeal.Read.head_arg1 _).trans (hagree c).2.1))
    · refine (h c Cert.ReferenceIdeal.main_v99).trans ((Cert.ReferenceIdeal.Read.tail_result _).trans ?_)
      rw [hfeat, e3, e4, e5, e6, e7, e8, e9, e10, e11]
      exact Cert.Bridge.out_eq _ _ _ _ _ _ _ _ _ _

/-- The certificate's claim. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
